-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_v28 : IVec S_ 1) (main_v33 : IVec S2x640000 1) : IVec S_ 1 :=
  let main_c_12 : IVec S_ 1 := constantI S_ 1 1#1
  let main_v34 : IVec S_ 1 := (fun x v => Host.reduce IntOp.andi x v reducesTo_S2x640000_S_d0_1 h_S_) main_v33 main_c_12
  let main_v35 : IVec S_ 1 := andi main_v28 main_v34
  main_v35

def fn_part1 {F : FTy → Type} [FloatOps F] (main_arg1 : IVec S2x640000 32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg1 main_v29
  let main_c_11 : IVec S_ 32 := constantI S_ 32 10000#32
  let main_v31 : IVec S2x640000 32 := broadcastInDim S2x640000 ![] bcast_S_S2x640000 main_c_11
  let main_v32 : IVec S2x640000 1 := cmpi .slt main_arg1 main_v31
  let main_v33 : IVec S2x640000 1 := andi main_v30 main_v32
  fn_part2 (F := F) main_v28 main_v33

def fn {F : FTy → Type} [FloatOps F] (main_arg0 : FVec F S10000x128 .f32) (main_arg1 : IVec S2x640000 32) (main_arg2 : FVec F S640000 .f32) (main_arg3 : FVec F S128x128 .f32) (main_arg4 : FVec F S128 .f32) (main_arg5 : FVec F S128x64 .f32) (main_arg6 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1 : Shape := ⟨1, ![1]⟩
abbrev S1x128 : Shape := ⟨2, ![1, 128]⟩
abbrev S2048x2048 : Shape := ⟨2, ![2048, 2048]⟩
abbrev S2048x128 : Shape := ⟨2, ![2048, 128]⟩
abbrev S10240x64 : Shape := ⟨2, ![10240, 64]⟩
abbrev S1x64 : Shape := ⟨2, ![1, 64]⟩
abbrev S2048x64 : Shape := ⟨2, ![2048, 64]⟩
abbrev S10000x64 : Shape := ⟨2, ![10000, 64]⟩

abbrev nBuf : Space → Nat
  | .hbm => 84
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S10000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S10000, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S_, .f32⟩
  | .hbm, ⟨50, _⟩ => ⟨S10240x10240, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x1, .i32⟩
  | .hbm, ⟨67, _⟩ => ⟨S650000x2, .i32⟩
  | .hbm, ⟨68, _⟩ => ⟨S10240x10240, .f32⟩
  | .hbm, ⟨69, _⟩ => ⟨S10240x10240, .bf16⟩
  | .hbm, ⟨70, _⟩ => ⟨S_, .f32⟩
  | .hbm, ⟨71, _⟩ => ⟨S10240x128, .f32⟩
  | .hbm, ⟨72, _⟩ => ⟨S_, .i32⟩
  | .hbm, ⟨73, _⟩ => ⟨S1, .i32⟩
  | .hbm, ⟨74, _⟩ => ⟨S10240x128, .f32⟩
  | .hbm, ⟨75, _⟩ => ⟨S10240x128, .f32⟩
  | .hbm, ⟨76, _⟩ => ⟨S10240x128, .bf16⟩
  | .hbm, ⟨77, _⟩ => ⟨S1x128, .f32⟩
  | .hbm, ⟨78, _⟩ => ⟨S10240x128, .f32⟩
  | .hbm, ⟨79, _⟩ => ⟨S10240x64, .f32⟩
  | .hbm, ⟨80, _⟩ => ⟨S10240x64, .bf16⟩
  | .hbm, ⟨81, _⟩ => ⟨S1x64, .f32⟩
  | .hbm, ⟨82, _⟩ => ⟨S10240x64, .f32⟩
  | .hbm, ⟨83, _⟩ => ⟨S10000x64, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x2048, .bf16⟩
  | .local _ .vmem, ⟨9, _⟩ => ⟨S2048x2048, .bf16⟩
  | .local _ .vmem, ⟨10, _⟩ => ⟨S2048x64, .bf16⟩
  | .local _ .vmem, ⟨11, _⟩ => ⟨S2048x64, .bf16⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![5, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S10240x64_S10000x64_0_0 : S10240x64.Slices ![0, 0] S10000x64
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  scatter_S10240x128_S1_S10000x128_01_n_0_0_wf : ScatterDims.WF S10240x128 S1 S10000x128 [0, 1] [] [0] 0
  dot_S10240x128_S128x128_S10240x128_1_0_0_1_n_n_wf : DotDims.WF S10240x128 S128x128 S10240x128 [1] [0] [0] [1] [] []
  dot_S2048x2048_S2048x128_S2048x128_1_0_0_1_n_n_wf : DotDims.WF S2048x2048 S2048x128 S2048x128 [1] [0] [0] [1] [] []
  dot_S10240x128_S128x64_S10240x64_1_0_0_1_n_n_wf : DotDims.WF S10240x128 S128x64 S10240x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S10240x10240.size a
  hwx0_0 : ∀ i : grid0.Coords, EltTy.bits .bf16 = 32 ∨ (Rect.block (s := S10240x10240) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .bf16 = 32 ∨ (Rect.block (s := S10240x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S10240x128.size a
  hwx0_3 : ∀ i : grid0.Coords, EltTy.bits .f32 = 32 ∨ (Rect.block (s := S10240x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S10240x64.size a
  hwx1_1 : ∀ i : grid1.Coords, EltTy.bits .bf16 = 32 ∨ (Rect.block (s := S10240x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S10240x64.size a
  hwx1_3 : ∀ i : grid1.Coords, EltTy.bits .f32 = 32 ∨ (Rect.block (s := S10240x64) S2048x64.size (cc1_transform_3 i) (hinb1_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S10240x128_S128x64_S10240x64_1_0_0_1_n_n : DotDims S10240x128 S128x64 S10240x64 where
  lhsContracting := [1]
  rhsContracting := [0]
  lhsNonContracting := [0]
  rhsNonContracting := [1]
  lhsBatch := []
  rhsBatch := []
  wf := dot_S10240x128_S128x64_S10240x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v47) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v47) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S10000x128, .f32⟩
  | 1 => ⟨S2x640000, .i32⟩
  | 2 => ⟨S640000, .f32⟩
  | 3 => ⟨S128x128, .f32⟩
  | 4 => ⟨S128, .f32⟩
  | 5 => ⟨S128x64, .f32⟩
  | 6 => ⟨S64, .f32⟩
  | 7 => ⟨S1x640000, .i32⟩
  | 8 => ⟨S640000, .i32⟩
  | 9 => ⟨S1x640000, .i32⟩
  | 10 => ⟨S640000, .i32⟩
  | 11 => ⟨S10000, .i32⟩
  | 12 => ⟨S650000, .i32⟩
  | 13 => ⟨S650000, .i32⟩
  | 14 => ⟨S_, .f32⟩
  | 15 => ⟨S10000, .f32⟩
  | 16 => ⟨S650000, .f32⟩
  | 17 => ⟨S_, .f32⟩
  | 18 => ⟨S10000, .f32⟩
  | 19 => ⟨S650000x1, .i32⟩
  | 20 => ⟨S10000, .f32⟩
  | 21 => ⟨S_, .f32⟩
  | 22 => ⟨S10000, .f32⟩
  | 23 => ⟨S10000, .i1⟩
  | 24 => ⟨S10000, .f32⟩
  | 25 => ⟨S_, .f32⟩
  | 26 => ⟨S_, .f32⟩
  | 27 => ⟨S10000, .f32⟩
  | 28 => ⟨S10000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S10000x128, .f32⟩
  | 50 => ⟨S650000x1, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000x128, .f32⟩
  | 60 => ⟨S650000x128, .f32⟩
  | 61 => ⟨S650000x128, .f32⟩
  | 62 => ⟨S_, .f32⟩
  | 63 => ⟨S10000x128, .f32⟩
  | 64 => ⟨S650000x1, .i32⟩
  | 65 => ⟨S10000x128, .f32⟩
  | 66 => ⟨S1x128, .f32⟩
  | 67 => ⟨S10000x128, .f32⟩
  | 68 => ⟨S10000x128, .f32⟩
  | 69 => ⟨S_, .f32⟩
  | 70 => ⟨S10000x128, .f32⟩
  | 71 => ⟨S10000x128, .f32⟩
  | 72 => ⟨S1x640000, .i32⟩
  | 73 => ⟨S640000, .i32⟩
  | 74 => ⟨S1x640000, .i32⟩
  | 75 => ⟨S640000, .i32⟩
  | 76 => ⟨S10000, .i32⟩
  | 77 => ⟨S650000, .i32⟩
  | 78 => ⟨S650000, .i32⟩
  | 79 => ⟨S_, .f32⟩
  | 80 => ⟨S10000, .f32⟩
  | 81 => ⟨S650000, .f32⟩
  | 82 => ⟨S_, .f32⟩
  | 83 => ⟨S10000, .f32⟩
  | 84 => ⟨S650000x1, .i32⟩
  | 85 => ⟨S10000, .f32⟩
  | 86 => ⟨S_, .f32⟩
  | 87 => ⟨S10000, .f32⟩
  | 88 => ⟨S10000, .i1⟩
  | 89 => ⟨S10000, .f32⟩
  | 90 => ⟨S_, .f32⟩
  | 91 => ⟨S_, .f32⟩
  | 92 => ⟨S10000, .f32⟩
  | 93 => ⟨S10000, .f32⟩
  | 94 => ⟨S_, .i32⟩
  | 95 => ⟨S650000, .i32⟩
  | 96 => ⟨S650000, .i1⟩
  | 97 => ⟨S_, .i32⟩
  | 98 => ⟨S650000, .i32⟩
  | 99 => ⟨S650000, .i32⟩
  | 100 => ⟨S650000, .i32⟩
  | 101 => ⟨S650000x1, .i32⟩
  | 102 => ⟨S650000, .f32⟩
  | 103 => ⟨S650000, .f32⟩
  | 104 => ⟨S_, .i32⟩
  | 105 => ⟨S650000, .i32⟩
  | 106 => ⟨S650000, .i1⟩
  | 107 => ⟨S_, .i32⟩
  | 108 => ⟨S650000, .i32⟩
  | 109 => ⟨S650000, .i32⟩
  | 110 => ⟨S650000, .i32⟩
  | 111 => ⟨S650000x1, .i32⟩
  | 112 => ⟨S650000, .f32⟩
  | 113 => ⟨S650000, .f32⟩
  | 114 => ⟨S10000x64, .f32⟩
  | 115 => ⟨S650000x1, .f32⟩
  | 116 => ⟨S_, .i32⟩
  | 117 => ⟨S650000, .i32⟩
  | 118 => ⟨S650000, .i1⟩
  | 119 => ⟨S_, .i32⟩
  | 120 => ⟨S650000, .i32⟩
  | 121 => ⟨S650000, .i32⟩
  | 122 => ⟨S650000, .i32⟩
  | 123 => ⟨S650000x1, .i32⟩
  | 124 => ⟨S650000x64, .f32⟩
  | 125 => ⟨S650000x64, .f32⟩
  | 126 => ⟨S650000x64, .f32⟩
  | 127 => ⟨S_, .f32⟩
  | _ => ⟨S10000x128, .f32⟩

abbrev hbmTy0_1 (i : Nat) : BufTy := match i % 128 with
  | 0 => ⟨S10000x64, .f32⟩
  | 1 => ⟨S650000x1, .i32⟩
  | 2 => ⟨S10000x64, .f32⟩
  | 3 => ⟨S1x64, .f32⟩
  | 4 => ⟨S10000x64, .f32⟩
  | 5 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x64_0_1 : S650000x1.BroadcastsInDim S650000x64 (![0, 1] : Fin 2 → Fin S650000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x64_S10000x64_1_0_0_1_n_n_wf : DotDims.WF S10000x128 S128x64 S10000x64 [1] [0] [0] [1] [] []
  gather_S10000x64_S650000x1_S650000x64_1_0_n_n_0_1_164_wf : GatherDims.WF S10000x64 S650000x1 S650000x64 [1] [0] [] [0] [] 1 ![1, 64]
  scatter_S10000x64_S650000x1_S650000x64_1_0_0_1_wf : ScatterDims.WF S10000x64 S650000x1 S650000x64 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S650000x1_S650000x64_1_0_n_n_0_1_164 : GatherDims S10000x64 S650000x1 S650000x64 where
  offsetDims := [1]
  collapsedSliceDims := [0]
  operandBatchingDims := []
  startIndicesBatchingDims := []
  startIndexMap := [0]
  indexVectorDim := 1
  sliceSizes := ![1, 64]
  wf := gather_S10000x64_S650000x1_S650000x64_1_0_n_n_0_1_164_wf
def scatter_S10000x64_S650000x1_S650000x64_1_0_0_1 : ScatterDims S10000x64 S650000x1 S650000x64 where
  updateWindowDims := [1]
  insertedWindowDims := [0]
  scatterDimsToOperandDims := [0]
  indexVectorDim := 1
  wf := scatter_S10000x64_S650000x1_S650000x64_1_0_0_1_wf

class Facts : Prop extends Facts₀ where

variable [Facts]
-- ==== Proof.K.Region0.lean ====
/-
  Region 0 (the first aggregation matmul, 2048x128 output blocks): what the pipeline's buffers hold point by
  point, the proof data and the body obligation, at the contents `V` the region is entered with.
-/
import proofs.«424546_j8289286881626_1_alg».proof.Proof.Gen.Kernel.Launch
import proofs.«424546_j8289286881626_1_alg».proof.Proof.Gen.Kernel.Skeleton
import proofs.«424546_j8289286881626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first conditional (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points whose second coordinate is 0. -/
theorem hcond0_0 : ∀ t : Fin cfg0.N, cond0_0 (grid0.coords t) ↔ t.val % 5 = 0 :=
  (by decide +kernel : ∀ t : Fin grid0.N, cond0_0 (grid0.coords t) ↔ t.val % 5 = 0)

/-- The condition of the body's second conditional (the output block is stored). -/
abbrev cond0_1 (i : grid0.Coords) : Prop := k0_cond2 i = 1#1
/-- It holds at the points whose second coordinate is 4. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not stored the output window is idle, -/
theorem idleAt0_3 : ∀ t : Fin cfg0.N, ¬cond0_1 (grid0.coords t) → cfg0.idle 3 (grid0.coords t) = true := by decide +kernel
/-- and the pipeline does not write it back there; -/
theorem noFlush0_3 : ∀ t : Fin cfg0.N, ¬cond0_1 (grid0.coords t) → (cfg0.win 3).flush t = false := by decide +kernel
/-- where it is stored the window is live. -/
theorem liveAt0_3 : ∀ t : Fin cfg0.N, cond0_1 (grid0.coords t) → cfg0.idle 3 (grid0.coords t) = false := by decide +kernel

/-! ## The staging memrefs and the scratch accumulator -/

/-- One staging buffer of the output window, through which its contents are stated. -/
abbrev VO0_3 : View sig .tc .vmem S2048x128 .f32 := (Memref.whole cc0_stg3_0 : Memref sig .tc .vmem S2048x128 .f32).view
/-- Each window's current staging memref at point `t`, and its wholeness. -/
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S2048x128 .f32 := Memref.whole cc0_scratch0
/-- The accumulator as a view: what it holds is stated through it. -/
abbrev VS0_0 : View sig .tc .vmem S2048x128 .f32 := scM0_0.view

/-- The core's scoped buffers that belong to neither this region's staging nor its accumulator (the other region's
    staging buffers and accumulator), each whole at some contents: carried untouched through the region. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; simp only [scM0_0, owns_whole]; unfold Rest0; rfl

/-! ## The kernel body on any staging memrefs, case by case -/

set_option maxHeartbeats 1000000 in
/-- CASE A (second coordinate 0): the accumulator is reset and this point's product added. What the body's stores
    leave in the accumulator, as pieces (last first), with the proof that on whole memrefs — the inputs' at their
    contents, the output's at contents handed back untouched, the accumulator at anything — the body runs to the
    continuation holding the inputs' and the output's as they were and the accumulator with its pieces written. -/
noncomputable def kernelRun0_A (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x2048 .bf16) (x1 : Vec F S2048x128 .bf16) (x2 : Vec F S1x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (second coordinate 1, 2 or 3): this point's product is added to the accumulator, which the body is handed
    at what the point before left (`xs0`); the output is handed back untouched. -/
noncomputable def kernelRun0_B (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x2048 .bf16) (x1 : Vec F S2048x128 .bf16) (x2 : Vec F S1x128 .f32) (xs0 : Vec F S2048x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (second coordinate 4): this point's product is added to the accumulator (handed at what the point before
    left, `xs0`), then the bias and the rectifier are applied to it and the result stored into the output, which the
    body is handed at anything. The pieces of the output (`.1`) and of the accumulator (`.2`). -/
noncomputable def kernelRun0_C (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, ?_, fun E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Window `w`'s block at point `t`, read off its array as the region finds it. -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves: the pieces read back -/

/-- Case A's pieces for the accumulator cover it (the last store is of the whole buffer). -/
theorem scover0_A_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) (y : S2048x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S2048x128.size (by sl_kernel_rfl) y

/-- What case A leaves in the accumulator: its pieces read back over junk. -/
def sout0_A_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) : Vec F S2048x128 .f32 :=
  VS0_0.read (Elt F) (VS0_0.writes (Elt F) VS0_0.junk (kernelRun0_A c i arg2 harg2 arg3 harg3 arg4 harg4 arg5 harg5 arg6 harg6 hc0 hc1 x0 x1 x2).1)

/-- Case B's pieces for the accumulator cover it. -/
theorem scover0_B_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) (y : S2048x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S2048x128.size (by sl_kernel_rfl) y

/-- What case B leaves in the accumulator. -/
def sout0_B_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).1)

/-- Case C's pieces for the output cover its block (one store of the whole block). -/
theorem cover0_C_3 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x128.size (by sl_kernel_rfl) y

/-- What case C leaves in the output's staging buffer. -/
def out0_C_3 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) : Vec F S2048x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the accumulator cover it. -/
theorem scover0_C_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x128.size (by sl_kernel_rfl) y

/-- What case C leaves in the accumulator. -/
def sout0_C_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- The output component where the body stores nothing into the output (the window is idle there and not written
    back, so nothing consults it). -/
def out0_idle : Vec F S2048x128 .f32 := VO0_3.read (Elt F) VO0_3.junk

/-! ## What the output's buffer and the accumulator hold after each point -/

/-- A point of case A: (nothing for the output, the accumulator reset and this point's product added). -/
def ptA (V : (c : Dev nD) → (b : Ref sig .tc) → Buf (Elt F) ((c : Thread nD τ).loc b)) (c : Dev nD) (t : Fin cfg0.N) (h0 : t.val % 5 = 0) : Vec F S2048x128 .f32 × Vec F S2048x128 .f32 :=
  (out0_idle, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t))

/-- A point of case B, the accumulator found at `xs`. -/
def ptB (V : (c : Dev nD) → (b : Ref sig .tc) → Buf (Elt F) ((c : Thread nD τ).loc b)) (c : Dev nD) (t : Fin cfg0.N) (h0 : ¬t.val % 5 = 0) (h1 : ¬t.val % 5 = 4) (xs : Vec F S2048x128 .f32) : Vec F S2048x128 .f32 × Vec F S2048x128 .f32 :=
  (out0_idle, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs)

/-- A point of case C, the accumulator found at `xs`. -/
def ptC (V : (c : Dev nD) → (b : Ref sig .tc) → Buf (Elt F) ((c : Thread nD τ).loc b)) (c : Dev nD) (t : Fin cfg0.N) (h0 : ¬t.val % 5 = 0) (h1 : t.val % 5 = 4) (xs : Vec F S2048x128 .f32) : Vec F S2048x128 .f32 × Vec F S2048x128 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs)

/-- After point `n`: (the output window's staging buffer, the accumulator scratch) — the case the point is in, run at
    the point's memrefs and input blocks, the accumulator found at what the point before left. -/
def outsAt0 (V : (c : Dev nD) → (b : Ref sig .tc) → Buf (Elt F) ((c : Thread nD τ).loc b)) (c : Dev nD) : (n : ℕ) → n < cfg0.N → Vec F S2048x128 .f32 × Vec F S2048x128 .f32
  | 0, hn => ptA V c ⟨0, hn⟩ (Nat.zero_mod 5)
  | n + 1, hn =>
    if h0 : (n + 1) % 5 = 0 then ptA V c ⟨n + 1, hn⟩ h0
    else if h1 : (n + 1) % 5 = 4 then ptC V c ⟨n + 1, hn⟩ h0 h1 (outsAt0 V c n (Nat.lt_of_succ_lt hn)).2
    else ptB V c ⟨n + 1, hn⟩ h0 h1 (outsAt0 V c n (Nat.lt_of_succ_lt hn)).2

theorem outsAt0_A (V : (c : Dev nD) → (b : Ref sig .tc) → Buf (Elt F) ((c : Thread nD τ).loc b)) (c : Dev nD) (t : Fin cfg0.N) (h0 : t.val % 5 = 0) :
    outsAt0 V c t.val t.isLt = ptA V c t h0 := by
  obtain ⟨n, hn⟩ := t
  cases n with
  | zero => exact rfl
  | succ n => exact (dif_pos h0).trans rfl

theorem outsAt0_B (V : (c : Dev nD) → (b : Ref sig .tc) → Buf (Elt F) ((c : Thread nD τ).loc b)) (c : Dev nD) (t : Fin cfg0.N) (h0 : ¬t.val % 5 = 0) (h1 : ¬t.val % 5 = 4) :
    outsAt0 V c t.val t.isLt = ptB V c t h0 h1 (outsAt0 V c (t.val - 1) (Nat.lt_of_le_of_lt (Nat.sub_le _ _) t.isLt)).2 := by
  obtain ⟨n, hn⟩ := t
  cases n with
  | zero => exact absurd (Nat.zero_mod 5) h0
  | succ n => exact (dif_neg h0).trans ((dif_neg h1).trans rfl)

theorem outsAt0_C (V : (c : Dev nD) → (b : Ref sig .tc) → Buf (Elt F) ((c : Thread nD τ).loc b)) (c : Dev nD) (t : Fin cfg0.N) (h0 : ¬t.val % 5 = 0) (h1 : t.val % 5 = 4) :
    outsAt0 V c t.val t.isLt = ptC V c t h0 h1 (outsAt0 V c (t.val - 1) (Nat.lt_of_le_of_lt (Nat.sub_le _ _) t.isLt)).2 := by
  obtain ⟨n, hn⟩ := t
  cases n with
  | zero => exact absurd (Nat.zero_mod 5) h0
  | succ n => exact (dif_neg h0).trans ((dif_pos h1).trans rfl)

/-- The region invariant before position `n`: before the first point the launch's (every scoped buffer at anything);
    afterwards the accumulator at what the point before left in it, the other scoped buffers at anything, and the
    generator register at some state. -/
def PhiS (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (V : (c : Dev nD) → (b : Ref sig .tc) → Buf (Elt F) ((c : Thread nD τ).loc b)) (c : Dev nD) (n : ℕ) (h : n ≤ cfg0.N) (hz : n = 0) : PhiS V c n h = Pipeline.ΦA spec0 c := by
  subst hz; rfl

theorem PhiS_succ (V : (c : Dev nD) → (b : Ref sig .tc) → Buf (Elt F) ((c : Thread nD τ).loc b)) (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl

theorem PhiS_pos (V : (c : Dev nD) → (b : Ref sig .tc) → Buf (Elt F) ((c : Thread nD τ).loc b)) (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The pipeline's proof data -/

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (V : (c : Dev nD) → (b : Ref sig .tc) → Buf (Elt F) ((c : Thread nD τ).loc b)) (c : Dev nD) (w : Fin cfg0.W) : (dat0 V c).A w = V c (Pipeline.arrRef spec0 w) := by
  dsimp only [dat0]
theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = (outsAt0 V c t.val t.isLt).1 := by dsimp only [dat0]
theorem share0 (V : (c : Dev nD) → (b : Ref sig .tc) → Buf (Elt F) ((c : Thread nD τ).loc b)) (c : Dev nD) (w : Fin cfg0.W) : (dat0 V c).q w = fullShare := by dsimp only [dat0]
theorem owed0 (V : (c : Dev nD) → (b : Ref sig .tc) → Buf (Elt F) ((c : Thread nD τ).loc b)) (c : Dev nD) (t : Fin (cfg0.N + 1)) : (dat0 V c).owed t = 0 := by dsimp only [dat0]

theorem PhiS_castSucc (V : (c : Dev nD) → (b : Ref sig .tc) → Buf (Elt F) ((c : Thread nD τ).loc b)) (c : Dev nD) (t : Fin cfg0.N) :
    (dat0 V c).Φ t.castSucc = PhiS V c t.val (Nat.le_of_lt t.isLt) := by
  dsimp only [dat0]; simp only [Fin.coe_castSucc]

/-- Each input's current staging buffer holds its block at every point, fetched there or not: the body leaves the
    block in place, and an unfetched window's index has not moved. -/
theorem before0_0 (V : (c : Dev nD) → (b : Ref sig .tc) → Buf (Elt F) ((c : Thread nD τ).loc b)) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : (c : Dev nD) → (b : Ref sig .tc) → Buf (Elt F) ((c : Thread nD τ).loc b)) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : (c : Dev nD) → (b : Ref sig .tc) → Buf (Elt F) ((c : Thread nD τ).loc b)) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, -/
def bodyPre (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms of the conditions say which case
    the point is in, so that case's run applies; the invariant hands the body the accumulator at what the point before
    left (at anything at the first point) and takes it back at this point's contents; the other scoped buffers and the
    generator register pass through; the core owes nothing throughout. -/
theorem sound_body (V : (c : Dev nD) → (b : Ref sig .tc) → Buf (Elt F) ((c : Thread nD τ).loc b)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 25 := lt_of_lt_of_eq t.isLt (show cfg0.N = 25 from N_0)
  by_cases h0 : t.val % 5 = 0
  · have h1 : ¬t.val % 5 = 4 := by omega
    have hc0 : cond0_0 (grid0.coords t) := (hcond0_0 t).mpr h0
    have hc1 : ¬cond0_1 (grid0.coords t) := fun h => h1 ((hcond0_1 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [outsAt0_A V c t h0]
    unfold ptA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    by_cases h1 : t.val % 5 = 4
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold ptC out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [outsAt0_B V c t h0 h1]
      unfold ptB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (V : (c : Dev nD) → (b : Ref sig .tc) → Buf (Elt F) ((c : Thread nD τ).loc b)) (c : Dev nD) : BodyObligation (dat0 (F := F) V c) (defs₀ (F := F)) Variants.none () Set.univ := fun t => by
  rw [bigSep_W0, bigSep_W0]
  exact sound_body V c t

/-- What the launch hands the region is the invariant before the first point. -/
theorem hin0 (V : (c : Dev nD) → (b : Ref sig .tc) → Buf (Elt F) ((c : Thread nD τ).loc b)) (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out0 (V : (c : Dev nD) → (b : Ref sig .tc) → Buf (Elt F) ((c : Thread nD τ).loc b)) (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (V : (c : Dev nD) → (b : Ref sig .tc) → Buf (Elt F) ((c : Thread nD τ).loc b)) (c : Dev nD) : (dat0 V c).Φ (Fin.last cfg0.N) ⊢ Pipeline.ΦA spec0 c :=
  Phi_out0 V c _ (by rw [Fin.val_last]; have : cfg0.N = 25 := N_0; omega)

/-! ## The found pieces as payloads -/

/-- The stores and loads of the body are through the whole buffer: offset zero. -/
theorem hz2 : (![0, 0] : Fin 2 → ℕ) = fun _ => 0 := by funext a; fin_cases a <;> rfl

theorem sout0_A_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) :
    sout0_A_0 c i arg2 harg2 arg3 harg3 arg4 harg4 arg5 harg5 arg6 harg6 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem sout0_B_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem sout0_C_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem out0_C_3_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) :
    out0_C_3 c i arg2 harg2 arg3 harg3 arg4 harg4 arg5 harg5 arg6 harg6 hc0 hc1 x0 x1 x2 xs0 = k0_pay3 (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

/-! ## What the found pieces are, in terms of the payloads -/

/-- The accumulator after a point with k = 0: the reset accumulator plus this point's product. -/
theorem scr0_first (V : (c : Dev nD) → (b : Ref sig .tc) → Buf (Elt F) ((c : Thread nD τ).loc b)) (c : Dev nD) (t : Fin cfg0.N) (h : t.val % 5 = 0) :
    (outsAt0 V c t.val t.isLt).2 = k0_pay2 (k0_pay1 (F := F)) (iblk0 V c 0 t) (iblk0 V c 1 t) := by
  rw [outsAt0_A V c t h]; unfold ptA; dsimp only
  exact sout0_A_0_eq c (grid0.coords t) (ms0_0 t) (hs0_0 t) (ms0_1 t) (hs0_1 t) (ms0_2 t) (hs0_2 t) (ms0_3 t) (hs0_3 t) scM0_0 (Memref.isWhole_whole _) ((hcond0_0 t).mpr h) (fun h' => absurd ((hcond0_1 t).mp h') (by omega)) (iblk0 V c 0 t) (iblk0 V c 1 t) (iblk0 V c 2 t)
/-- The accumulator after a point with k > 0: what the point before left plus this point's product. -/
theorem scr0_next (V : (c : Dev nD) → (b : Ref sig .tc) → Buf (Elt F) ((c : Thread nD τ).loc b)) (c : Dev nD) (t : Fin cfg0.N) (h : t.val % 5 ≠ 0) :
    (outsAt0 V c t.val t.isLt).2
      = k0_pay2 (outsAt0 V c (t.val - 1) (Nat.lt_of_le_of_lt (Nat.sub_le _ _) t.isLt)).2 (iblk0 V c 0 t) (iblk0 V c 1 t) := by
  by_cases h1 : t.val % 5 = 4
  · rw [outsAt0_C V c t h h1]; unfold ptC; dsimp only
    exact sout0_C_0_eq c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h h1]; unfold ptB; dsimp only
    exact sout0_B_0_eq c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) (fun h' => h1 ((hcond0_1 t).mp h')) (iblk0 V c 0 t) (iblk0 V c 1 t) (iblk0 V c 2 t) (outsAt0 V c (t.val - 1) (Nat.lt_of_le_of_lt (Nat.sub_le _ _) t.isLt)).2
/-- The output block at a point with k = 4: the bias and the rectifier applied to the accumulator. -/
theorem out0_last (V : (c : Dev nD) → (b : Ref sig .tc) → Buf (Elt F) ((c : Thread nD τ).loc b)) (c : Dev nD) (t : Fin cfg0.N) (h : t.val % 5 = 4) :
    (outsAt0 V c t.val t.isLt).1 = k0_pay3 (outsAt0 V c t.val t.isLt).2 (iblk0 V c 2 t) := by
  have h0 : ¬t.val % 5 = 0 := by omega
  rw [outsAt0_C V c t h0 h]; unfold ptC; dsimp only
  exact (out0_C_3_eq c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).trans
    (congrArg (fun s : Vec F S2048x128 .f32 => k0_pay3 s (iblk0 V c 2 t))
      (sout0_C_0_eq c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).symm)

end Cert.Kernel.Hand

end
-- ==== Proof.K.Region1.lean ====
/-
  Region 1 (the second aggregation matmul, 2048x64 output blocks): what the pipeline's buffers hold point by
  point, the proof data and the body obligation, at the contents `V` the region is entered with.
-/
import proofs.«424546_j8289286881626_1_alg».proof.Proof.Gen.Kernel.Launch
import proofs.«424546_j8289286881626_1_alg».proof.Proof.Gen.Kernel.Skeleton
import proofs.«424546_j8289286881626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Window `w`'s block at point `t`, read off its array as the region finds it. -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions, decided over the grid -/

/-- The condition of the body's first conditional (second grid coordinate = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second conditional (second grid coordinate = 4). -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the points with second coordinate 4 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the points with second coordinate 4 the output window is live. -/
theorem liveAt1_3 : ∀ t : Fin cfg1.N, cond1_1 (grid1.coords t) → cfg1.idle 3 (grid1.coords t) = false := by decide +kernel

/-! ## The staging memrefs and the scratch -/

/-- One staging buffer of the output window, through which its contents are stated. -/
abbrev VO1_3 : View sig .tc .vmem S2048x64 .f32 := (Memref.whole cc1_stg3_0 : Memref sig .tc .vmem S2048x64 .f32).view
/-- Each window's current staging memref at point `t`, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x64 .f32 := Memref.whole cc1_scratch0
/-- The accumulator as a view: what it holds is stated through it. -/
abbrev VS1_0 : View sig .tc .vmem S2048x64 .f32 := scM1_0.view

/-- The scoped buffers of the core that the region neither stages nor accumulates in, each at some contents, and
    the generator register at some state: the part of the region's invariant the body never touches. -/
def PhiRest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) ∗ (∃ r, prngReg c r))

/-- The launch's invariant hands over the accumulator at some contents beside that part, -/
theorem PhiA1_open (c : Dev nD) :
    (Pipeline.ΦA spec1 c : sProp 𝕄) ⊢ iprop((∃ d, owns (c : Thread nD τ) scM1_0 fullShare d) ∗ PhiRest1 c) := by
  unfold Pipeline.ΦA PhiRest1; rw [scopedRest1_eq]; simp only [scM1_0, owns_whole]
  iintro ⟨⟨HR0, HR1, HR2, HR3, HR4, HR5, HR6, HR7, HS0⟩, Hg⟩
  isplitl [HS0]; · iexact HS0
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

/-- and takes them back. -/
theorem PhiA1_close (c : Dev nD) :
    iprop((∃ d, owns (c : Thread nD τ) scM1_0 fullShare d) ∗ PhiRest1 c) ⊢ (Pipeline.ΦA spec1 c : sProp 𝕄) := by
  unfold Pipeline.ΦA PhiRest1; rw [scopedRest1_eq]; simp only [scM1_0, owns_whole]
  iintro ⟨HS0, ⟨HR0, HR1, HR2, HR3, HR4, HR5, HR6, HR7⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HS0
  iexact Hg

/-! ## The kernel body on any whole staging memrefs, case by case -/

set_option maxHeartbeats 1000000 in
/-- Case A (second coordinate 0: the accumulator is reset, then this point's product is added; nothing is stored
    into the output block). On whole memrefs — the inputs' at their contents, the output's at contents handed back
    untouched, the accumulator at anything — the body runs to the continuation with the inputs as they were and
    the accumulator with the found pieces written. -/
noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) :
    { LS0 : List (View.Piece (Elt F) S2048x64 .f32) //
      ∀ (x2 : Vec F S1x64 .f32) (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, fun x2 xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (second coordinate 1, 2 or 3: this point's product is added to the accumulator; nothing is stored into
    the output block). The accumulator starts at the contents `xs0` the point before left. -/
noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) :
    { LS0 : List (View.Piece (Elt F) S2048x64 .f32) //
      ∀ (x2 : Vec F S1x64 .f32) (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, fun x2 xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (second coordinate 4: this point's product is added to the accumulator, then the accumulator with the bias
    added is stored into the output block). The accumulator starts at the contents `xs0` the point before left,
    the output's memref at anything; both end with the found pieces written. -/
noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, ?_, fun E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: the found pieces read back -/

/-- Case A's pieces for the accumulator cover it. -/
theorem scover1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (y : S2048x64.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S2048x64.size (by sl_kernel_rfl) y

/-- What case A leaves in the accumulator: its pieces read back over junk. -/
def sout1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) : Vec F S2048x64 .f32 :=
  VS1_0.read (Elt F) (VS1_0.writes (Elt F) VS1_0.junk (kernelRun1_A c i arg2 harg2 arg3 harg3 arg4 harg4 arg5 harg5 arg6 harg6 hc0 hc1 x0 x1).1)

/-- Case B's pieces for the accumulator cover it. -/
theorem scover1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) (y : S2048x64.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S2048x64.size (by sl_kernel_rfl) y

/-- What case B leaves in the accumulator. -/
def sout1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 xs0).1)

/-- Case C's pieces for the output block cover it. -/
theorem cover1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output's staging buffer. -/
def out1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator cover it. -/
theorem scover1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the accumulator. -/
def sout1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- A point with second coordinate 0: the output's buffer is not stored into and the window is idle there and not
    written back, so the first component is unconstrained (zeros); the accumulator is what case A leaves. -/
def pt1A (V : (c : Dev nD) → (b : Ref sig .tc) → Buf (Elt F) ((c : Thread nD τ).loc b)) (c : Dev nD) (t : Fin cfg1.N) (h0 : t.val % 5 = 0) : Vec F S2048x64 .f32 × Vec F S2048x64 .f32 :=
  (k1_pay1 (F := F), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t))

/-- A point with second coordinate 1, 2 or 3, the accumulator found at `xs`: likewise, by case B. -/
def pt1B (V : (c : Dev nD) → (b : Ref sig .tc) → Buf (Elt F) ((c : Thread nD τ).loc b)) (c : Dev nD) (t : Fin cfg1.N) (h0 : ¬t.val % 5 = 0) (h1 : ¬t.val % 5 = 4) (xs : Vec F S2048x64 .f32) : Vec F S2048x64 .f32 × Vec F S2048x64 .f32 :=
  (k1_pay1 (F := F), sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) xs)

/-- A point with second coordinate 4, the accumulator found at `xs`: what case C leaves in the output's buffer and in the accumulator. -/
def pt1C (V : (c : Dev nD) → (b : Ref sig .tc) → Buf (Elt F) ((c : Thread nD τ).loc b)) (c : Dev nD) (t : Fin cfg1.N) (h0 : ¬t.val % 5 = 0) (h1 : t.val % 5 = 4) (xs : Vec F S2048x64 .f32) : Vec F S2048x64 .f32 × Vec F S2048x64 .f32 :=
  (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

/-- After point `n`: (the output window's staging buffer, the accumulator scratch). The case the point's second
    coordinate selects, run at the point's memrefs and input blocks, the accumulator found at what point `n - 1` left. -/
def outsAt1 (V : (c : Dev nD) → (b : Ref sig .tc) → Buf (Elt F) ((c : Thread nD τ).loc b)) (c : Dev nD) : (n : ℕ) → n < cfg1.N → Vec F S2048x64 .f32 × Vec F S2048x64 .f32
  | 0, hn => pt1A V c ⟨0, hn⟩ (Nat.zero_mod _)
  | n + 1, hn =>
    if h0 : (n + 1) % 5 = 0 then pt1A V c ⟨n + 1, hn⟩ h0
    else if h1 : (n + 1) % 5 = 4 then pt1C V c ⟨n + 1, hn⟩ h0 h1 (outsAt1 V c n (Nat.lt_of_succ_lt hn)).2
    else pt1B V c ⟨n + 1, hn⟩ h0 h1 (outsAt1 V c n (Nat.lt_of_succ_lt hn)).2

theorem outsAt1_A (V : (c : Dev nD) → (b : Ref sig .tc) → Buf (Elt F) ((c : Thread nD τ).loc b)) (c : Dev nD) (t : Fin cfg1.N) (h0 : t.val % 5 = 0) :
    outsAt1 V c t.val t.isLt = pt1A V c t h0 := by
  obtain ⟨n, hn⟩ := t
  cases n with
  | zero => rfl
  | succ n => exact (dif_pos h0).trans rfl

theorem outsAt1_B (V : (c : Dev nD) → (b : Ref sig .tc) → Buf (Elt F) ((c : Thread nD τ).loc b)) (c : Dev nD) (t : Fin cfg1.N) (h0 : ¬t.val % 5 = 0) (h1 : ¬t.val % 5 = 4) :
    outsAt1 V c t.val t.isLt = pt1B V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (V : (c : Dev nD) → (b : Ref sig .tc) → Buf (Elt F) ((c : Thread nD τ).loc b)) (c : Dev nD) (t : Fin cfg1.N) (h0 : ¬t.val % 5 = 0) (h1 : t.val % 5 = 4) :
    outsAt1 V c t.val t.isLt = pt1C V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- The accumulator before position `n`: at anything before the first point, afterwards at what the point before left. -/
def scrAt1 (V : (c : Dev nD) → (b : Ref sig .tc) → Buf (Elt F) ((c : Thread nD τ).loc b)) (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem scrAt1_any (V : (c : Dev nD) → (b : Ref sig .tc) → Buf (Elt F) ((c : Thread nD τ).loc b)) (c : Dev nD) (n : ℕ) (h : n ≤ cfg1.N) :
    scrAt1 V c n h ⊢ iprop(∃ d, owns (c : Thread nD τ) scM1_0 fullShare d) := by
  cases n with
  | zero => exact Idealize.SL.BI.Entails.refl _
  | succ n =>
    show owns (c : Thread nD τ) scM1_0 fullShare (outsAt1 V c n h).2 ⊢ _
    iintro H; iexists _; iexact H

theorem scrAt1_pos (V : (c : Dev nD) → (b : Ref sig .tc) → Buf (Elt F) ((c : Thread nD τ).loc b)) (c : Dev nD) (n : ℕ) (h : n ≤ cfg1.N) (hz : n ≠ 0) :
    scrAt1 V c n h = owns (c : Thread nD τ) scM1_0 fullShare (outsAt1 V c (n - 1) (by omega)).2 := by
  cases n with
  | zero => exact absurd rfl hz
  | succ n => rfl

/-- The invariant before position `n`: the accumulator as above, beside the part the body never touches. -/
def PhiS1 (V : (c : Dev nD) → (b : Ref sig .tc) → Buf (Elt F) ((c : Thread nD τ).loc b)) (c : Dev nD) (n : ℕ) (h : n ≤ cfg1.N) : sProp 𝕄 := iprop(scrAt1 V c n h ∗ PhiRest1 c)

/-! ## The proof data -/

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = (outsAt1 V c t.val t.isLt).1 := by dsimp only [dat1]
theorem share1 (V : (c : Dev nD) → (b : Ref sig .tc) → Buf (Elt F) ((c : Thread nD τ).loc b)) (c : Dev nD) (w : Fin cfg1.W) : (dat1 V c).q w = fullShare := rfl
theorem owed1 (V : (c : Dev nD) → (b : Ref sig .tc) → Buf (Elt F) ((c : Thread nD τ).loc b)) (c : Dev nD) (t : Fin (cfg1.N + 1)) : (dat1 V c).owed t = 0 := rfl

theorem PhiS1_castSucc (V : (c : Dev nD) → (b : Ref sig .tc) → Buf (Elt F) ((c : Thread nD τ).loc b)) (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: the body leaves the
    block in place, and where the pipeline does not fetch, the block index has not moved. -/
theorem before1_0 (V : (c : Dev nD) → (b : Ref sig .tc) → Buf (Elt F) ((c : Thread nD τ).loc b)) (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (V : (c : Dev nD) → (b : Ref sig .tc) → Buf (Elt F) ((c : Thread nD τ).loc b)) (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (V : (c : Dev nD) → (b : Ref sig .tc) → Buf (Elt F) ((c : Thread nD τ).loc b)) (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' memrefs hold their blocks; the point's second coordinate says which case it is
    in; the invariant hands the body the accumulator (at what the point before left, or at anything at a point that
    resets it) and takes it back at this point's contents, the pieces covering it. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_castSucc V c t]
  unfold PhiS1
  rw [show scrAt1 V c (t.val + 1) t.isLt = owns (c : Thread nD τ) scM1_0 fullShare (outsAt1 V c t.val t.isLt).2 from rfl]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 5 = 4
  · have h0 : ¬t.val % 5 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold pt1C out1_C sout1_C; (try dsimp only)
    rw [scrAt1_pos V c _ _ (by omega)]
    iintro ⟨⟨HS0, HR⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR]
    · isplitl [HS0]
      · unfold owns; iexists _; isplitr
        swap; · iexact HS0
        ipureintro; exact View.read_writes_of_cover _ _ _ _ _ (scover1_C c _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 5 = 0
    · rw [outsAt1_A V c t h0]
      unfold pt1A sout1_A; (try dsimp only)
      iintro ⟨⟨HS0, HR⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 (iblk1 V c 2 t) _ Set.univ _)
      isplitl [H0]; · iexact H0
      isplitl [H1]; · iexact H1
      isplitl [H2]; · iexact H2
      isplitl [H3]; · iexact H3
      isplitl [HS0]; · iapply (scrAt1_any V c _ _); iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [outsAt1_B V c t h0 h1]
      unfold pt1B sout1_B; (try dsimp only)
      rw [scrAt1_pos V c _ _ (by omega)]
      iintro ⟨⟨HS0, HR⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_B c _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : (c : Dev nD) → (b : Ref sig .tc) → Buf (Elt F) ((c : Thread nD τ).loc b)) (c : Dev nD) : Pipeline.ΦA spec1 c ⊢ (dat1 V c).Φ 0 := PhiA1_open c

/-- After the last point the invariant gives the launch's back: the accumulator's named contents are forgotten. -/
theorem hout1 (V : (c : Dev nD) → (b : Ref sig .tc) → Buf (Elt F) ((c : Thread nD τ).loc b)) (c : Dev nD) : (dat1 V c).Φ (Fin.last cfg1.N) ⊢ Pipeline.ΦA spec1 c := by
  refine Idealize.SL.BI.Entails.trans ?_ (PhiA1_close c)
  show iprop(scrAt1 V c _ _ ∗ PhiRest1 c) ⊢ _
  iintro ⟨HS0, HR⟩
  isplitl [HS0]; · iapply (scrAt1_any V c _ _); iexact HS0
  iexact HR

/-! ## The found pieces as the payloads -/

theorem off00 : (![0, 0] : Fin 2 → Nat) = fun _ => 0 := funext fun a => by fin_cases a <;> rfl

/-- Case A leaves in the accumulator the reset accumulator plus the point's product. -/
theorem sout1_A_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) :
    sout1_A c i arg2 harg2 arg3 harg3 arg4 harg4 arg5 harg5 arg6 harg6 hc0 hc1 x0 x1 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  rw [View.canon_cons_unit_zero (S := S2048x64) off00, View.readCov_unit_zero (S := S2048x64) _ off00]
  simp only [View.readAt_eq_ld, harg2.read_unread, harg3.read_unread, View.ld_unit_zero (S := S2048x2048) off00, View.ld_unit_zero (S := S2048x64) off00]

/-- Case B leaves in the accumulator what it found there plus the point's product. -/
theorem sout1_B_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) :
    sout1_B c i arg2 harg2 arg3 harg3 arg4 harg4 arg5 harg5 arg6 harg6 hc0 hc1 x0 x1 xs0 = k1_pay2 xs0 x0 x1 := by
  unfold sout1_B
  rw [View.read_writes_eq_canon _ _ _ (scover1_B c i arg2 harg2 arg3 harg3 arg4 harg4 arg5 harg5 arg6 harg6 hc0 hc1 x0 x1 xs0)]
  unfold kernelRun1_B
  dsimp only
  sl_unfold_words
  rw [View.canon_unit_zero (S := S2048x64) off00]
  simp only [View.readAt_eq_ld, harg2.read_unread, harg3.read_unread, harg6.read_unread, View.ld_unit_zero (S := S2048x2048) off00, View.ld_unit_zero (S := S2048x64) off00]

/-- Case C leaves in the accumulator what it found there plus the point's product, -/
theorem sout1_C_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S2048x64) off00]
  simp only [View.readAt_eq_ld, harg2.read_unread, harg3.read_unread, harg6.read_unread, View.ld_unit_zero (S := S2048x2048) off00, View.ld_unit_zero (S := S2048x64) off00]

/-- and in the output's buffer that accumulator with the bias added. -/
theorem out1_C_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S2048x64) off00]
  simp only [View.readAt_eq_ld, harg2.read_unread, harg3.read_unread, harg4.read_unread, harg6.read_unread, View.readCov_unit_zero (S := S2048x64) _ off00, View.ld_unit_zero (S := S2048x2048) off00, View.ld_unit_zero (S := S2048x64) off00, View.ld_unit_zero (S := S1x64) off00]

/-! ## What the point-by-point contents are, in terms of the payloads -/

/-- The accumulator after a point with k = 0: the reset accumulator plus this point's product. -/
theorem scr1_first (V : (c : Dev nD) → (b : Ref sig .tc) → Buf (Elt F) ((c : Thread nD τ).loc b)) (c : Dev nD) (t : Fin cfg1.N) (h : t.val % 5 = 0) :
    (outsAt1 V c t.val t.isLt).2 = k1_pay2 (k1_pay1 (F := F)) (iblk1 V c 0 t) (iblk1 V c 1 t) := by
  rw [outsAt1_A V c t h]; unfold pt1A; dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h) (fun h' => by have := (hcond1_1 t).mp h'; omega) (iblk1 V c 0 t) (iblk1 V c 1 t)
/-- The accumulator after a point with k > 0: what the point before left plus this point's product. -/
theorem scr1_next (V : (c : Dev nD) → (b : Ref sig .tc) → Buf (Elt F) ((c : Thread nD τ).loc b)) (c : Dev nD) (t : Fin cfg1.N) (h : t.val % 5 ≠ 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 5 = 4
  · rw [outsAt1_C V c t h h1]; unfold pt1C; dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h h1]; unfold pt1B; dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) (fun h' => h1 ((hcond1_1 t).mp h')) (iblk1 V c 0 t) (iblk1 V c 1 t) (outsAt1 V c (t.val - 1) (Nat.lt_of_le_of_lt (Nat.sub_le _ _) t.isLt)).2
/-- The output block at a point with k = 4: the bias applied to the accumulator. -/
theorem out1_last (V : (c : Dev nD) → (b : Ref sig .tc) → Buf (Elt F) ((c : Thread nD τ).loc b)) (c : Dev nD) (t : Fin cfg1.N) (h : t.val % 5 = 4) :
    (outsAt1 V c t.val t.isLt).1 = k1_pay3 (outsAt1 V c t.val t.isLt).2 (iblk1 V c 2 t) := by
  have h0 : ¬t.val % 5 = 0 := by omega
  rw [outsAt1_C V c t h0 h]; unfold pt1C; dsimp only
  refine (out1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).trans ?_
  exact congrArg (fun s => k1_pay3 s (iblk1 V c 2 t)) (sout1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).symm

end Cert.Kernel.Hand

end
-- ==== Proof.K.Run.lean ====
/-
  The program's run: @main is three stretches of host operations, the first matrix-product region, a stretch, the second
  region and a last stretch. Each region is entered with the buffers as the stretch before it left them, moves only its
  own staging buffers, its accumulator and its result array, and leaves the result array at what its write-backs
  produce; no stretch and no region writes an argument. So every execution ends, the arguments end unchanged, and the
  program's result is the last stretch applied to what the second region left.
-/
import proofs.«424546_j8289286881626_1_alg».proof.Proof.Gen.Kernel.Launch
import proofs.«424546_j8289286881626_1_alg».proof.Proof.Gen.Kernel.Skeleton
import proofs.«424546_j8289286881626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424546_j8289286881626_1_alg».proof.Proof.Gen.Kernel.Regions
import proofs.«424546_j8289286881626_1_alg».proof.Proof.K.Region0
import proofs.«424546_j8289286881626_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first region is entered. -/
abbrev Ve0 (c : Dev nD) (b : Ref sig .tc) : Buf (Elt F) ((c : Thread nD τ).loc b) := Gen.V3 m c b

namespace RunAux

/-- The first region's result array after its last point: the contents of `main_v54` it leaves. -/
def out54 (c : Dev nD) : Buf (Elt F) ((c : Thread nD τ).loc main_v54) := (dat0 (Ve0 m) c).arrAt 3 cfg0.N

/-- The contents the regions leave, with only the first region's result in place (the second region's entry contents
    read nothing else of them). -/
def outsA : Gen.Outs (F := F) := fun _ r c =>
  if h : r = main_v54 then h ▸ out54 m c else m ((c : Thread nD τ).loc r)

/-- The second region's result array after its last point, the region entered over the first region's result. -/
def out58 (c : Dev nD) : Buf (Elt F) ((c : Thread nD τ).loc main_v58) :=
  (dat1 (fun c b => Gen.V5 m (outsA m) c b) c).arrAt 3 cfg1.N

end RunAux

open RunAux

/-- What the regions leave in their result arrays: after the first region `main_v54` holds its array after the last
    point; after the second `main_v58` does, the second region having been entered with the first's result in place. -/
def outs (m : (ℓ : Loc nD τ sig) → Buf (Elt F) ℓ) : Gen.Outs (F := F) := fun _ r c =>
  if h : r = main_v54 then h ▸ out54 m c
  else if h : r = main_v58 then h ▸ out58 m c
  else m ((c : Thread nD τ).loc r)

/-- The buffers as the second region is entered. -/
abbrev Ve1 (c : Dev nD) (b : Ref sig .tc) : Buf (Elt F) ((c : Thread nD τ).loc b) := Gen.V5 m (outs m) c b

theorem outs_v54 (c : Dev nD) : outs m 4 main_v54 c = (dat0 (Ve0 m) c).arrAt 3 cfg0.N := by
  unfold outs
  rw [dif_pos rfl]
  rfl

/-- The second region's entry contents read the regions' results only at the first's, where the two agree. -/
theorem RunAux.V5_outs (c : Dev nD) : Gen.V5 m (outs m) c = Gen.V5 m (outsA m) c := by
  have h : outs m 4 main_v54 c = outsA m 4 main_v54 c := by
    unfold outs outsA
    rw [dif_pos rfl, dif_pos rfl]
  unfold Gen.V5 Gen.V4
  rw [h]

theorem outs_v58 (c : Dev nD) : outs m 6 main_v58 c = (dat1 (Ve1 m) c).arrAt 3 cfg1.N := by
  have hV : (fun c b => Gen.V5 m (outsA m) c b : (c : Dev nD) → (b : Ref sig .tc) → Buf (Elt F) ((c : Thread nD τ).loc b)) = Ve1 m := by
    funext c b
    rw [← V5_outs]
  unfold outs
  rw [dif_neg (by decide), dif_pos rfl]
  show out58 m c = _
  unfold out58
  rw [hV]

namespace RunAux

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev noLevels : GSem nD τ sig → Finset Unit := fun _ => ∅
abbrev levelOf : GSem nD τ sig → Unit → ℕ := fun _ _ => 0

/-- What rides beside the buffers through every item: the core's generator register at some state (a region's
    invariant takes it in and gives it back) and the core owing nothing. -/
abbrev rest (c : Dev nD) : sProp 𝕄 := iprop((∃ r, prngReg c r) ∗ ∃ W, owes (c : Thread nD τ) (0 : CellTallies nD τ sig Unit) W)

/-! ## The first region -/

/-- After its last point each of the first region's arrays holds what the valuation after the region says: the three
    operand arrays are never written, the result array is the one entry the valuation changes. -/
theorem hF0 (c : Dev nD) (w : Fin cfg0.W) :
    (pdats m 0 c).arrAt w cfg0.N = (fun b => Gen.V4 m (outs m) c b : (b : Ref sig .tc) → Buf (Elt F) ((c : Thread nD τ).loc b)) (Pipeline.arrRef spec0 w) := by
  match w with
  | ⟨0, _⟩ =>
    rw [Pipeline.Dat.arrAt_in _ _ rfl]
    exact (A_eq0 (Ve0 m) c 0).trans (Gen.V4_of m (outs m) c _ (by decide)).symm
  | ⟨1, _⟩ =>
    rw [Pipeline.Dat.arrAt_in _ _ rfl]
    exact (A_eq0 (Ve0 m) c 1).trans (Gen.V4_of m (outs m) c _ (by decide)).symm
  | ⟨2, _⟩ =>
    rw [Pipeline.Dat.arrAt_in _ _ rfl]
    exact (A_eq0 (Ve0 m) c 2).trans (Gen.V4_of m (outs m) c _ (by decide)).symm
  | ⟨3, _⟩ =>
    show (dat0 (Ve0 m) c).arrAt 3 cfg0.N = Function.update (Gen.V3 m c) main_v54 (outs m 4 main_v54 c) main_v54
    rw [Function.update_self, outs_v54]

/-- Every buffer that is none of the first region's arrays is as the region found it. -/
theorem hrest0 (c : Dev nD) : ∀ b, b ∉ Finset.univ.image (Pipeline.arrRef spec0) →
    (fun b => Gen.V4 m (outs m) c b : (b : Ref sig .tc) → Buf (Elt F) ((c : Thread nD τ).loc b)) b = Ve0 m c b := fun b hb =>
  Gen.V4_of m (outs m) c b (by
    intro h
    exact hb (Finset.mem_image.mpr ⟨3, Finset.mem_univ _, (List.mem_singleton.mp h).symm⟩))

-- a library lemma stated over the pinned configuration unifies with the printed one only when unification may unfold
-- plain definitions in a metavariable's type
set_option backward.isDefEq.respectTransparency.types false in
/-- Region 0 over the thread state: entered from every unscoped buffer at the contents before it, left at the contents
    after it. Its arrays are split out of the unscoped buffers and put back at their exit contents; the generator
    register goes into the region's invariant and comes back; nothing is owed; the kernel has no semaphore of its own. -/
def reg0 : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ noLevels levelOf 0 fun c t => owed0 (Ve0 m) c t
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun w => share0 (Ve0 m) c w) (Ve0 m c) fun w => A_eq0 (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => share0 (Ve0 m) c w)
      (Ve0 m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- After its last point each of the second region's arrays holds what the valuation after the region says: the three
    operand arrays are never written, the result array is the one entry the valuation changes. -/
theorem hF1 (c : Dev nD) (w : Fin cfg1.W) :
    (pdats m 1 c).arrAt w cfg1.N = (fun b => Gen.V6 m (outs m) c b : (b : Ref sig .tc) → Buf (Elt F) ((c : Thread nD τ).loc b)) (Pipeline.arrRef spec1 w) := by
  match w with
  | ⟨0, _⟩ =>
    rw [Pipeline.Dat.arrAt_in _ _ rfl]
    exact (A_eq1 (Ve1 m) c 0).trans (Gen.V6_of m (outs m) c _ (by decide)).symm
  | ⟨1, _⟩ =>
    rw [Pipeline.Dat.arrAt_in _ _ rfl]
    exact (A_eq1 (Ve1 m) c 1).trans (Gen.V6_of m (outs m) c _ (by decide)).symm
  | ⟨2, _⟩ =>
    rw [Pipeline.Dat.arrAt_in _ _ rfl]
    exact (A_eq1 (Ve1 m) c 2).trans (Gen.V6_of m (outs m) c _ (by decide)).symm
  | ⟨3, _⟩ =>
    show (dat1 (Ve1 m) c).arrAt 3 cfg1.N = Function.update (Gen.V5 m (outs m) c) main_v58 (outs m 6 main_v58 c) main_v58
    rw [Function.update_self, outs_v58]

/-- Every buffer that is none of the second region's arrays is as the region found it. -/
theorem hrest1 (c : Dev nD) : ∀ b, b ∉ Finset.univ.image (Pipeline.arrRef spec1) →
    (fun b => Gen.V6 m (outs m) c b : (b : Ref sig .tc) → Buf (Elt F) ((c : Thread nD τ).loc b)) b = Ve1 m c b := fun b hb =>
  Gen.V6_of m (outs m) c b (by
    intro h
    exact hb (Finset.mem_image.mpr ⟨3, Finset.mem_univ _, (List.mem_singleton.mp h).symm⟩))

-- a library lemma stated over the pinned configuration unifies with the printed one only when unification may unfold
-- plain definitions in a metavariable's type
set_option backward.isDefEq.respectTransparency.types false in
/-- Region 1 over the thread state: entered from every unscoped buffer at the contents before it, left at the contents
    after it. Its arrays are split out of the unscoped buffers and put back at their exit contents; the generator
    register goes into the region's invariant and comes back; nothing is owed; the kernel has no semaphore of its own. -/
def reg1 : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ noLevels levelOf 1 fun c t => owed1 (Ve1 m) c t
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun w => share1 (Ve1 m) c w) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => share1 (Ve1 m) c w)
      (Ve1 m c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end RunAux

-- the conditional frame's implicit arguments are found by unifying its hypotheses with these records, which takes
-- unfolding plain definitions in a metavariable's type
set_option backward.isDefEq.respectTransparency.types false in
/-- Every execution ends with the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none noLevels levelOf (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noLevels levelOf fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun c => .rfl) (hpost0 := fun c => .rfl)
    (R1 := reg1 m) (hpre1 := fun c => .rfl) (hpost1 := fun c => .rfl)

end Cert.Kernel.Hand

end
-- ==== Proof.KI.Region0.lean ====
/-
  Region 0 (the first aggregation matmul, 2048x128 output blocks): what the pipeline's buffers hold point by
  point, the proof data and the body obligation, at the contents `V` the region is entered with.
-/
import proofs.«424546_j8289286881626_1_alg».proof.Proof.Gen.KernelIdeal.Launch
import proofs.«424546_j8289286881626_1_alg».proof.Proof.Gen.KernelIdeal.Skeleton
import proofs.«424546_j8289286881626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first conditional (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points whose second coordinate is 0. -/
theorem hcond0_0 : ∀ t : Fin cfg0.N, cond0_0 (grid0.coords t) ↔ t.val % 5 = 0 :=
  (by decide +kernel : ∀ t : Fin grid0.N, cond0_0 (grid0.coords t) ↔ t.val % 5 = 0)

/-- The condition of the body's second conditional (the output block is stored). -/
abbrev cond0_1 (i : grid0.Coords) : Prop := k0_cond2 i = 1#1
/-- It holds at the points whose second coordinate is 4. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output block is not stored the output window is idle, -/
theorem idleAt0_3 : ∀ t : Fin cfg0.N, ¬cond0_1 (grid0.coords t) → cfg0.idle 3 (grid0.coords t) = true := by decide +kernel
/-- and the pipeline does not write it back there; -/
theorem noFlush0_3 : ∀ t : Fin cfg0.N, ¬cond0_1 (grid0.coords t) → (cfg0.win 3).flush t = false := by decide +kernel
/-- where it is stored the window is live. -/
theorem liveAt0_3 : ∀ t : Fin cfg0.N, cond0_1 (grid0.coords t) → cfg0.idle 3 (grid0.coords t) = false := by decide +kernel

/-! ## The staging memrefs and the scratch accumulator -/

/-- One staging buffer of the output window, through which its contents are stated. -/
abbrev VO0_3 : View sig .tc .vmem S2048x128 .f32 := (Memref.whole cc0_stg3_0 : Memref sig .tc .vmem S2048x128 .f32).view
/-- Each window's current staging memref at point `t`, and its wholeness. -/
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S2048x128 .f32 := Memref.whole cc0_scratch0
/-- The accumulator as a view: what it holds is stated through it. -/
abbrev VS0_0 : View sig .tc .vmem S2048x128 .f32 := scM0_0.view

/-- The core's scoped buffers that belong to neither this region's staging nor its accumulator (the other region's
    staging buffers and accumulator), each whole at some contents: carried untouched through the region. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; simp only [scM0_0, owns_whole]; unfold Rest0; rfl

/-! ## The kernel body on any staging memrefs, case by case -/

set_option maxHeartbeats 1000000 in
/-- CASE A (second coordinate 0): the accumulator is reset and this point's product added. What the body's stores
    leave in the accumulator, as pieces (last first), with the proof that on whole memrefs — the inputs' at their
    contents, the output's at contents handed back untouched, the accumulator at anything — the body runs to the
    continuation holding the inputs' and the output's as they were and the accumulator with its pieces written. -/
noncomputable def kernelRun0_A (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x2048 .bf16) (x1 : Vec F S2048x128 .bf16) (x2 : Vec F S1x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (second coordinate 1, 2 or 3): this point's product is added to the accumulator, which the body is handed
    at what the point before left (`xs0`); the output is handed back untouched. -/
noncomputable def kernelRun0_B (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x2048 .bf16) (x1 : Vec F S2048x128 .bf16) (x2 : Vec F S1x128 .f32) (xs0 : Vec F S2048x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, fun xi3 E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (second coordinate 4): this point's product is added to the accumulator (handed at what the point before
    left, `xs0`), then the bias and the rectifier are applied to it and the result stored into the output, which the
    body is handed at anything. The pieces of the output (`.1`) and of the accumulator (`.2`). -/
noncomputable def kernelRun0_C (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_relu_kernel i arg2 harg2 arg3 harg3 arg4 harg4 arg5 harg5 arg6 harg6) K } := by
  refine ⟨?_, ?_, fun E K => ?run⟩
  case run =>
    simp only [cc0__matmul_bias_relu_kernel_eq_skeleton]; unfold cc0__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Window `w`'s block at point `t`, read off its array as the region finds it. -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves: the pieces read back -/

/-- Case A's pieces for the accumulator cover it (the last store is of the whole buffer). -/
theorem scover0_A_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) (y : S2048x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S2048x128.size (by sl_kernel_rfl) y

/-- What case A leaves in the accumulator: its pieces read back over junk. -/
def sout0_A_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) : Vec F S2048x128 .f32 :=
  VS0_0.read (Elt F) (VS0_0.writes (Elt F) VS0_0.junk (kernelRun0_A c i arg2 harg2 arg3 harg3 arg4 harg4 arg5 harg5 arg6 harg6 hc0 hc1 x0 x1 x2).1)

/-- Case B's pieces for the accumulator cover it. -/
theorem scover0_B_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) (y : S2048x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S2048x128.size (by sl_kernel_rfl) y

/-- What case B leaves in the accumulator. -/
def sout0_B_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).1)

/-- Case C's pieces for the output cover its block (one store of the whole block). -/
theorem cover0_C_3 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x128.size (by sl_kernel_rfl) y

/-- What case C leaves in the output's staging buffer. -/
def out0_C_3 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) : Vec F S2048x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the accumulator cover it. -/
theorem scover0_C_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x128.size (by sl_kernel_rfl) y

/-- What case C leaves in the accumulator. -/
def sout0_C_0 (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- The output component where the body stores nothing into the output (the window is idle there and not written
    back, so nothing consults it). -/
def out0_idle : Vec F S2048x128 .f32 := VO0_3.read (Elt F) VO0_3.junk

/-! ## What the output's buffer and the accumulator hold after each point -/

/-- A point of case A: (nothing for the output, the accumulator reset and this point's product added). -/
def ptA (V : (c : Dev nD) → (b : Ref sig .tc) → Buf (Elt F) ((c : Thread nD τ).loc b)) (c : Dev nD) (t : Fin cfg0.N) (h0 : t.val % 5 = 0) : Vec F S2048x128 .f32 × Vec F S2048x128 .f32 :=
  (out0_idle, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t))

/-- A point of case B, the accumulator found at `xs`. -/
def ptB (V : (c : Dev nD) → (b : Ref sig .tc) → Buf (Elt F) ((c : Thread nD τ).loc b)) (c : Dev nD) (t : Fin cfg0.N) (h0 : ¬t.val % 5 = 0) (h1 : ¬t.val % 5 = 4) (xs : Vec F S2048x128 .f32) : Vec F S2048x128 .f32 × Vec F S2048x128 .f32 :=
  (out0_idle, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs)

/-- A point of case C, the accumulator found at `xs`. -/
def ptC (V : (c : Dev nD) → (b : Ref sig .tc) → Buf (Elt F) ((c : Thread nD τ).loc b)) (c : Dev nD) (t : Fin cfg0.N) (h0 : ¬t.val % 5 = 0) (h1 : t.val % 5 = 4) (xs : Vec F S2048x128 .f32) : Vec F S2048x128 .f32 × Vec F S2048x128 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs)

/-- After point `n`: (the output window's staging buffer, the accumulator scratch) — the case the point is in, run at
    the point's memrefs and input blocks, the accumulator found at what the point before left. -/
def outsAt0 (V : (c : Dev nD) → (b : Ref sig .tc) → Buf (Elt F) ((c : Thread nD τ).loc b)) (c : Dev nD) : (n : ℕ) → n < cfg0.N → Vec F S2048x128 .f32 × Vec F S2048x128 .f32
  | 0, hn => ptA V c ⟨0, hn⟩ (Nat.zero_mod 5)
  | n + 1, hn =>
    if h0 : (n + 1) % 5 = 0 then ptA V c ⟨n + 1, hn⟩ h0
    else if h1 : (n + 1) % 5 = 4 then ptC V c ⟨n + 1, hn⟩ h0 h1 (outsAt0 V c n (Nat.lt_of_succ_lt hn)).2
    else ptB V c ⟨n + 1, hn⟩ h0 h1 (outsAt0 V c n (Nat.lt_of_succ_lt hn)).2

theorem outsAt0_A (V : (c : Dev nD) → (b : Ref sig .tc) → Buf (Elt F) ((c : Thread nD τ).loc b)) (c : Dev nD) (t : Fin cfg0.N) (h0 : t.val % 5 = 0) :
    outsAt0 V c t.val t.isLt = ptA V c t h0 := by
  obtain ⟨n, hn⟩ := t
  cases n with
  | zero => exact rfl
  | succ n => exact (dif_pos h0).trans rfl

theorem outsAt0_B (V : (c : Dev nD) → (b : Ref sig .tc) → Buf (Elt F) ((c : Thread nD τ).loc b)) (c : Dev nD) (t : Fin cfg0.N) (h0 : ¬t.val % 5 = 0) (h1 : ¬t.val % 5 = 4) :
    outsAt0 V c t.val t.isLt = ptB V c t h0 h1 (outsAt0 V c (t.val - 1) (Nat.lt_of_le_of_lt (Nat.sub_le _ _) t.isLt)).2 := by
  obtain ⟨n, hn⟩ := t
  cases n with
  | zero => exact absurd (Nat.zero_mod 5) h0
  | succ n => exact (dif_neg h0).trans ((dif_neg h1).trans rfl)

theorem outsAt0_C (V : (c : Dev nD) → (b : Ref sig .tc) → Buf (Elt F) ((c : Thread nD τ).loc b)) (c : Dev nD) (t : Fin cfg0.N) (h0 : ¬t.val % 5 = 0) (h1 : t.val % 5 = 4) :
    outsAt0 V c t.val t.isLt = ptC V c t h0 h1 (outsAt0 V c (t.val - 1) (Nat.lt_of_le_of_lt (Nat.sub_le _ _) t.isLt)).2 := by
  obtain ⟨n, hn⟩ := t
  cases n with
  | zero => exact absurd (Nat.zero_mod 5) h0
  | succ n => exact (dif_neg h0).trans ((dif_pos h1).trans rfl)

/-- The region invariant before position `n`: before the first point the launch's (every scoped buffer at anything);
    afterwards the accumulator at what the point before left in it, the other scoped buffers at anything, and the
    generator register at some state. -/
def PhiS (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (V : (c : Dev nD) → (b : Ref sig .tc) → Buf (Elt F) ((c : Thread nD τ).loc b)) (c : Dev nD) (n : ℕ) (h : n ≤ cfg0.N) (hz : n = 0) : PhiS V c n h = Pipeline.ΦA spec0 c := by
  subst hz; rfl

theorem PhiS_succ (V : (c : Dev nD) → (b : Ref sig .tc) → Buf (Elt F) ((c : Thread nD τ).loc b)) (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl

theorem PhiS_pos (V : (c : Dev nD) → (b : Ref sig .tc) → Buf (Elt F) ((c : Thread nD τ).loc b)) (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The pipeline's proof data -/

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (V : (c : Dev nD) → (b : Ref sig .tc) → Buf (Elt F) ((c : Thread nD τ).loc b)) (c : Dev nD) (w : Fin cfg0.W) : (dat0 V c).A w = V c (Pipeline.arrRef spec0 w) := by
  dsimp only [dat0]
theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = (outsAt0 V c t.val t.isLt).1 := by dsimp only [dat0]
theorem share0 (V : (c : Dev nD) → (b : Ref sig .tc) → Buf (Elt F) ((c : Thread nD τ).loc b)) (c : Dev nD) (w : Fin cfg0.W) : (dat0 V c).q w = fullShare := by dsimp only [dat0]
theorem owed0 (V : (c : Dev nD) → (b : Ref sig .tc) → Buf (Elt F) ((c : Thread nD τ).loc b)) (c : Dev nD) (t : Fin (cfg0.N + 1)) : (dat0 V c).owed t = 0 := by dsimp only [dat0]

theorem PhiS_castSucc (V : (c : Dev nD) → (b : Ref sig .tc) → Buf (Elt F) ((c : Thread nD τ).loc b)) (c : Dev nD) (t : Fin cfg0.N) :
    (dat0 V c).Φ t.castSucc = PhiS V c t.val (Nat.le_of_lt t.isLt) := by
  dsimp only [dat0]; simp only [Fin.coe_castSucc]

/-- Each input's current staging buffer holds its block at every point, fetched there or not: the body leaves the
    block in place, and an unfetched window's index has not moved. -/
theorem before0_0 (V : (c : Dev nD) → (b : Ref sig .tc) → Buf (Elt F) ((c : Thread nD τ).loc b)) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : (c : Dev nD) → (b : Ref sig .tc) → Buf (Elt F) ((c : Thread nD τ).loc b)) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : (c : Dev nD) → (b : Ref sig .tc) → Buf (Elt F) ((c : Thread nD τ).loc b)) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, -/
def bodyPre (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms of the conditions say which case
    the point is in, so that case's run applies; the invariant hands the body the accumulator at what the point before
    left (at anything at the first point) and takes it back at this point's contents; the other scoped buffers and the
    generator register pass through; the core owes nothing throughout. -/
theorem sound_body (V : (c : Dev nD) → (b : Ref sig .tc) → Buf (Elt F) ((c : Thread nD τ).loc b)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 25 := lt_of_lt_of_eq t.isLt (show cfg0.N = 25 from N_0)
  by_cases h0 : t.val % 5 = 0
  · have h1 : ¬t.val % 5 = 4 := by omega
    have hc0 : cond0_0 (grid0.coords t) := (hcond0_0 t).mpr h0
    have hc1 : ¬cond0_1 (grid0.coords t) := fun h => h1 ((hcond0_1 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [outsAt0_A V c t h0]
    unfold ptA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    by_cases h1 : t.val % 5 = 4
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold ptC out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [outsAt0_B V c t h0 h1]
      unfold ptB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (V : (c : Dev nD) → (b : Ref sig .tc) → Buf (Elt F) ((c : Thread nD τ).loc b)) (c : Dev nD) : BodyObligation (dat0 (F := F) V c) (defs₀ (F := F)) Variants.none () Set.univ := fun t => by
  rw [bigSep_W0, bigSep_W0]
  exact sound_body V c t

/-- What the launch hands the region is the invariant before the first point. -/
theorem hin0 (V : (c : Dev nD) → (b : Ref sig .tc) → Buf (Elt F) ((c : Thread nD τ).loc b)) (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out0 (V : (c : Dev nD) → (b : Ref sig .tc) → Buf (Elt F) ((c : Thread nD τ).loc b)) (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (V : (c : Dev nD) → (b : Ref sig .tc) → Buf (Elt F) ((c : Thread nD τ).loc b)) (c : Dev nD) : (dat0 V c).Φ (Fin.last cfg0.N) ⊢ Pipeline.ΦA spec0 c :=
  Phi_out0 V c _ (by rw [Fin.val_last]; have : cfg0.N = 25 := N_0; omega)

/-! ## The found pieces as payloads -/

/-- The stores and loads of the body are through the whole buffer: offset zero. -/
theorem hz2 : (![0, 0] : Fin 2 → ℕ) = fun _ => 0 := by funext a; fin_cases a <;> rfl

theorem sout0_A_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x2048 .bf16) (x1 : Vec F S2048x128 .bf16) (x2 : Vec F S1x128 .f32) :
    sout0_A_0 c i arg2 harg2 arg3 harg3 arg4 harg4 arg5 harg5 arg6 harg6 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem sout0_B_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x2048 .bf16) (x1 : Vec F S2048x128 .bf16) (x2 : Vec F S1x128 .f32) (xs0 : Vec F S2048x128 .f32) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem sout0_C_0_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

theorem out0_C_3_eq (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x2048 .bf16) (x1 : Vec F S2048x128 .bf16) (x2 : Vec F S1x128 .f32) (xs0 : Vec F S2048x128 .f32) :
    out0_C_3 c i arg2 harg2 arg3 harg3 arg4 harg4 arg5 harg5 arg6 harg6 hc0 hc1 x0 x1 x2 xs0 = k0_pay3 (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S2048x128) hz2]
  simp only [View.readAt_eq_ld, harg2.read_unread, harg3.read_unread, harg4.read_unread, harg6.read_unread, View.ld_unit_zero (S := S2048x2048) hz2, View.ld_unit_zero (S := S2048x128) hz2, View.ld_unit_zero (S := S1x128) hz2, View.readCov_unit_zero (S := S2048x128) _ hz2]

/-! ## What the found pieces are, in terms of the payloads -/

/-- The accumulator after a point with k = 0: the reset accumulator plus this point's product. -/
theorem scr0_first (V : (c : Dev nD) → (b : Ref sig .tc) → Buf (Elt F) ((c : Thread nD τ).loc b)) (c : Dev nD) (t : Fin cfg0.N) (h : t.val % 5 = 0) :
    (outsAt0 V c t.val t.isLt).2 = k0_pay2 (k0_pay1 (F := F)) (iblk0 V c 0 t) (iblk0 V c 1 t) := by
  rw [outsAt0_A V c t h]; unfold ptA; dsimp only
  exact sout0_A_0_eq c (grid0.coords t) (ms0_0 t) (hs0_0 t) (ms0_1 t) (hs0_1 t) (ms0_2 t) (hs0_2 t) (ms0_3 t) (hs0_3 t) scM0_0 (Memref.isWhole_whole _) ((hcond0_0 t).mpr h) (fun h' => absurd ((hcond0_1 t).mp h') (by omega)) (iblk0 V c 0 t) (iblk0 V c 1 t) (iblk0 V c 2 t)
/-- The accumulator after a point with k > 0: what the point before left plus this point's product. -/
theorem scr0_next (V : (c : Dev nD) → (b : Ref sig .tc) → Buf (Elt F) ((c : Thread nD τ).loc b)) (c : Dev nD) (t : Fin cfg0.N) (h : t.val % 5 ≠ 0) :
    (outsAt0 V c t.val t.isLt).2
      = k0_pay2 (outsAt0 V c (t.val - 1) (Nat.lt_of_le_of_lt (Nat.sub_le _ _) t.isLt)).2 (iblk0 V c 0 t) (iblk0 V c 1 t) := by
  by_cases h1 : t.val % 5 = 4
  · rw [outsAt0_C V c t h h1]; unfold ptC; dsimp only
    exact sout0_C_0_eq c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h h1]; unfold ptB; dsimp only
    exact sout0_B_0_eq c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) (fun h' => h1 ((hcond0_1 t).mp h')) (iblk0 V c 0 t) (iblk0 V c 1 t) (iblk0 V c 2 t) (outsAt0 V c (t.val - 1) (Nat.lt_of_le_of_lt (Nat.sub_le _ _) t.isLt)).2
/-- The output block at a point with k = 4: the bias and the rectifier applied to the accumulator. -/
theorem out0_last (V : (c : Dev nD) → (b : Ref sig .tc) → Buf (Elt F) ((c : Thread nD τ).loc b)) (c : Dev nD) (t : Fin cfg0.N) (h : t.val % 5 = 4) :
    (outsAt0 V c t.val t.isLt).1 = k0_pay3 (outsAt0 V c t.val t.isLt).2 (iblk0 V c 2 t) := by
  have h0 : ¬t.val % 5 = 0 := by omega
  rw [outsAt0_C V c t h0 h]; unfold ptC; dsimp only
  exact (out0_C_3_eq c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).trans
    (congrArg (fun s : Vec F S2048x128 .f32 => k0_pay3 s (iblk0 V c 2 t))
      (sout0_C_0_eq c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h) (iblk0 V c 0 t) (iblk0 V c 1 t) (iblk0 V c 2 t) (outsAt0 V c (t.val - 1) (Nat.lt_of_le_of_lt (Nat.sub_le _ _) t.isLt)).2).symm)

end Cert.KernelIdeal.Hand

end
-- ==== Proof.KI.Region1.lean ====
/-
  Region 1 (the second aggregation matmul, 2048x64 output blocks): what the pipeline's buffers hold point by
  point, the proof data and the body obligation, at the contents `V` the region is entered with.
-/
import proofs.«424546_j8289286881626_1_alg».proof.Proof.Gen.KernelIdeal.Launch
import proofs.«424546_j8289286881626_1_alg».proof.Proof.Gen.KernelIdeal.Skeleton
import proofs.«424546_j8289286881626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Window `w`'s block at point `t`, read off its array as the region finds it. -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions, decided over the grid -/

/-- The condition of the body's first conditional (second grid coordinate = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second conditional (second grid coordinate = 4). -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the points with second coordinate 4 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the points with second coordinate 4 the output window is live. -/
theorem liveAt1_3 : ∀ t : Fin cfg1.N, cond1_1 (grid1.coords t) → cfg1.idle 3 (grid1.coords t) = false := by decide +kernel

/-! ## The staging memrefs and the scratch -/

/-- One staging buffer of the output window, through which its contents are stated. -/
abbrev VO1_3 : View sig .tc .vmem S2048x64 .f32 := (Memref.whole cc1_stg3_0 : Memref sig .tc .vmem S2048x64 .f32).view
/-- Each window's current staging memref at point `t`, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x64 .f32 := Memref.whole cc1_scratch0
/-- The accumulator as a view: what it holds is stated through it. -/
abbrev VS1_0 : View sig .tc .vmem S2048x64 .f32 := scM1_0.view

/-- The scoped buffers of the core that the region neither stages nor accumulates in, each at some contents, and
    the generator register at some state: the part of the region's invariant the body never touches. -/
def PhiRest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) ∗ (∃ r, prngReg c r))

/-- The launch's invariant hands over the accumulator at some contents beside that part, -/
theorem PhiA1_open (c : Dev nD) :
    (Pipeline.ΦA spec1 c : sProp 𝕄) ⊢ iprop((∃ d, owns (c : Thread nD τ) scM1_0 fullShare d) ∗ PhiRest1 c) := by
  unfold Pipeline.ΦA PhiRest1; rw [scopedRest1_eq]; simp only [scM1_0, owns_whole]
  iintro ⟨⟨HR0, HR1, HR2, HR3, HR4, HR5, HR6, HR7, HS0⟩, Hg⟩
  isplitl [HS0]; · iexact HS0
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

/-- and takes them back. -/
theorem PhiA1_close (c : Dev nD) :
    iprop((∃ d, owns (c : Thread nD τ) scM1_0 fullShare d) ∗ PhiRest1 c) ⊢ (Pipeline.ΦA spec1 c : sProp 𝕄) := by
  unfold Pipeline.ΦA PhiRest1; rw [scopedRest1_eq]; simp only [scM1_0, owns_whole]
  iintro ⟨HS0, ⟨HR0, HR1, HR2, HR3, HR4, HR5, HR6, HR7⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HS0
  iexact Hg

/-! ## The kernel body on any whole staging memrefs, case by case -/

set_option maxHeartbeats 1000000 in
/-- Case A (second coordinate 0: the accumulator is reset, then this point's product is added; nothing is stored
    into the output block). On whole memrefs — the inputs' at their contents, the output's at contents handed back
    untouched, the accumulator at anything — the body runs to the continuation with the inputs as they were and
    the accumulator with the found pieces written. -/
noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) :
    { LS0 : List (View.Piece (Elt F) S2048x64 .f32) //
      ∀ (x2 : Vec F S1x64 .f32) (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, fun x2 xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (second coordinate 1, 2 or 3: this point's product is added to the accumulator; nothing is stored into
    the output block). The accumulator starts at the contents `xs0` the point before left. -/
noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) :
    { LS0 : List (View.Piece (Elt F) S2048x64 .f32) //
      ∀ (x2 : Vec F S1x64 .f32) (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, fun x2 xi3 E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (second coordinate 4: this point's product is added to the accumulator, then the accumulator with the bias
    added is stored into the output block). The accumulator starts at the contents `xs0` the point before left,
    the output's memref at anything; both end with the found pieces written. -/
noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_relu_kernel i arg2 harg2 arg3 harg3 arg4 harg4 arg5 harg5 arg6 harg6) K } := by
  refine ⟨?_, ?_, fun E K => ?run⟩
  case run =>
    simp only [cc1__matmul_bias_relu_kernel_eq_skeleton]; unfold cc1__matmul_bias_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: the found pieces read back -/

/-- Case A's pieces for the accumulator cover it. -/
theorem scover1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (y : S2048x64.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S2048x64.size (by sl_kernel_rfl) y

/-- What case A leaves in the accumulator: its pieces read back over junk. -/
def sout1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) : Vec F S2048x64 .f32 :=
  VS1_0.read (Elt F) (VS1_0.writes (Elt F) VS1_0.junk (kernelRun1_A c i arg2 harg2 arg3 harg3 arg4 harg4 arg5 harg5 arg6 harg6 hc0 hc1 x0 x1).1)

/-- Case B's pieces for the accumulator cover it. -/
theorem scover1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) (y : S2048x64.Idx) :
    ∃ pc ∈ (kernelRun1_B c i arg2 harg2 arg3 harg3 arg4 harg4 arg5 harg5 arg6 harg6 hc0 hc1 x0 x1 xs0).1, y ∈ pc.1.set :=
  View.cover_of_tiledL (kernelRun1_B c i arg2 harg2 arg3 harg3 arg4 harg4 arg5 harg5 arg6 harg6 hc0 hc1 x0 x1 xs0).1 S2048x64.size (by sl_kernel_rfl) y

/-- What case B leaves in the accumulator. -/
def sout1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 xs0).1)

/-- Case C's pieces for the output block cover it. -/
theorem cover1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output's staging buffer. -/
def out1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator cover it. -/
theorem scover1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the accumulator. -/
def sout1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- A point with second coordinate 0: the output's buffer is not stored into and the window is idle there and not
    written back, so the first component is unconstrained (zeros); the accumulator is what case A leaves. -/
def pt1A (V : (c : Dev nD) → (b : Ref sig .tc) → Buf (Elt F) ((c : Thread nD τ).loc b)) (c : Dev nD) (t : Fin cfg1.N) (h0 : t.val % 5 = 0) : Vec F S2048x64 .f32 × Vec F S2048x64 .f32 :=
  (k1_pay1 (F := F), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t))

/-- A point with second coordinate 1, 2 or 3, the accumulator found at `xs`: likewise, by case B. -/
def pt1B (V : (c : Dev nD) → (b : Ref sig .tc) → Buf (Elt F) ((c : Thread nD τ).loc b)) (c : Dev nD) (t : Fin cfg1.N) (h0 : ¬t.val % 5 = 0) (h1 : ¬t.val % 5 = 4) (xs : Vec F S2048x64 .f32) : Vec F S2048x64 .f32 × Vec F S2048x64 .f32 :=
  (k1_pay1 (F := F), sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) xs)

/-- A point with second coordinate 4, the accumulator found at `xs`: what case C leaves in the output's buffer and in the accumulator. -/
def pt1C (V : (c : Dev nD) → (b : Ref sig .tc) → Buf (Elt F) ((c : Thread nD τ).loc b)) (c : Dev nD) (t : Fin cfg1.N) (h0 : ¬t.val % 5 = 0) (h1 : t.val % 5 = 4) (xs : Vec F S2048x64 .f32) : Vec F S2048x64 .f32 × Vec F S2048x64 .f32 :=
  (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

/-- After point `n`: (the output window's staging buffer, the accumulator scratch). The case the point's second
    coordinate selects, run at the point's memrefs and input blocks, the accumulator found at what point `n - 1` left. -/
def outsAt1 (V : (c : Dev nD) → (b : Ref sig .tc) → Buf (Elt F) ((c : Thread nD τ).loc b)) (c : Dev nD) : (n : ℕ) → n < cfg1.N → Vec F S2048x64 .f32 × Vec F S2048x64 .f32
  | 0, hn => pt1A V c ⟨0, hn⟩ (Nat.zero_mod _)
  | n + 1, hn =>
    if h0 : (n + 1) % 5 = 0 then pt1A V c ⟨n + 1, hn⟩ h0
    else if h1 : (n + 1) % 5 = 4 then pt1C V c ⟨n + 1, hn⟩ h0 h1 (outsAt1 V c n (Nat.lt_of_succ_lt hn)).2
    else pt1B V c ⟨n + 1, hn⟩ h0 h1 (outsAt1 V c n (Nat.lt_of_succ_lt hn)).2

theorem outsAt1_A (V : (c : Dev nD) → (b : Ref sig .tc) → Buf (Elt F) ((c : Thread nD τ).loc b)) (c : Dev nD) (t : Fin cfg1.N) (h0 : t.val % 5 = 0) :
    outsAt1 V c t.val t.isLt = pt1A V c t h0 := by
  obtain ⟨n, hn⟩ := t
  cases n with
  | zero => rfl
  | succ n => exact (dif_pos h0).trans rfl

theorem outsAt1_B (V : (c : Dev nD) → (b : Ref sig .tc) → Buf (Elt F) ((c : Thread nD τ).loc b)) (c : Dev nD) (t : Fin cfg1.N) (h0 : ¬t.val % 5 = 0) (h1 : ¬t.val % 5 = 4) :
    outsAt1 V c t.val t.isLt = pt1B V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (V : (c : Dev nD) → (b : Ref sig .tc) → Buf (Elt F) ((c : Thread nD τ).loc b)) (c : Dev nD) (t : Fin cfg1.N) (h0 : ¬t.val % 5 = 0) (h1 : t.val % 5 = 4) :
    outsAt1 V c t.val t.isLt = pt1C V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- The accumulator before position `n`: at anything before the first point, afterwards at what the point before left. -/
def scrAt1 (V : (c : Dev nD) → (b : Ref sig .tc) → Buf (Elt F) ((c : Thread nD τ).loc b)) (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem scrAt1_any (V : (c : Dev nD) → (b : Ref sig .tc) → Buf (Elt F) ((c : Thread nD τ).loc b)) (c : Dev nD) (n : ℕ) (h : n ≤ cfg1.N) :
    scrAt1 V c n h ⊢ iprop(∃ d, owns (c : Thread nD τ) scM1_0 fullShare d) := by
  cases n with
  | zero => exact Idealize.SL.BI.Entails.refl _
  | succ n =>
    show owns (c : Thread nD τ) scM1_0 fullShare (outsAt1 V c n h).2 ⊢ _
    iintro H; iexists _; iexact H

theorem scrAt1_pos (V : (c : Dev nD) → (b : Ref sig .tc) → Buf (Elt F) ((c : Thread nD τ).loc b)) (c : Dev nD) (n : ℕ) (h : n ≤ cfg1.N) (hz : n ≠ 0) :
    scrAt1 V c n h = owns (c : Thread nD τ) scM1_0 fullShare (outsAt1 V c (n - 1) (by omega)).2 := by
  cases n with
  | zero => exact absurd rfl hz
  | succ n => rfl

/-- The invariant before position `n`: the accumulator as above, beside the part the body never touches. -/
def PhiS1 (V : (c : Dev nD) → (b : Ref sig .tc) → Buf (Elt F) ((c : Thread nD τ).loc b)) (c : Dev nD) (n : ℕ) (h : n ≤ cfg1.N) : sProp 𝕄 := iprop(scrAt1 V c n h ∗ PhiRest1 c)

/-! ## The proof data -/

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]
theorem after1_0 (V : (c : Dev nD) → (b : Ref sig .tc) → Buf (Elt F) ((c : Thread nD τ).loc b)) (c : Dev nD) (t : Fin cfg1.N) : (dat1 V c).after 0 t = iblk1 V c 0 t := by dsimp only [dat1]
theorem after1_1 (V : (c : Dev nD) → (b : Ref sig .tc) → Buf (Elt F) ((c : Thread nD τ).loc b)) (c : Dev nD) (t : Fin cfg1.N) : (dat1 V c).after 1 t = iblk1 V c 1 t := by dsimp only [dat1]
theorem after1_2 (V : (c : Dev nD) → (b : Ref sig .tc) → Buf (Elt F) ((c : Thread nD τ).loc b)) (c : Dev nD) (t : Fin cfg1.N) : (dat1 V c).after 2 t = iblk1 V c 2 t := by dsimp only [dat1]
theorem after1_3 (V : (c : Dev nD) → (b : Ref sig .tc) → Buf (Elt F) ((c : Thread nD τ).loc b)) (c : Dev nD) (t : Fin cfg1.N) : (dat1 V c).after 3 t = (outsAt1 V c t.val t.isLt).1 := by dsimp only [dat1]
theorem share1 (V : (c : Dev nD) → (b : Ref sig .tc) → Buf (Elt F) ((c : Thread nD τ).loc b)) (c : Dev nD) (w : Fin cfg1.W) : (dat1 V c).q w = fullShare := rfl
theorem owed1 (V : (c : Dev nD) → (b : Ref sig .tc) → Buf (Elt F) ((c : Thread nD τ).loc b)) (c : Dev nD) (t : Fin (cfg1.N + 1)) : (dat1 V c).owed t = 0 := rfl

theorem PhiS1_castSucc (V : (c : Dev nD) → (b : Ref sig .tc) → Buf (Elt F) ((c : Thread nD τ).loc b)) (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: the body leaves the
    block in place, and where the pipeline does not fetch, the block index has not moved. -/
theorem before1_0 (V : (c : Dev nD) → (b : Ref sig .tc) → Buf (Elt F) ((c : Thread nD τ).loc b)) (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (V : (c : Dev nD) → (b : Ref sig .tc) → Buf (Elt F) ((c : Thread nD τ).loc b)) (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (V : (c : Dev nD) → (b : Ref sig .tc) → Buf (Elt F) ((c : Thread nD τ).loc b)) (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' memrefs hold their blocks; the point's second coordinate says which case it is
    in; the invariant hands the body the accumulator (at what the point before left, or at anything at a point that
    resets it) and takes it back at this point's contents, the pieces covering it. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_castSucc V c t]
  unfold PhiS1
  rw [show scrAt1 V c (t.val + 1) t.isLt = owns (c : Thread nD τ) scM1_0 fullShare (outsAt1 V c t.val t.isLt).2 from rfl]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 5 = 4
  · have h0 : ¬t.val % 5 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold pt1C out1_C sout1_C; (try dsimp only)
    rw [scrAt1_pos V c _ _ (by omega)]
    iintro ⟨⟨HS0, HR⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR]
    · isplitl [HS0]
      · unfold owns; iexists _; isplitr
        swap; · iexact HS0
        ipureintro; exact View.read_writes_of_cover _ _ _ _ _ (scover1_C c _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 5 = 0
    · rw [outsAt1_A V c t h0]
      unfold pt1A sout1_A; (try dsimp only)
      iintro ⟨⟨HS0, HR⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 (iblk1 V c 2 t) _ Set.univ _)
      isplitl [H0]; · iexact H0
      isplitl [H1]; · iexact H1
      isplitl [H2]; · iexact H2
      isplitl [H3]; · iexact H3
      isplitl [HS0]; · iapply (scrAt1_any V c _ _); iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [outsAt1_B V c t h0 h1]
      unfold pt1B sout1_B; (try dsimp only)
      rw [scrAt1_pos V c _ _ (by omega)]
      iintro ⟨⟨HS0, HR⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_B c _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : (c : Dev nD) → (b : Ref sig .tc) → Buf (Elt F) ((c : Thread nD τ).loc b)) (c : Dev nD) : Pipeline.ΦA spec1 c ⊢ (dat1 V c).Φ 0 := PhiA1_open c

/-- After the last point the invariant gives the launch's back: the accumulator's named contents are forgotten. -/
theorem hout1 (V : (c : Dev nD) → (b : Ref sig .tc) → Buf (Elt F) ((c : Thread nD τ).loc b)) (c : Dev nD) : (dat1 V c).Φ (Fin.last cfg1.N) ⊢ Pipeline.ΦA spec1 c := by
  refine Idealize.SL.BI.Entails.trans ?_ (PhiA1_close c)
  show iprop(scrAt1 V c _ _ ∗ PhiRest1 c) ⊢ _
  iintro ⟨HS0, HR⟩
  isplitl [HS0]; · iapply (scrAt1_any V c _ _); iexact HS0
  iexact HR

/-! ## The found pieces as the payloads -/

theorem off00 : (![0, 0] : Fin 2 → Nat) = fun _ => 0 := funext fun a => by fin_cases a <;> rfl

/-- Case A leaves in the accumulator the reset accumulator plus the point's product. -/
theorem sout1_A_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) :
    sout1_A c i arg2 harg2 arg3 harg3 arg4 harg4 arg5 harg5 arg6 harg6 hc0 hc1 x0 x1 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  rw [View.canon_cons_unit_zero (S := S2048x64) off00, View.readCov_unit_zero (S := S2048x64) _ off00]
  simp only [View.readAt_eq_ld, harg2.read_unread, harg3.read_unread, View.ld_unit_zero (S := S2048x2048) off00, View.ld_unit_zero (S := S2048x64) off00]

/-- Case B leaves in the accumulator what it found there plus the point's product. -/
theorem sout1_B_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (xs0 : Vec F S2048x64 .f32) :
    sout1_B c i arg2 harg2 arg3 harg3 arg4 harg4 arg5 harg5 arg6 harg6 hc0 hc1 x0 x1 xs0 = k1_pay2 xs0 x0 x1 := by
  unfold sout1_B
  rw [View.read_writes_eq_canon _ _ _ (scover1_B c i arg2 harg2 arg3 harg3 arg4 harg4 arg5 harg5 arg6 harg6 hc0 hc1 x0 x1 xs0)]
  unfold kernelRun1_B
  dsimp only
  sl_unfold_words
  rw [View.canon_unit_zero (S := S2048x64) off00]
  simp only [View.readAt_eq_ld, harg2.read_unread, harg3.read_unread, harg6.read_unread, View.ld_unit_zero (S := S2048x2048) off00, View.ld_unit_zero (S := S2048x64) off00]

/-- Case C leaves in the accumulator what it found there plus the point's product, -/
theorem sout1_C_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S2048x64) off00]
  simp only [View.readAt_eq_ld, harg2.read_unread, harg3.read_unread, harg6.read_unread, View.ld_unit_zero (S := S2048x2048) off00, View.ld_unit_zero (S := S2048x64) off00]

/-- and in the output's buffer that accumulator with the bias added. -/
theorem out1_C_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S2048x64) off00]
  simp only [View.readAt_eq_ld, harg2.read_unread, harg3.read_unread, harg4.read_unread, harg6.read_unread, View.readCov_unit_zero (S := S2048x64) _ off00, View.ld_unit_zero (S := S2048x2048) off00, View.ld_unit_zero (S := S2048x64) off00, View.ld_unit_zero (S := S1x64) off00]

/-! ## What the point-by-point contents are, in terms of the payloads -/

/-- The accumulator after a point with k = 0: the reset accumulator plus this point's product. -/
theorem scr1_first (V : (c : Dev nD) → (b : Ref sig .tc) → Buf (Elt F) ((c : Thread nD τ).loc b)) (c : Dev nD) (t : Fin cfg1.N) (h : t.val % 5 = 0) :
    (outsAt1 V c t.val t.isLt).2 = k1_pay2 (k1_pay1 (F := F)) (iblk1 V c 0 t) (iblk1 V c 1 t) := by
  rw [outsAt1_A V c t h]; unfold pt1A; dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h) (fun h' => by have := (hcond1_1 t).mp h'; omega) (iblk1 V c 0 t) (iblk1 V c 1 t)
/-- The accumulator after a point with k > 0: what the point before left plus this point's product. -/
theorem scr1_next (V : (c : Dev nD) → (b : Ref sig .tc) → Buf (Elt F) ((c : Thread nD τ).loc b)) (c : Dev nD) (t : Fin cfg1.N) (h : t.val % 5 ≠ 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 5 = 4
  · rw [outsAt1_C V c t h h1]; unfold pt1C; dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h h1]; unfold pt1B; dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) (fun h' => h1 ((hcond1_1 t).mp h')) (iblk1 V c 0 t) (iblk1 V c 1 t) (outsAt1 V c (t.val - 1) (Nat.lt_of_le_of_lt (Nat.sub_le _ _) t.isLt)).2
/-- The output block at a point with k = 4: the bias applied to the accumulator. -/
theorem out1_last (V : (c : Dev nD) → (b : Ref sig .tc) → Buf (Elt F) ((c : Thread nD τ).loc b)) (c : Dev nD) (t : Fin cfg1.N) (h : t.val % 5 = 4) :
    (outsAt1 V c t.val t.isLt).1 = k1_pay3 (outsAt1 V c t.val t.isLt).2 (iblk1 V c 2 t) := by
  have h0 : ¬t.val % 5 = 0 := by omega
  rw [outsAt1_C V c t h0 h]; unfold pt1C; dsimp only
  refine (out1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).trans ?_
  exact congrArg (fun s => k1_pay3 s (iblk1 V c 2 t)) (sout1_C_eq (F := F) c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).symm

end Cert.KernelIdeal.Hand

end
-- ==== Proof.KI.Run.lean ====
/-
  The program's run: @main is three stretches of host operations, the first matrix-product region, a stretch, the second
  region and a last stretch. Each region is entered with the buffers as the stretch before it left them, moves only its
  own staging buffers, its accumulator and its result array, and leaves the result array at what its write-backs
  produce; no stretch and no region writes an argument. So every execution ends, the arguments end unchanged, and the
  program's result is the last stretch applied to what the second region left.
-/
import proofs.«424546_j8289286881626_1_alg».proof.Proof.Gen.KernelIdeal.Launch
import proofs.«424546_j8289286881626_1_alg».proof.Proof.Gen.KernelIdeal.Skeleton
import proofs.«424546_j8289286881626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424546_j8289286881626_1_alg».proof.Proof.Gen.KernelIdeal.Regions
import proofs.«424546_j8289286881626_1_alg».proof.Proof.KI.Region0
import proofs.«424546_j8289286881626_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first region is entered. -/
abbrev Ve0 (c : Dev nD) (b : Ref sig .tc) : Buf (Elt F) ((c : Thread nD τ).loc b) := Gen.V3 m c b

namespace RunAux

/-- The first region's result array after its last point: the contents of `main_v54` it leaves. -/
def out54 (c : Dev nD) : Buf (Elt F) ((c : Thread nD τ).loc main_v54) := (dat0 (Ve0 m) c).arrAt 3 cfg0.N

/-- The contents the regions leave, with only the first region's result in place (the second region's entry contents
    read nothing else of them). -/
def outsA : Gen.Outs (F := F) := fun _ r c =>
  if h : r = main_v54 then h ▸ out54 m c else m ((c : Thread nD τ).loc r)

/-- The second region's result array after its last point, the region entered over the first region's result. -/
def out58 (c : Dev nD) : Buf (Elt F) ((c : Thread nD τ).loc main_v58) :=
  (dat1 (fun c b => Gen.V5 m (outsA m) c b) c).arrAt 3 cfg1.N

end RunAux

open RunAux

/-- What the regions leave in their result arrays: after the first region `main_v54` holds its array after the last
    point; after the second `main_v58` does, the second region having been entered with the first's result in place. -/
def outs (m : (ℓ : Loc nD τ sig) → Buf (Elt F) ℓ) : Gen.Outs (F := F) := fun _ r c =>
  if h : r = main_v54 then h ▸ out54 m c
  else if h : r = main_v58 then h ▸ out58 m c
  else m ((c : Thread nD τ).loc r)

/-- The buffers as the second region is entered. -/
abbrev Ve1 (c : Dev nD) (b : Ref sig .tc) : Buf (Elt F) ((c : Thread nD τ).loc b) := Gen.V5 m (outs m) c b

theorem outs_v54 (c : Dev nD) : outs m 4 main_v54 c = (dat0 (Ve0 m) c).arrAt 3 cfg0.N := by
  unfold outs
  rw [dif_pos rfl]
  rfl

/-- The second region's entry contents read the regions' results only at the first's, where the two agree. -/
theorem RunAux.V5_outs (c : Dev nD) : Gen.V5 m (outs m) c = Gen.V5 m (outsA m) c := by
  have h : outs m 4 main_v54 c = outsA m 4 main_v54 c := by
    unfold outs outsA
    rw [dif_pos rfl, dif_pos rfl]
  unfold Gen.V5 Gen.V4
  rw [h]

theorem outs_v58 (c : Dev nD) : outs m 6 main_v58 c = (dat1 (Ve1 m) c).arrAt 3 cfg1.N := by
  have hV : (fun c b => Gen.V5 m (outsA m) c b : (c : Dev nD) → (b : Ref sig .tc) → Buf (Elt F) ((c : Thread nD τ).loc b)) = Ve1 m := by
    funext c b
    rw [← V5_outs]
  unfold outs
  rw [dif_neg (by decide), dif_pos rfl]
  show out58 m c = _
  unfold out58
  rw [hV]

namespace RunAux

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev noLevels : GSem nD τ sig → Finset Unit := fun _ => ∅
abbrev levelOf : GSem nD τ sig → Unit → ℕ := fun _ _ => 0

/-- What rides beside the buffers through every item: the core's generator register at some state (a region's
    invariant takes it in and gives it back) and the core owing nothing. -/
abbrev rest (c : Dev nD) : sProp 𝕄 := iprop((∃ r, prngReg c r) ∗ ∃ W, owes (c : Thread nD τ) (0 : CellTallies nD τ sig Unit) W)

/-! ## The first region -/

/-- After its last point each of the first region's arrays holds what the valuation after the region says: the three
    operand arrays are never written, the result array is the one entry the valuation changes. -/
theorem hF0 (c : Dev nD) (w : Fin cfg0.W) :
    (pdats m 0 c).arrAt w cfg0.N = (fun b => Gen.V4 m (outs m) c b : (b : Ref sig .tc) → Buf (Elt F) ((c : Thread nD τ).loc b)) (Pipeline.arrRef spec0 w) := by
  match w with
  | ⟨0, _⟩ =>
    rw [Pipeline.Dat.arrAt_in _ _ rfl]
    exact (A_eq0 (Ve0 m) c 0).trans (Gen.V4_of m (outs m) c _ (by decide)).symm
  | ⟨1, _⟩ =>
    rw [Pipeline.Dat.arrAt_in _ _ rfl]
    exact (A_eq0 (Ve0 m) c 1).trans (Gen.V4_of m (outs m) c _ (by decide)).symm
  | ⟨2, _⟩ =>
    rw [Pipeline.Dat.arrAt_in _ _ rfl]
    exact (A_eq0 (Ve0 m) c 2).trans (Gen.V4_of m (outs m) c _ (by decide)).symm
  | ⟨3, _⟩ =>
    show (dat0 (Ve0 m) c).arrAt 3 cfg0.N = Function.update (Gen.V3 m c) main_v54 (outs m 4 main_v54 c) main_v54
    rw [Function.update_self, outs_v54]

/-- Every buffer that is none of the first region's arrays is as the region found it. -/
theorem hrest0 (c : Dev nD) : ∀ b, b ∉ Finset.univ.image (Pipeline.arrRef spec0) →
    (fun b => Gen.V4 m (outs m) c b : (b : Ref sig .tc) → Buf (Elt F) ((c : Thread nD τ).loc b)) b = Ve0 m c b := fun b hb =>
  Gen.V4_of m (outs m) c b (by
    intro h
    exact hb (Finset.mem_image.mpr ⟨3, Finset.mem_univ _, (List.mem_singleton.mp h).symm⟩))

-- a library lemma stated over the pinned configuration unifies with the printed one only when unification may unfold
-- plain definitions in a metavariable's type
set_option backward.isDefEq.respectTransparency.types false in
/-- Region 0 over the thread state: entered from every unscoped buffer at the contents before it, left at the contents
    after it. Its arrays are split out of the unscoped buffers and put back at their exit contents; the generator
    register goes into the region's invariant and comes back; nothing is owed; the kernel has no semaphore of its own. -/
def reg0 : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ noLevels levelOf 0 fun c t => owed0 (Ve0 m) c t
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun w => share0 (Ve0 m) c w) (Ve0 m c) fun w => A_eq0 (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => share0 (Ve0 m) c w)
      (Ve0 m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- After its last point each of the second region's arrays holds what the valuation after the region says: the three
    operand arrays are never written, the result array is the one entry the valuation changes. -/
theorem hF1 (c : Dev nD) (w : Fin cfg1.W) :
    (pdats m 1 c).arrAt w cfg1.N = (fun b => Gen.V6 m (outs m) c b : (b : Ref sig .tc) → Buf (Elt F) ((c : Thread nD τ).loc b)) (Pipeline.arrRef spec1 w) := by
  match w with
  | ⟨0, _⟩ =>
    rw [Pipeline.Dat.arrAt_in _ _ rfl]
    exact (A_eq1 (Ve1 m) c 0).trans (Gen.V6_of m (outs m) c _ (by decide)).symm
  | ⟨1, _⟩ =>
    rw [Pipeline.Dat.arrAt_in _ _ rfl]
    exact (A_eq1 (Ve1 m) c 1).trans (Gen.V6_of m (outs m) c _ (by decide)).symm
  | ⟨2, _⟩ =>
    rw [Pipeline.Dat.arrAt_in _ _ rfl]
    exact (A_eq1 (Ve1 m) c 2).trans (Gen.V6_of m (outs m) c _ (by decide)).symm
  | ⟨3, _⟩ =>
    show (dat1 (Ve1 m) c).arrAt 3 cfg1.N = Function.update (Gen.V5 m (outs m) c) main_v58 (outs m 6 main_v58 c) main_v58
    rw [Function.update_self, outs_v58]

/-- Every buffer that is none of the second region's arrays is as the region found it. -/
theorem hrest1 (c : Dev nD) : ∀ b, b ∉ Finset.univ.image (Pipeline.arrRef spec1) →
    (fun b => Gen.V6 m (outs m) c b : (b : Ref sig .tc) → Buf (Elt F) ((c : Thread nD τ).loc b)) b = Ve1 m c b := fun b hb =>
  Gen.V6_of m (outs m) c b (by
    intro h
    exact hb (Finset.mem_image.mpr ⟨3, Finset.mem_univ _, (List.mem_singleton.mp h).symm⟩))

-- a library lemma stated over the pinned configuration unifies with the printed one only when unification may unfold
-- plain definitions in a metavariable's type
set_option backward.isDefEq.respectTransparency.types false in
/-- Region 1 over the thread state: entered from every unscoped buffer at the contents before it, left at the contents
    after it. Its arrays are split out of the unscoped buffers and put back at their exit contents; the generator
    register goes into the region's invariant and comes back; nothing is owed; the kernel has no semaphore of its own. -/
def reg1 : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ noLevels levelOf 1 fun c t => owed1 (Ve1 m) c t
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun w => share1 (Ve1 m) c w) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => share1 (Ve1 m) c w)
      (Ve1 m c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end RunAux

-- the conditional frame's implicit arguments are found by unifying its hypotheses with these records, which takes
-- unfolding plain definitions in a metavariable's type
set_option backward.isDefEq.respectTransparency.types false in
/-- Every execution ends with the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none noLevels levelOf (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noLevels levelOf fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun c => .rfl) (hpost0 := fun c => .rfl)
    (R1 := reg1 m) (hpre1 := fun c => .rfl) (hpost1 := fun c => .rfl)

end Cert.KernelIdeal.Hand

end
-- ==== Proof.KI.RunValue.lean ====
/-
  The program's run with its result: the same run as the frame's, its post also reading the result buffer off the
  last valuation. Every execution ends, the arguments end unchanged, and the result buffer holds the last stretch
  applied to what the second region left.
-/
import proofs.«424546_j8289286881626_1_alg».proof.Proof.KI.Run
import proofs.«424546_j8289286881626_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open RunAux

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conditional frame's implicit arguments are found by unifying its hypotheses with these records, which takes
-- unfolding plain definitions in a metavariable's type
set_option backward.isDefEq.respectTransparency.types false in
/-- Every execution ends with the result at the last stretch's value and the arguments unchanged. -/
theorem run_value : θ_run defs (onTc (τ := τ) (main (F := F))) ⟨m, fun _ => 0, ρ⟩ (fun r => ∀ c : Dev nD,
      r.2.mem ((c.tc : Thread nD τ).loc main_v59) = Gen.V7 m (outs m) c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m emb₁ () Variants.none noLevels levelOf (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noLevels levelOf fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun c => .rfl) (hpost0 := fun c => .rfl)
    (R1 := reg1 m) (hpre1 := fun c => .rfl) (hpost1 := fun c => .rfl)

end Cert.KernelIdeal.Hand

end
-- ==== Proof.GcnMath.lean ====
/-
  The mathematics of the certificate, free of any program: a graph-convolution layer written two ways.

  A list of `n` weighted edges `e` with integer endpoints `src e`, `dst e` and weight `a e` acts on node features `y`
  (a matrix with one row per node). The gather-and-scatter arrangement sums, for node `d`, the weighted rows of the
  sources of the edges that end at `d`: `∑_{e : dst e = d} a e · y[src e]`. The dense arrangement first sums the
  weights of the edges from `s` to `d` into an adjacency entry `adj d s` of a (padded) square matrix and then takes the
  matrix product `∑_s adj d s · y[s]`. With finite weights and features and every endpoint a node, the two are equal:
  distribute each adjacency entry's sum over the product (finiteness is what makes this legitimate on the extended
  reals) and regroup the double sum by edge. Padding rows and columns meet no edge, so their adjacency entries are
  zero and contribute nothing, whatever the padded features hold. Two such layers with a dense map before each, a bias
  after each and a rectifier between them give the two networks `refNet` and `kerNet`.
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

namespace Cert.GcnMath

open Finset

/-- A value of the extended reals that is a real number. -/
def IsReal (v : EReal) : Prop := ∃ r : ℝ, v = (r : EReal)

variable {n N Np K0 K1 K2 C K : Nat}

/-- The gather-and-scatter arrangement: the sources' rows (the source clamped into the node range, as a gather clamps),
    weighted, summed over the edges that end at `d`, from a zero start. -/
def aggRef (src dst : Fin n → Int) (a : Fin n → EReal) (hN : 0 < N) (y : Fin N → Fin C → EReal) (d : Fin N) (c : Fin C) : EReal :=
  0 + ∑ e : Fin n, if dst e = (d.val : Int) then a e * y ⟨min (src e).toNat (N - 1), by omega⟩ c else 0

/-- The dense adjacency entry: the weights of the edges from `s` to `d`, summed from a zero start. -/
def adj (src dst : Fin n → Int) (a : Fin n → EReal) (d s : Fin Np) : EReal :=
  0 + ∑ e : Fin n, if dst e = (d.val : Int) ∧ src e = (s.val : Int) then a e else 0

/-- The dense arrangement: the adjacency row of `d` times the feature matrix. -/
def aggKer (src dst : Fin n → Int) (a : Fin n → EReal) (yp : Fin Np → Fin C → EReal) (d : Fin Np) (c : Fin C) : EReal :=
  ∑ s : Fin Np, adj src dst a d s * yp s c

/-- A dense map: features times a weight matrix. -/
def dense (X : Fin N → Fin K → EReal) (W : Fin K → Fin C → EReal) (s : Fin N) (c : Fin C) : EReal :=
  ∑ k : Fin K, X s k * W k c

/-! ### Real numbers inside the extended reals -/

theorem IsReal.zero : IsReal 0 := ⟨0, by simp⟩

theorem IsReal.add {u v : EReal} (hu : IsReal u) (hv : IsReal v) : IsReal (u + v) := by
  obtain ⟨r, rfl⟩ := hu
  obtain ⟨t, rfl⟩ := hv
  exact ⟨r + t, (EReal.coe_add r t).symm⟩

theorem IsReal.mul {u v : EReal} (hu : IsReal u) (hv : IsReal v) : IsReal (u * v) := by
  obtain ⟨r, rfl⟩ := hu
  obtain ⟨t, rfl⟩ := hv
  exact ⟨r * t, (EReal.coe_mul r t).symm⟩

theorem IsReal.max {u v : EReal} (hu : IsReal u) (hv : IsReal v) : IsReal (max u v) := by
  rcases le_total u v with h | h
  · rwa [max_eq_right h]
  · rwa [max_eq_left h]

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i, IsReal (f i)) :
    IsReal (∑ i ∈ s, f i) := by
  choose g hg using hf
  exact ⟨∑ i ∈ s, g i, by rw [coe_sum]; exact Finset.sum_congr rfl (fun i _ => hg i)⟩

/-! ### One layer -/

/-- With real weights an adjacency entry is the real sum of the weights of the edges from `s` to `d`. -/
theorem adj_coe (src dst : Fin n → Int) (a' : Fin n → ℝ) (d s : Fin Np) :
    adj src dst (fun e => (a' e : EReal)) d s
      = ((∑ e : Fin n, if dst e = (d.val : Int) ∧ src e = (s.val : Int) then a' e else 0 : ℝ) : EReal) := by
  unfold adj
  rw [coe_sum, zero_add]
  refine Finset.sum_congr rfl (fun e _ => ?_)
  split_ifs <;> simp

/-- One layer, equal in the two arrangements. -/
theorem aggKer_eq_aggRef (hN : 0 < N) (hNp : N ≤ Np) (src dst : Fin n → Int) (a : Fin n → EReal)
    (hsrc : ∀ e, 0 ≤ src e ∧ src e < N) (hdst : ∀ e, 0 ≤ dst e ∧ dst e < N) (ha : ∀ e, IsReal (a e))
    (y : Fin N → Fin C → EReal) (hy : ∀ s c, IsReal (y s c))
    (yp : Fin Np → Fin C → EReal) (hyp : ∀ (s : Fin Np) (h : s.val < N) (c : Fin C), yp s c = y ⟨s.val, h⟩ c)
    (d : Fin N) (c : Fin C) :
    aggKer src dst a yp ⟨d.val, lt_of_lt_of_le d.isLt hNp⟩ c = aggRef src dst a hN y d c := by
  classical
  -- real witnesses of the weights and the features
  choose a' ha' using ha
  choose y' hy' using hy
  obtain rfl : a = fun e => (a' e : EReal) := funext ha'
  obtain rfl : y = fun s c => (y' s c : EReal) := funext fun s => funext fun c => hy' s c
  -- the feature column `c` as a real function of every natural index, zero outside the node range
  let Y : ℕ → ℝ := fun s => if h : s < N then y' ⟨s, h⟩ c else 0
  -- every source is a node
  have hsN : ∀ e, (src e).toNat < N := fun e => by have := hsrc e; omega
  -- (1) a term of the dense arrangement is a real product; on padding columns both sides vanish
  have hterm : ∀ s : Fin Np,
      adj src dst (fun e => (a' e : EReal)) ⟨d.val, lt_of_lt_of_le d.isLt hNp⟩ s * yp s c
        = (((∑ e : Fin n, if dst e = (d.val : Int) ∧ src e = (s.val : Int) then a' e else 0) * Y s.val : ℝ) : EReal) := by
    intro s
    rw [adj_coe]
    by_cases h : s.val < N
    · rw [hyp s h c, EReal.coe_mul]
      simp only [Y, dif_pos h]
    · have h0 : (∑ e : Fin n, if dst e = (d.val : Int) ∧ src e = (s.val : Int) then a' e else 0 : ℝ) = 0 := by
        refine Finset.sum_eq_zero (fun e _ => ?_)
        have := hsrc e
        rw [if_neg]
        rintro ⟨_, h2⟩
        omega
      simp only [h0, EReal.coe_zero, zero_mul]
  -- (2) the gather-and-scatter arrangement is a real sum
  have hR : aggRef src dst (fun e => (a' e : EReal)) hN (fun s c => (y' s c : EReal)) d c
      = ((∑ e : Fin n, if dst e = (d.val : Int) then a' e * Y (src e).toNat else 0 : ℝ) : EReal) := by
    unfold aggRef
    rw [coe_sum, zero_add]
    refine Finset.sum_congr rfl (fun e _ => ?_)
    have hm : min (src e).toNat (N - 1) = (src e).toNat := by have := hsN e; omega
    split_ifs
    · simp only [Y, dif_pos (hsN e), EReal.coe_mul, hm]
    · simp
  -- (3) regroup the double sum by edge: for a fixed edge only the column of its source contributes
  have hreal : (∑ s : Fin Np, (∑ e : Fin n, if dst e = (d.val : Int) ∧ src e = (s.val : Int) then a' e else 0) * Y s.val : ℝ)
      = ∑ e : Fin n, if dst e = (d.val : Int) then a' e * Y (src e).toNat else 0 := by
    simp only [Finset.sum_mul]
    rw [Finset.sum_comm]
    refine Finset.sum_congr rfl (fun e _ => ?_)
    by_cases hd : dst e = (d.val : Int)
    · simp only [hd, true_and, if_true]
      rw [Finset.sum_eq_single (⟨(src e).toNat, lt_of_lt_of_le (hsN e) hNp⟩ : Fin Np)]
      · have := hsrc e
        rw [if_pos]
        simp only []
        omega
      · intro s _ hs
        rw [if_neg, zero_mul]
        intro h2
        apply hs
        apply Fin.ext
        simp only []
        omega
      · intro h; exact absurd (Finset.mem_univ _) h
    · simp [hd]
  unfold aggKer
  rw [Finset.sum_congr rfl (fun s _ => hterm s), ← coe_sum, hreal, hR]

/-- A layer of finite weights and features is finite. -/
theorem aggRef_fin (hN : 0 < N) (src dst : Fin n → Int) (a : Fin n → EReal) (ha : ∀ e, IsReal (a e))
    (y : Fin N → Fin C → EReal) (hy : ∀ s c, IsReal (y s c)) (d : Fin N) (c : Fin C) : IsReal (aggRef src dst a hN y d c) := by
  unfold aggRef
  refine IsReal.add IsReal.zero (IsReal.sum _ _ (fun e => ?_))
  split_ifs
  · exact (ha e).mul (hy _ c)
  · exact IsReal.zero

/-- A dense map of finite matrices is finite. -/
theorem dense_fin (X : Fin N → Fin K → EReal) (W : Fin K → Fin C → EReal) (hX : ∀ s k, IsReal (X s k)) (hW : ∀ k c, IsReal (W k c))
    (s : Fin N) (c : Fin C) : IsReal (dense X W s c) := by
  unfold dense
  exact IsReal.sum _ _ (fun k => (hX s k).mul (hW k c))

/-- A dense map only reads its own row: two feature matrices that agree on a row have the same image on it. -/
theorem dense_congr_row (X : Fin N → Fin K → EReal) (Xp : Fin Np → Fin K → EReal) (W : Fin K → Fin C → EReal)
    (s : Fin Np) (t : Fin N) (h : ∀ k, Xp s k = X t k) (c : Fin C) : dense Xp W s c = dense X W t c := by
  unfold dense
  exact Finset.sum_congr rfl (fun k _ => by rw [h k])

/-- The reference network: dense, layer, bias, rectifier, dense, layer, bias. -/
def refNet (src dst : Fin n → Int) (a : Fin n → EReal) (hN : 0 < N) (x : Fin N → Fin K0 → EReal) (W1 : Fin K0 → Fin K1 → EReal)
    (b1 : Fin K1 → EReal) (W2 : Fin K1 → Fin K2 → EReal) (b2 : Fin K2 → EReal) (d : Fin N) (c : Fin K2) : EReal :=
  aggRef src dst a hN (dense (fun s k => max (aggRef src dst a hN (dense x W1) s k + b1 k) 0) W2) d c + b2 c

/-- The kernel's network, on padded node ranges. -/
def kerNet (src dst : Fin n → Int) (a : Fin n → EReal) (xp : Fin Np → Fin K0 → EReal) (W1 : Fin K0 → Fin K1 → EReal)
    (b1 : Fin K1 → EReal) (W2 : Fin K1 → Fin K2 → EReal) (b2 : Fin K2 → EReal) (d : Fin Np) (c : Fin K2) : EReal :=
  aggKer src dst a (dense (fun s k => max (aggKer src dst a (dense xp W1) s k + b1 k) 0) W2) d c + b2 c

/-- The two networks agree on every node. -/
theorem kerNet_eq_refNet (hN : 0 < N) (hNp : N ≤ Np) (src dst : Fin n → Int) (a : Fin n → EReal)
    (hsrc : ∀ e, 0 ≤ src e ∧ src e < N) (hdst : ∀ e, 0 ≤ dst e ∧ dst e < N) (ha : ∀ e, IsReal (a e))
    (x : Fin N → Fin K0 → EReal) (hx : ∀ s k, IsReal (x s k))
    (xp : Fin Np → Fin K0 → EReal) (hxp : ∀ (s : Fin Np) (h : s.val < N) (k : Fin K0), xp s k = x ⟨s.val, h⟩ k)
    (W1 : Fin K0 → Fin K1 → EReal) (hW1 : ∀ k c, IsReal (W1 k c)) (b1 : Fin K1 → EReal) (hb1 : ∀ k, IsReal (b1 k))
    (W2 : Fin K1 → Fin K2 → EReal) (hW2 : ∀ k c, IsReal (W2 k c)) (b2 : Fin K2 → EReal)
    (d : Fin N) (c : Fin K2) :
    kerNet src dst a xp W1 b1 W2 b2 ⟨d.val, lt_of_lt_of_le d.isLt hNp⟩ c = refNet src dst a hN x W1 b1 W2 b2 d c := by
  unfold kerNet refNet
  -- first layer: its input features are finite, and the padded input agrees with them on the node rows
  have hy1 : ∀ s k, IsReal (dense x W1 s k) := fun s k => dense_fin x W1 hx hW1 s k
  have hyp1 : ∀ (s : Fin Np) (h : s.val < N) (k : Fin K1), dense xp W1 s k = dense x W1 ⟨s.val, h⟩ k :=
    fun s h k => dense_congr_row x xp W1 s ⟨s.val, h⟩ (fun j => hxp s h j) k
  have hL1 : ∀ (s : Fin Np) (h : s.val < N) (k : Fin K1),
      aggKer src dst a (dense xp W1) s k = aggRef src dst a hN (dense x W1) ⟨s.val, h⟩ k :=
    fun s h k => aggKer_eq_aggRef hN hNp src dst a hsrc hdst ha (dense x W1) hy1 (dense xp W1) hyp1 ⟨s.val, h⟩ k
  -- hidden features: finite (a maximum of a real and zero), and equal in the two arrangements on the node rows
  have hHfin : ∀ (s : Fin N) (k : Fin K1), IsReal (max (aggRef src dst a hN (dense x W1) s k + b1 k) 0) :=
    fun s k => ((aggRef_fin hN src dst a ha _ hy1 s k).add (hb1 k)).max IsReal.zero
  have hy2 : ∀ s c, IsReal (dense (fun s k => max (aggRef src dst a hN (dense x W1) s k + b1 k) 0) W2 s c) :=
    fun s c => dense_fin _ W2 hHfin hW2 s c
  have hyp2 : ∀ (s : Fin Np) (h : s.val < N) (c : Fin K2),
      dense (fun s k => max (aggKer src dst a (dense xp W1) s k + b1 k) 0) W2 s c
        = dense (fun s k => max (aggRef src dst a hN (dense x W1) s k + b1 k) 0) W2 ⟨s.val, h⟩ c :=
    fun s h c => dense_congr_row _ _ W2 s ⟨s.val, h⟩ (fun j => by simp only [hL1 s h j]) c
  -- second layer
  rw [aggKer_eq_aggRef hN hNp src dst a hsrc hdst ha _ hy2 _ hyp2 d c]

end Cert.GcnMath

end
-- ==== Proof.Chain.lean ====
/-
  The edge list both programs build, and what the precondition says of it.

  Both programs start from the same chain of operations on the edge list and the edge weights: the sources and the
  destinations with one self loop per node appended (650000 entries each), the weights with a one per self loop, the
  degree of each node (the weights summed by destination), its inverse square root where the degree is positive and
  zero elsewhere, and the per-edge norm `dinv[src] · w · dinv[dst]`. With every entry of the given edge list a node
  index, every source and destination of the extended list is one too (an entry of the given list, or a node's own
  number); with real weights every norm is a real number (a product of reals: an inverse square root of a positive
  extended real is real, the +∞ case giving zero).
-/
import proofs.«424546_j8289286881626_1_alg».proof.Proof.Gen.ReferenceIdeal.Read
import proofs.«424546_j8289286881626_1_alg».proof.Proof.GcnMath
import Idealize.ShloMosaic.Lib.StableHlo.Predicate
import Idealize.ShloMosaic.Lib.IdealHost

noncomputable section

namespace Cert.Chain

open Idealize.ShloMosaic Idealize.ShloMosaic.ValueIdx Cert.ReferenceIdeal Cert.ReferenceIdeal.Gen Cert.ReferenceIdeal.Read Cert.GcnMath

/-- Source of entry `e` of the edge list with self loops, as an integer. -/
def srcZ (ei : (⟨S2x640000, .i32⟩ : BufTy).Contents (Elt Ideal)) (e : Fin 650000) : Int := (val_main_v5 (F := Ideal) ei (ix1 e)).toInt
/-- Its destination. -/
def dstZ (ei : (⟨S2x640000, .i32⟩ : BufTy).Contents (Elt Ideal)) (e : Fin 650000) : Int := (val_main_v6 (F := Ideal) ei (ix1 e)).toInt
/-- Its norm. -/
def nrm (ei : (⟨S2x640000, .i32⟩ : BufTy).Contents (Elt Ideal)) (ew : (⟨S640000, .f32⟩ : BufTy).Contents (Elt Ideal)) (e : Fin 650000) : EReal :=
  val_main_v31 (F := Ideal) ei ew (ix1 e)

/-! ### A one-dimensional concatenation of 640000 and 10000 entries, read at an entry -/

/-- Below 640000 the concatenation reads its first piece at the same entry. -/
theorem cat_lo {α : Type} (x₁ : S640000.Idx → α) (x₂ : S10000.Idx → α) (e : Fin 650000) (he : e.val < 640000) :
    concatenate S650000 0 [⟨S640000, x₁⟩, ⟨S10000, x₂⟩] concatenates_S640000_S10000_S650000_d0 (ix1 e)
      = x₁ (ix1 ⟨e.val, he⟩) :=
  concatenate_pair_apply_left (t := S650000) (s₁ := S640000) (s₂ := S10000) (0 : Fin 1) x₁ x₂ _ _ rfl _ (fun b => by
    match b with
    | ⟨0, _⟩ => rfl)

/-- From 640000 on it reads its second piece, 640000 entries earlier. -/
theorem cat_hi {α : Type} (x₁ : S640000.Idx → α) (x₂ : S10000.Idx → α) (e : Fin 650000) (he : 640000 ≤ e.val) :
    concatenate S650000 0 [⟨S640000, x₁⟩, ⟨S10000, x₂⟩] concatenates_S640000_S10000_S650000_d0 (ix1 e)
      = x₂ (ix1 ⟨e.val - 640000, by have := e.isLt; omega⟩) :=
  concatenate_pair_apply_right (t := S650000) (s₁ := S640000) (s₂ := S10000) (0 : Fin 1) x₁ x₂ _ _ rfl rfl _
    (fun b hb => by
      match b with
      | ⟨0, _⟩ => exact absurd rfl hb)
    (by show e.val - 640000 + 640000 = e.val; omega)

/-! ### Sources and destinations -/

/-- A self loop's endpoint: the node's own number, read back as an integer. -/
theorem loop_toInt (p : Fin 10000) : (val_main_v4 (F := Ideal) (ix1 p)).toInt = (p.val : Int) := by
  rw [val_main_v4_apply]
  exact StableHlo.Predicate.toInt_ofNat_small p.val (by have := p.isLt; omega)

theorem srcZ_range (ei : (⟨S2x640000, .i32⟩ : BufTy).Contents (Elt Ideal)) (h : ∀ i, 0 ≤ (ei i).toInt ∧ (ei i).toInt < 10000) (e : Fin 650000) :
    0 ≤ srcZ ei e ∧ srcZ ei e < (10000 : Nat) := by
  unfold srcZ val_main_v5
  by_cases he : e.val < 640000
  · rw [cat_lo _ _ e he, val_main_v1_apply, val_main_v0_apply]
    exact h _
  · rw [cat_hi _ _ e (Nat.le_of_not_lt he), loop_toInt]
    have := e.isLt
    constructor <;> omega
theorem dstZ_range (ei : (⟨S2x640000, .i32⟩ : BufTy).Contents (Elt Ideal)) (h : ∀ i, 0 ≤ (ei i).toInt ∧ (ei i).toInt < 10000) (e : Fin 650000) :
    0 ≤ dstZ ei e ∧ dstZ ei e < (10000 : Nat) := by
  unfold dstZ val_main_v6
  by_cases he : e.val < 640000
  · rw [cat_lo _ _ e he, val_main_v3_apply, val_main_v2_apply]
    exact h _
  · rw [cat_hi _ _ e (Nat.le_of_not_lt he), loop_toInt]
    have := e.isLt
    constructor <;> omega

/-! ### The norms are real -/

/-- The inverse square root of a positive extended real is a real number (of `+∞` it is zero). -/
theorem rsqrt_real_of_pos (x : EReal) (hx : 0 < x) : IsReal (Ideal.rsqrt x) := by
  induction x using EReal.rec with
  | bot => exact absurd hx (by simp)
  | top => exact ⟨0, by simp⟩
  | coe r =>
    have hr : 0 < r := by exact_mod_cast hx
    rw [Ideal.rsqrt_coe, if_neg (not_lt.2 hr.le), if_neg hr.ne']
    exact ⟨_, rfl⟩

/-- The inverse square root of the degree where the degree is positive, zero elsewhere: a real number whatever
    the degree is. -/
theorem dinv_real (deg : (⟨S10000, .f32⟩ : BufTy).Contents (Elt Ideal)) (j : S10000.Idx) :
    IsReal (Scalar.select (FloatOps.cmpf (F := Ideal) (φ := .f32) .ogt (deg j) (val_main_v12 (F := Ideal) j))
      (FloatOps.hostUnary (F := Ideal) (φ := .f32) .rsqrt (deg j)) (val_main_call0_v1 (F := Ideal) j)) := by
  rw [val_main_v12_apply, val_main_cst_1_apply, val_main_call0_v1_apply, val_main_call0_v0_apply, val_main_cst_2_apply,
    Ideal.ofBits_def, Ideal.ofBits_zero_f32, Ideal.cmpf_def, Ideal.hostUnary_rsqrt_def]
  unfold Scalar.select
  rw [show Ideal.cmp .ogt (deg j) 0 = BitVec.ofBool (decide (0 < deg j)) from rfl]
  by_cases hpos : 0 < deg j
  · rw [if_pos (by rw [decide_eq_true hpos]; rfl)]
    exact rsqrt_real_of_pos _ hpos
  · rw [if_neg (by rw [decide_eq_false hpos]; decide)]
    exact IsReal.zero

/-- A gather reads its operand at some index: of an array whose entries are all real, every gathered entry is
    real, whichever index it reads. -/
theorem gather_real {s si t : Shape} {w : Nat} (d : GatherDims s si t) (x : s.Idx → EReal) (hx : ∀ j, IsReal (x j))
    (idx : IVec si w) (i : t.Idx) : IsReal (Host.gather d x idx i) := hx _

/-- Every entry of the inverse-square-root array is real. -/
theorem v15_real (ei : (⟨S2x640000, .i32⟩ : BufTy).Contents (Elt Ideal)) (ew : (⟨S640000, .f32⟩ : BufTy).Contents (Elt Ideal))
    (j : S10000.Idx) : IsReal (val_main_v15 (F := Ideal) ei ew j) := by
  rw [val_main_v15_apply, val_main_v13_apply, val_main_v14_apply]
  exact dinv_real _ j

/-- Every weight of the extended list is real: a given weight, or a self loop's one. -/
theorem v8_real (ew : (⟨S640000, .f32⟩ : BufTy).Contents (Elt Ideal)) (hew : ∀ i, IsReal (ew i)) (e : Fin 650000) :
    IsReal (val_main_v8 (F := Ideal) ew (ix1 e)) := by
  unfold val_main_v8
  by_cases he : e.val < 640000
  · rw [cat_lo _ _ e he]
    exact hew _
  · rw [cat_hi _ _ e (Nat.le_of_not_lt he), val_main_v7_apply, val_main_cst_apply, Ideal.ofBits_def, Ideal.ofBits_one_f32]
    exact ⟨1, by simp⟩

theorem nrm_real (ei : (⟨S2x640000, .i32⟩ : BufTy).Contents (Elt Ideal)) (ew : (⟨S640000, .f32⟩ : BufTy).Contents (Elt Ideal))
    (hew : ∀ i, IsReal (ew i)) (e : Fin 650000) : IsReal (nrm ei ew e) := by
  unfold nrm
  rw [val_main_v31_apply, val_main_v23_apply, Ideal.mulf_def, Ideal.mulf_def]
  have h22 : IsReal (val_main_v22 (F := Ideal) ei ew (ix1 e)) := by
    unfold val_main_v22
    exact gather_real _ _ (v15_real ei ew) _ _
  have h30 : IsReal (val_main_v30 (F := Ideal) ei ew (ix1 e)) := by
    unfold val_main_v30
    exact gather_real _ _ (v15_real ei ew) _ _
  exact IsReal.mul (IsReal.mul h22 (v8_real ew hew e)) h30

end Cert.Chain

end
-- ==== Proof.LibScatterAdd.lean ====
/-
  A float scatter-add on the extended reals read at one element, at any extent.

  * Updates that are whole rows of a matrix, one start index per row of updates: element (i, c) of the result is
    the operand's plus the sum of the updates' entries (e, c) over the rows e whose start index is i.
  * Scalar updates at two-component start indices into a matrix: element (i, s) is the operand's plus the sum of the
    updates e whose start index is (i, s).
  An update whose start index lies outside the operand meets no element, so it appears in no such sum.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibIndexed

open Idealize.ShloMosaic Idealize.ShloMosaic.ValueIdx Idealize.ShloMosaic.StableHlo.Predicate

/-! ## Where an update lands -/

/-- An update index `j` lands on the operand index `t` exactly when, on every operand axis, the start read off the scatter
    indices plus `j`'s window coordinate is `t`'s coordinate. (The sum is a signed integer; when it is negative or reaches
    the axis's extent on some axis the update lands nowhere, and then it equals no coordinate of any `t` there.) -/
theorem scatter_resultIdx?_eq_some_iff {s si u : Shape} (d : ScatterDims s si u) {w : Nat} (j : u.Idx) (idx : IVec si w)
    (t : s.Idx) :
    d.resultIdx? j idx = some t ↔ ∀ a, d.start j idx a + (d.window j a : Int) = ((t a).val : Int) := by
  unfold ScatterDims.resultIdx?
  split
  · next h =>
    rw [Option.some.injEq, funext_iff]
    refine forall_congr' fun a => ?_
    have := h a
    rw [Fin.ext_iff]
    simp only
    omega
  · next h =>
    refine ⟨fun hh => (by cases hh), fun hh => absurd (fun a => ?_) h⟩
    have := hh a
    have := (t a).isLt
    omega

/-- A sum over a rank-1 index set is the sum over its one coordinate. -/
theorem scatter_sum_idx1 {M : Type*} [AddCommMonoid M] {n : Nat} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

/-! ## Row updates: `[n × C]` updates into an `[N × C]` operand, start indices an `[n × 1]` column

  Operand axis 0 is the indexed one (inserted, no window on it), operand axis 1 is the window axis, read off the updates'
  axis 1; the updates' axis 0 counts the start indices. -/

/-- On the indexed axis the start of update `j` is the start index of `j`'s row, read signed. -/
theorem scatterRows_start0 {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (j : (⟨2, ![n, C]⟩ : Shape).Idx) :
    d.start j idx 0 = (idx (ixP (j 0))).toInt := by
  obtain ⟨uw, iw, sd, ivd, wf⟩ := d
  simp only at huw hiw hsd hivd
  subst huw hiw hsd hivd
  unfold ScatterDims.start
  rw [dif_pos (by simp)]
  congr 2
  funext b
  match b with
  | ⟨0, _⟩ =>
    -- the scatter indices' axis 0 is read at the update's coordinate on its one scatter axis, axis 0
    unfold ScatterDims.siIdx
    rw [dif_neg (by simp)]
    unfold ScatterDims.siCoord
    apply Fin.ext
    simp only [Fin.val_cast]
    rfl
  | ⟨1, _⟩ =>
    -- the index vector's axis: component 0, the position of operand axis 0 in the one-entry map
    unfold ScatterDims.siIdx
    rw [dif_pos (by simp)]
    apply Fin.ext
    simp

/-- On the window axis nothing is indexed: the start is 0. -/
theorem scatterRows_start1 {N C n w : Nat} (d : ScatterDims ⟨2, ![N, C]⟩ ⟨2, ![n, 1]⟩ ⟨2, ![n, C]⟩)
    (hsd : d.scatterDimsToOperandDims = [0]) (idx : IVec ⟨2, ![n, 1]⟩ w) (j : (⟨2, ![n, C]⟩ : Shape).Idx) :
    d.start j idx 1 = 0 := by
  unfold ScatterDims.start
  rw [dif_neg (by rw [hsd]; simp)]

/-- The indexed axis is an inserted one: no window coordinate on it. -/
theorem scatterRows_window0 {N C n : Nat} (d : ScatterDims ⟨2, ![N, C]⟩ ⟨2, ![n, 1]⟩ ⟨2, ![n, C]⟩)
    (hiw : d.insertedWindowDims = [0]) (j : (⟨2, ![n, C]⟩ : Shape).Idx) :
    d.window j 0 = 0 := by
  unfold ScatterDims.window
  rw [dif_neg (by unfold ScatterDims.sKept Shape.kept; rw [hiw]; simp)]

/-- On the window axis the window coordinate is the update's column. -/
theorem scatterRows_window1 {N C n : Nat} (d : ScatterDims ⟨2, ![N, C]⟩ ⟨2, ![n, 1]⟩ ⟨2, ![n, C]⟩)
    (huw : d.updateWindowDims = [1]) (hiw : d.insertedWindowDims = [0]) (j : (⟨2, ![n, C]⟩ : Shape).Idx) :
    d.window j 1 = (j 1).val := by
  obtain ⟨uw, iw, sd, ivd, wf⟩ := d
  simp only at huw hiw
  subst huw hiw
  unfold ScatterDims.window
  rw [dif_pos (by unfold ScatterDims.sKept Shape.kept; simp)]
  rfl

/-- Update (e, c') lands on element (i, c) exactly when row e's start index is i and c' = c. -/
theorem scatterRows_lands_iff {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c' : Fin C) (i : Fin N) (c : Fin C) :
    d.resultIdx? (ix2 e c') idx = some (ix2 i c) ↔ (idx (ixP e)).toInt = (i.val : Int) ∧ c' = c := by
  rw [scatter_resultIdx?_eq_some_iff]
  have s0 : d.start (ix2 e c') idx 0 = (idx (ixP e)).toInt := scatterRows_start0 d huw hiw hsd hivd idx (ix2 e c')
  have s1 := scatterRows_start1 d hsd idx (ix2 e c')
  have w0 := scatterRows_window0 d hiw (ix2 e c')
  have w1 : d.window (ix2 e c') 1 = c'.val := scatterRows_window1 d huw hiw (ix2 e c')
  constructor
  · intro h
    have h0 : d.start (ix2 e c') idx 0 + (d.window (ix2 e c') 0 : Int) = (i.val : Int) := h 0
    have h1 : d.start (ix2 e c') idx 1 + (d.window (ix2 e c') 1 : Int) = (c.val : Int) := h 1
    rw [s0, w0] at h0
    rw [s1, w1] at h1
    exact ⟨by simpa using h0, Fin.ext (by omega)⟩
  · rintro ⟨h0, rfl⟩ a
    match a with
    | ⟨0, _⟩ =>
      show d.start (ix2 e c') idx 0 + (d.window (ix2 e c') 0 : Int) = (i.val : Int)
      rw [s0, w0]
      simpa using h0
    | ⟨1, _⟩ =>
      show d.start (ix2 e c') idx 1 + (d.window (ix2 e c') 1 : Int) = (c'.val : Int)
      rw [s1, w1]
      simp

/-- Scatter-add of rows: `x[idx[e], :] += upd[e, :]`. Element (i, c) of the result is the operand's plus the sum, over
    the update rows `e` whose start index (read signed) is `i`, of the update's entry (e, c); a row whose start index is
    negative or at least `N` equals no `i` and is in no such sum. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ e : Fin n, if (idx (ixP e)).toInt = (i.val : Int) then upd (ix2 e c) else 0 := by
  classical
  unfold Ideal.hostScatterAdd
  congr 1
  -- the sum over the updates that land on (i, c), as a double sum over (row, column) of the updates
  rw [Finset.sum_filter, sum_idx2]
  refine Finset.sum_congr rfl fun e _ => ?_
  simp only [scatterRows_lands_iff d huw hiw hsd hivd idx]
  -- in row e only column c can land on (i, c), and it does when the row's start index is i
  by_cases hP : (idx (ixP e)).toInt = (i.val : Int)
  · simp [hP]
  · simp [hP]

/-! ## Point updates: `[n]` scalar updates into an `[N × M]` operand, start indices an `[n × 2]` table of pairs

  Both operand axes are indexed (inserted, no window); the updates' one axis counts the start indices. -/

/-- On operand axis `a` the start of update `j` is component `a` of `j`'s start index, read signed. -/
theorem scatterPoints_start {N M n w : Nat} (d : ScatterDims ⟨2, ![N, M]⟩ ⟨2, ![n, 2]⟩ ⟨1, ![n]⟩)
    (huw : d.updateWindowDims = []) (hsd : d.scatterDimsToOperandDims = [0, 1])
    (hivd : d.indexVectorDim = 1) (idx : IVec ⟨2, ![n, 2]⟩ w) (j : (⟨1, ![n]⟩ : Shape).Idx) (a : Fin 2) :
    d.start j idx a = (idx (ix2 (j 0) a)).toInt := by
  obtain ⟨uw, iw, sd, ivd, wf⟩ := d
  simp only at huw hsd hivd
  subst huw hsd hivd
  unfold ScatterDims.start
  rw [dif_pos (by match a with | ⟨0, _⟩ => simp | ⟨1, _⟩ => simp)]
  congr 2
  funext b
  match b with
  | ⟨0, _⟩ =>
    -- the scatter indices' axis 0 is read at the update's one coordinate
    unfold ScatterDims.siIdx
    rw [dif_neg (by simp)]
    unfold ScatterDims.siCoord
    apply Fin.ext
    simp only [Fin.val_cast]
    rfl
  | ⟨1, _⟩ =>
    -- the index vector's axis: the position of operand axis a in the map [0, 1] is a itself
    unfold ScatterDims.siIdx
    rw [dif_pos (by simp)]
    apply Fin.ext
    match a with
    | ⟨0, _⟩ => simp
    | ⟨1, _⟩ => simp

/-- Both operand axes are inserted ones: no window coordinate on either. -/
theorem scatterPoints_window {N M n : Nat} (d : ScatterDims ⟨2, ![N, M]⟩ ⟨2, ![n, 2]⟩ ⟨1, ![n]⟩)
    (hiw : d.insertedWindowDims = [0, 1]) (j : (⟨1, ![n]⟩ : Shape).Idx) (a : Fin 2) :
    d.window j a = 0 := by
  unfold ScatterDims.window
  rw [dif_neg (by
    unfold ScatterDims.sKept Shape.kept; rw [hiw]
    match a with | ⟨0, _⟩ => simp | ⟨1, _⟩ => simp)]

/-- Update `e` lands on element (i, s) exactly when its start index is the pair (i, s). -/
theorem scatterPoints_lands_iff {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1) (idx : IVec ⟨2, ![n, 2]⟩ w) (e : Fin n) (i : Fin N) (s : Fin M) :
    d.resultIdx? (ix1 e) idx = some (ix2 i s)
      ↔ (idx (ix2 e (0 : Fin 2))).toInt = (i.val : Int) ∧ (idx (ix2 e (1 : Fin 2))).toInt = (s.val : Int) := by
  rw [scatter_resultIdx?_eq_some_iff]
  have s0 : d.start (ix1 e) idx 0 = (idx (ix2 e (0 : Fin 2))).toInt := scatterPoints_start d huw hsd hivd idx (ix1 e) 0
  have s1 : d.start (ix1 e) idx 1 = (idx (ix2 e (1 : Fin 2))).toInt := scatterPoints_start d huw hsd hivd idx (ix1 e) 1
  have w0 := scatterPoints_window d hiw (ix1 e) 0
  have w1 := scatterPoints_window d hiw (ix1 e) 1
  constructor
  · intro h
    have h0 : d.start (ix1 e) idx 0 + (d.window (ix1 e) 0 : Int) = (i.val : Int) := h 0
    have h1 : d.start (ix1 e) idx 1 + (d.window (ix1 e) 1 : Int) = (s.val : Int) := h 1
    rw [s0, w0] at h0
    rw [s1, w1] at h1
    exact ⟨by simpa using h0, by simpa using h1⟩
  · rintro ⟨h0, h1⟩ a
    match a with
    | ⟨0, _⟩ =>
      show d.start (ix1 e) idx 0 + (d.window (ix1 e) 0 : Int) = (i.val : Int)
      rw [s0, w0]
      simpa using h0
    | ⟨1, _⟩ =>
      show d.start (ix1 e) idx 1 + (d.window (ix1 e) 1 : Int) = (s.val : Int)
      rw [s1, w1]
      simpa using h1

/-- Scatter-add of scalars at pairs: `x[idx[e, 0], idx[e, 1]] += upd[e]`. Element (i, s) of the result is the operand's
    plus the sum of the updates `e` whose start index (both components read signed) is the pair (i, s); an update with a
    component negative or past its axis's extent equals no (i, s) and is in no such sum. -/
theorem scatterAdd_points_apply {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1)
    (x : (⟨2, ![N, M]⟩ : Shape).Idx → EReal) (idx : IVec ⟨2, ![n, 2]⟩ w) (upd : (⟨1, ![n]⟩ : Shape).Idx → EReal)
    (i : Fin N) (s : Fin M) :
    Ideal.hostScatterAdd d x idx upd (ix2 i s)
      = x (ix2 i s) + ∑ e : Fin n,
          if (idx (ix2 e (0 : Fin 2))).toInt = (i.val : Int) ∧ (idx (ix2 e (1 : Fin 2))).toInt = (s.val : Int) then upd (ix1 e) else 0 := by
  classical
  unfold Ideal.hostScatterAdd
  congr 1
  -- the sum over the updates that land on (i, s), as a sum over the updates' one coordinate
  rw [Finset.sum_filter, scatter_sum_idx1]
  refine Finset.sum_congr rfl fun e _ => ?_
  simp only [scatterPoints_lands_iff d huw hiw hsd hivd idx]

end Cert.LibIndexed

end
-- ==== Proof.LibGatherBlock.lean ====
/-
  A gather of rows and a block write read at one element, at any extent.

  * A gather of whole rows: row e of the result is the operand's row at e's start index, read signed and clamped into
    the operand.
  * A scatter that writes one block of R rows at the start index zero: the result is the block on its first R rows
    and the operand below them.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibIndexed

open Idealize.ShloMosaic Idealize.ShloMosaic.ValueIdx Idealize.ShloMosaic.StableHlo.Predicate
/-! ## A gather of whole rows, read at one element -/

/-- The one entry of a singleton list, at whatever position the index is written. -/
private theorem getElem_of_eq_singleton {β : Type} (l : List β) (b : β) (hl : l = [b]) (k : Nat) (hk : k < l.length) :
    l[k] = b := by
  subst hl
  have : k = 0 := by simpa using hk
  subst this; rfl

/-- The first coordinate of a rank-2 index, at an axis known to be the first. -/
private theorem ix2_val_zero {n0 n1 : Nat} (a : Fin n0) (b : Fin n1) (A : Fin 2) (hA : A = 0) : (ix2 a b A).val = a.val := by
  subst hA; rfl

/-- The second coordinate of a rank-2 index, at an axis known to be the second. -/
private theorem ix2_val_one {n0 n1 : Nat} (a : Fin n0) (b : Fin n1) (A : Fin 2) (hA : A = 1) : (ix2 a b A).val = b.val := by
  subst hA; rfl

/-- Gather of rows: `x[idx[e], :]`, the start index read signed and clamped into the operand. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (c : Fin C) (hN : 0 < N) :
    Host.gather d x idx (ix2 e c) = x (ix2 ⟨min (idx (ixP e)).toInt.toNat (N - 1), by omega⟩ c) :=  by
  unfold Host.gather
  congr 1
  funext a
  apply Fin.ext
  have hb : ∀ a : Fin 2, a ∉ d.operandBatchingDims := by intro a; rw [hob]; exact List.not_mem_nil
  match a with
  | ⟨0, _⟩ =>
    -- the row axis: collapsed and start-indexed, so the coordinate is the clamped start alone
    have hk : (⟨0, by decide⟩ : Fin 2) ∉ d.sKept := by rw [GatherDims.mem_sKept, hcoll]; simp
    have hm : (⟨0, by decide⟩ : Fin 2) ∈ d.startIndexMap := by rw [hsim]; simp
    have hsl : d.sliceSizes (⟨0, by decide⟩ : Fin 2) = 1 := by rw [hss]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes ⟨0, _⟩) = min (idx (ixP e)).toInt.toNat (N - 1)
    rw [hsl]
    congr 3
    congr 1
    funext b
    match b with
    | ⟨0, _⟩ =>
      -- the start index sits at the result's batch coordinate: the result's row
      unfold GatherDims.siIdx
      rw [dif_neg (by rw [hivd]; exact Nat.zero_ne_one)]
      unfold GatherDims.siCoord
      apply Fin.ext
      simp only [Fin.val_cast]
      have hbd : d.batchDims = [0] := by
        show Shape.kept _ d.offsetDims = [0]
        rw [hoff]; rfl
      exact ix2_val_zero e c _ (getElem_of_eq_singleton _ _ hbd _ _)
    | ⟨1, _⟩ =>
      -- the index vector's axis: the start index map's one entry, component 0
      unfold GatherDims.siIdx
      rw [dif_pos (by rw [hivd])]
      apply Fin.ext
      show List.idxOf (⟨0, _⟩ : Fin 2) d.startIndexMap = 0
      rw [hsim]; simp
  | ⟨1, _⟩ =>
    -- the column axis: neither collapsed nor start-indexed, so the coordinate is the result's offset coordinate
    have hk : (⟨1, by decide⟩ : Fin 2) ∈ d.sKept := by rw [GatherDims.mem_sKept, hcoll, hob]; simp
    have hm : (⟨1, by decide⟩ : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    exact ix2_val_one e c _ (getElem_of_eq_singleton _ _ hoff _ _)

/-! ## A scatter whose body returns the update, read at one element -/

section ScatterSet

variable {α : Type} {s si u : Shape} {w : Nat}

/-- One step of the scatter's fold when the body returns the update: update number `n` replaces the element it lands
    on, and is dropped when it lands outside. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands elsewhere (or nowhere) leaves the element as it was. -/
private theorem setStep_of_ne (d : ScatterDims s si u) (idx : IVec si w) (upd : u.Idx → α) (r : s.Idx → α)
    (n : Fin u.numel) (i : s.Idx) (h : d.resultIdx? (u.rowMajor.symm n) idx ≠ some i) : setStep d idx upd r n i = r i := by
  unfold setStep
  generalize d.resultIdx? (u.rowMajor.symm n) idx = q at h ⊢
  cases q with
  | none => rfl
  | some i₀ =>
    show (if i = i₀ then upd (u.rowMajor.symm n) else r i) = r i
    rw [if_neg]
    intro hi
    exact h (by rw [hi])

/-- A step whose update lands on the element writes the update there. -/
private theorem setStep_of_eq (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  show (if i = i then upd (u.rowMajor.symm n) else r i) = upd (u.rowMajor.symm n)
  rw [if_pos rfl]

/-- Over any list of updates none of which lands on `i`, the fold leaves element `i` as it was. -/
private theorem foldl_setStep_of_forall_ne (d : ScatterDims s si u) (idx : IVec si w) (upd : u.Idx → α) (i : s.Idx) :
    ∀ (L : List (Fin u.numel)) (r : s.Idx → α), (∀ n ∈ L, d.resultIdx? (u.rowMajor.symm n) idx ≠ some i) →
      L.foldl (setStep d idx upd) r i = r i
  | [], _, _ => rfl
  | n :: L, r, h => by
    rw [List.foldl_cons, foldl_setStep_of_forall_ne d idx upd i L _ (fun m hm => h m (List.mem_cons_of_mem _ hm)),
      setStep_of_ne d idx upd r n i (h n List.mem_cons_self)]

/-- Over a list without repeats that holds `n₀`, the one update that lands on `i`, the fold leaves that update's
    element at `i`: the steps before it do not matter (it overwrites), the steps after it land elsewhere. -/
private theorem foldl_setStep_of_mem (d : ScatterDims s si u) (idx : IVec si w) (upd : u.Idx → α) (i : s.Idx)
    (n₀ : Fin u.numel) (h₀ : d.resultIdx? (u.rowMajor.symm n₀) idx = some i)
    (huniq : ∀ m, d.resultIdx? (u.rowMajor.symm m) idx = some i → m = n₀) :
    ∀ (L : List (Fin u.numel)) (r : s.Idx → α), L.Nodup → n₀ ∈ L →
      L.foldl (setStep d idx upd) r i = upd (u.rowMajor.symm n₀)
  | [], _, _, hm => absurd hm List.not_mem_nil
  | n :: L, r, hnd, hm => by
    rw [List.foldl_cons]
    rcases List.mem_cons.1 hm with rfl | hm'
    · have hnot : n₀ ∉ L := (List.nodup_cons.1 hnd).1
      rw [foldl_setStep_of_forall_ne d idx upd i L _ (fun m hmL hres => hnot (huniq m hres ▸ hmL)),
        setStep_of_eq d idx upd r n₀ i h₀]
    · exact foldl_setStep_of_mem d idx upd i n₀ h₀ huniq L _ (List.nodup_cons.1 hnd).2 hm'

/-- A scatter whose body returns the update, read at an element on which exactly one update lands: that update's
    element (whatever the order of the updates: the others land elsewhere or are dropped). -/
theorem scatter_set_apply_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_eq_foldl]
  have h := foldl_setStep_of_mem d idx upd i (u.rowMajor j) (by rw [Equiv.symm_apply_apply]; exact hj)
    (fun m hm => by rw [← huniq _ hm, Equiv.apply_symm_apply]) _ x (List.nodup_finRange _) (List.mem_finRange _)
  rw [h, Equiv.symm_apply_apply]

/-- A scatter whose body returns the update, read at an element on which no update lands: the operand's element. -/
theorem scatter_set_apply_of_none (d : ScatterDims s si u) (x : s.Idx → α) (idx : IVec si w) (upd : u.Idx → α)
    (i : s.Idx) (h : ∀ j, d.resultIdx? j idx ≠ some i) : Host.scatter d (fun _ b => b) x idx upd i = x i := by
  rw [scatter_eq_foldl]
  exact foldl_setStep_of_forall_ne d idx upd i _ x (fun n _ => h _)

end ScatterSet

/-! ## The block written at the start index zero -/

/-- Entry `a` of the list `[0, 1]` of a rank-2 shape's axes is axis `a`. -/
private theorem getElem_of_eq_pair (l : List (Fin 2)) (hl : l = [0, 1]) (k : Nat) (hk : k < l.length) (a : Fin 2)
    (hka : k = a.val) : l[k] = a := by
  subst hl
  match a with
  | ⟨0, _⟩ => subst hka; rfl
  | ⟨1, _⟩ => subst hka; rfl

/-- Axis `a` sits at position `a` of the list `[0, 1]`. -/
private theorem idxOf_of_eq_pair (l : List (Fin 2)) (hl : l = [0, 1]) (a : Fin 2) : l.idxOf a = a.val := by
  subst hl
  match a with
  | ⟨0, _⟩ => rfl
  | ⟨1, _⟩ => rfl

/-- A coordinate read at an axis known only by an equation. -/
private theorem idx_val_congr {t : Shape} (j : t.Idx) (A a : Fin t.rank) (h : A = a) : (j A).val = (j a).val := by
  subst h; rfl

/-- Update `(p, q)` of the block lands on operand element `(p, q)`: the start is zero on both axes (read off the one
    scatter index on the row axis, unnamed on the column axis) and both axes are window axes. -/
private theorem block_resultIdx {N R C w : Nat} (hRN : R ≤ N) (d : ScatterDims ⟨2, ![N, C]⟩ ⟨1, ![1]⟩ ⟨2, ![R, C]⟩)
    (huw : d.updateWindowDims = [0, 1]) (hiw : d.insertedWindowDims = []) (hsd : d.scatterDimsToOperandDims = [0])
    (idx : IVec ⟨1, ![1]⟩ w) (hidx : (idx (ix1 (0 : Fin 1))).toInt = 0) (j : (⟨2, ![R, C]⟩ : Shape).Idx) :
    d.resultIdx? j idx = some (ix2 ⟨(j 0).val, by have := idx2_lt0 j; omega⟩ (j 1)) := by
  -- the scatter indices have one element
  have hone : ∀ q : (⟨1, ![1]⟩ : Shape).Idx, q = ix1 (0 : Fin 1) := fun q => by
    funext b
    match b with
    | ⟨0, hb⟩ =>
      have h1 : (q ⟨0, hb⟩).val < 1 := (q ⟨0, hb⟩).isLt
      exact Fin.ext (by show (q ⟨0, hb⟩).val = 0; omega)
  have hstart : ∀ a : Fin 2, d.start j idx a = 0 := fun a => by
    unfold ScatterDims.start
    split
    · rw [hone (d.siIdx j _), hidx]
    · rfl
  have hsk : d.sKept = [0, 1] := by
    show Shape.kept _ d.insertedWindowDims = [0, 1]
    rw [hiw]; rfl
  have hwin : ∀ a : Fin 2, d.window j a = (j a).val := fun a => by
    have ha : a ∈ d.sKept := by rw [hsk]; match a with | ⟨0, _⟩ => simp | ⟨1, _⟩ => simp
    unfold ScatterDims.window
    rw [dif_pos ha]
    exact idx_val_congr j _ a (getElem_of_eq_pair _ huw _ _ a (idxOf_of_eq_pair _ hsk a))
  have hlt : ∀ a : Fin 2, (j a).val < (⟨2, ![N, C]⟩ : Shape).size a := fun a => by
    match a with
    | ⟨0, _⟩ => have := idx2_lt0 j; show (j 0).val < N; omega
    | ⟨1, _⟩ => exact idx2_lt1 j
  unfold ScatterDims.resultIdx?
  rw [dif_pos (fun a => by rw [hstart a, hwin a]; have := hlt a; constructor <;> omega)]
  congr 1
  funext a
  apply Fin.ext
  match a with
  | ⟨0, _⟩ => show (d.start j idx 0 + (d.window j 0 : Int)).toNat = (j 0).val; rw [hstart 0, hwin 0]; omega
  | ⟨1, _⟩ => show (d.start j idx 1 + (d.window j 1 : Int)).toNat = (j 1).val; rw [hstart 1, hwin 1]; omega

/-- A block of `R` rows written at the start index zero (`x.at[:R].set(u)`): the block on the first `R` rows, the operand below. -/
theorem scatter_block_zero_apply {α : Type} {N R C w : Nat} (hRN : R ≤ N) (d : ScatterDims ⟨2, ![N, C]⟩ ⟨1, ![1]⟩ ⟨2, ![R, C]⟩)
    (huw : d.updateWindowDims = [0, 1]) (hiw : d.insertedWindowDims = []) (hsd : d.scatterDimsToOperandDims = [0])
    (hivd : d.indexVectorDim = 0)
    (x : (⟨2, ![N, C]⟩ : Shape).Idx → α) (idx : IVec ⟨1, ![1]⟩ w) (hidx : (idx (ix1 (0 : Fin 1))).toInt = 0)
    (u : (⟨2, ![R, C]⟩ : Shape).Idx → α) (i : Fin N) (k : Fin C) :
    Host.scatter d (fun _ b => b) x idx u (ix2 i k) = if h : i.val < R then u (ix2 ⟨i.val, h⟩ k) else x (ix2 i k) :=  by
  have hres := block_resultIdx hRN d huw hiw hsd idx hidx
  by_cases h : i.val < R
  · -- a row of the block: update (i, k) lands here, and no other does
    rw [dif_pos h]
    refine scatter_set_apply_of_unique d x idx u (ix2 i k) (ix2 ⟨i.val, h⟩ k) ?_ ?_
    · rw [hres]; rfl
    · intro j' hj'
      rw [hres] at hj'
      have he := Option.some.inj hj'
      have h0 : (j' 0).val = i.val := congrArg Fin.val (congrFun he 0)
      have h1 : j' 1 = k := congrFun he 1
      rw [eq_ix2 j']
      congr 1
      · exact Fin.ext h0
  · -- a row below the block: every update lands on a row of the block
    rw [dif_neg h]
    refine scatter_set_apply_of_none d x idx u (ix2 i k) ?_
    intro j hj
    rw [hres] at hj
    have h0 : (j 0).val = i.val := congrArg Fin.val (congrFun (Option.some.inj hj) 0)
    have := idx2_lt0 j
    omega

end Cert.LibIndexed

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KI.HostRead.lean ====
/-
  What the kernel program's host code hands its two matrix-product regions, and what it returns, entry by entry at the
  extended reals: the dense adjacency (the edges' norms summed at (destination, source)), the padded features times
  the first weight matrix, the biases as rows, the first region's result times the second weight matrix, and the
  second region's result cut back to the real nodes.
-/
import proofs.«424546_j8289286881626_1_alg».proof.Proof.Gen.KernelIdeal.Launch
import proofs.«424546_j8289286881626_1_alg».proof.Proof.Gen.KernelIdeal.Skeleton
import proofs.«424546_j8289286881626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424546_j8289286881626_1_alg».proof.Proof.Gen.KernelIdeal.Regions
import proofs.«424546_j8289286881626_1_alg».proof.Proof.Chain
import proofs.«424546_j8289286881626_1_alg».proof.Proof.LibScatterAdd
import proofs.«424546_j8289286881626_1_alg».proof.Proof.LibGatherBlock
import proofs.«424546_j8289286881626_1_alg».proof.Proof.LibPlainDot

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnMath

variable (m : (ℓ : Loc nD τ sig) → Buf (Elt Ideal) ℓ) (c : Dev nD)

/-- The arguments as the launch memory holds them. -/
abbrev argX : (⟨S10000x128, .f32⟩ : BufTy).Contents (Elt Ideal) := m ((c : Thread nD τ).loc main_arg0)
abbrev argEi : (⟨S2x640000, .i32⟩ : BufTy).Contents (Elt Ideal) := m ((c : Thread nD τ).loc main_arg1)
abbrev argEw : (⟨S640000, .f32⟩ : BufTy).Contents (Elt Ideal) := m ((c : Thread nD τ).loc main_arg2)
abbrev argW1 : (⟨S128x128, .f32⟩ : BufTy).Contents (Elt Ideal) := m ((c : Thread nD τ).loc main_arg3)
abbrev argB1 : (⟨S128, .f32⟩ : BufTy).Contents (Elt Ideal) := m ((c : Thread nD τ).loc main_arg4)
abbrev argW2 : (⟨S128x64, .f32⟩ : BufTy).Contents (Elt Ideal) := m ((c : Thread nD τ).loc main_arg5)
abbrev argB2 : (⟨S64, .f32⟩ : BufTy).Contents (Elt Ideal) := m ((c : Thread nD τ).loc main_arg6)

/-- The buffers region 0 is entered with, at their literal types. -/
abbrev aggAt : (⟨S10240x10240, .bf16⟩ : BufTy).Contents (Elt Ideal) := Gen.V3 m c main_v47
abbrev xpadAt : (⟨S10240x128, .f32⟩ : BufTy).Contents (Elt Ideal) := Gen.V3 m c main_v50
abbrev xw1At : (⟨S10240x128, .bf16⟩ : BufTy).Contents (Elt Ideal) := Gen.V3 m c main_v52
abbrev b1rowAt : (⟨S1x128, .f32⟩ : BufTy).Contents (Elt Ideal) := Gen.V3 m c main_v53

namespace HostAux

open Idealize.ShloMosaic.StableHlo (after)
open Idealize.ShloMosaic.StableHlo.Predicate (ixP)
open Cert.ReferenceIdeal.Read (val_main_v5 val_main_v6 val_main_v8 val_main_v13 val_main_v14 val_main_cst_2 val_main_v15 val_main_v31)

/-! ### What each stretch of host operations writes, from any contents `W` of the buffers before it

The first two stretches compute the edge list with self loops, the weights with a one per self loop and the inverse
square roots of the degrees: the same operations on the same arguments as the reference's first stages, so each buffer
is that stage's function of the arguments. -/

section Chain

variable (W : Valuation τ sig (Elt Ideal))

/-- The sources with self loops. -/
theorem h0_v5 : (after hostOps0 W main_v5 : S650000.Idx → BitVec 32) = val_main_v5 (F := Ideal) (W main_arg1) := by
  simp only [Gen.hostOps0]
  after_results_simp <;> rfl

/-- The destinations with self loops. -/
theorem h0_v6 : (after hostOps0 W main_v6 : S650000.Idx → BitVec 32) = val_main_v6 (F := Ideal) (W main_arg1) := by
  simp only [Gen.hostOps0]
  after_results_simp <;> rfl

/-- The weights, a one per self loop. -/
theorem h0_v8 : (after hostOps0 W main_v8 : S650000.Idx → EReal) = val_main_v8 (F := Ideal) (W main_arg2) := by
  simp only [Gen.hostOps0]
  after_results_simp <;> rfl

/-- Where the degree is positive. -/
theorem h0_v13 : (after hostOps0 W main_v13 : S10000.Idx → BitVec 1) = val_main_v13 (F := Ideal) (W main_arg1) (W main_arg2) := by
  simp only [Gen.hostOps0]
  after_results_simp <;> rfl

/-- The inverse square root of the degree. -/
theorem h0_v14 : (after hostOps0 W main_v14 : S10000.Idx → EReal) = val_main_v14 (F := Ideal) (W main_arg1) (W main_arg2) := by
  simp only [Gen.hostOps0]
  after_results_simp <;> rfl

/-- The zero the inverse square root is replaced by where the degree is not positive. -/
theorem h0_cst2 : (after hostOps0 W main_cst_2 : S_.Idx → EReal) = val_main_cst_2 (F := Ideal) := by
  simp only [Gen.hostOps0]
  after_results_simp <;> rfl

/-- The inverse square root of the degree where it is positive, zero elsewhere. -/
theorem h01_v15 : (after hostOps0_1 W main_v15 : S10000.Idx → EReal)
    = select (W main_v13) (W main_v14) (broadcastInDim S10000 ![] bcast_S_S10000 (id (W main_cst_2))) := by
  simp only [Gen.hostOps0_1]
  after_results_simp <;> rfl

end Chain

/-! The third stretch finishes the norms (again the reference's stage), builds the dense adjacency and the padded
features and takes the first dense map; the fourth takes the second dense map; the last cuts the result. -/

section Operands

variable (W : Valuation τ sig (Elt Ideal))

/-- An index vector with its negative entries moved up by `n` (the wrap-around of a negative index). -/
abbrev wrap (n : BitVec 32) (v : S650000.Idx → BitVec 32) : S650000.Idx → BitVec 32 :=
  select (cmpi .slt v (broadcastInDim S650000 ![] bcast_S_S650000 (constantI S_ 32 0#32)))
    (addi v (broadcastInDim S650000 ![] bcast_S_S650000 (constantI S_ 32 n))) v

/-- The norms: the reference's stage, once the buffers the stretch starts from hold the reference's earlier stages. -/
theorem h02_v31 (ei : (⟨Cert.ReferenceIdeal.S2x640000, .i32⟩ : BufTy).Contents (Elt Ideal))
    (ew : (⟨Cert.ReferenceIdeal.S640000, .f32⟩ : BufTy).Contents (Elt Ideal))
    (h5 : (W main_v5 : S650000.Idx → BitVec 32) = val_main_v5 (F := Ideal) ei)
    (h6 : (W main_v6 : S650000.Idx → BitVec 32) = val_main_v6 (F := Ideal) ei)
    (h8 : (W main_v8 : S650000.Idx → EReal) = val_main_v8 (F := Ideal) ew)
    (h15 : (W main_v15 : S10000.Idx → EReal) = val_main_v15 (F := Ideal) ei ew) :
    (after hostOps0_2 W main_v31 : S650000.Idx → EReal) = val_main_v31 (F := Ideal) ei ew := by
  simp only [Gen.hostOps0_2]
  after_results_simp
  rw [h5, h6, h8, h15]
  rfl

/-- The dense adjacency as the host code builds it from the destinations, the sources and the norms: the norms added
    into a zero matrix at the (wrapped) pairs (destination, source), then converted to the narrower float format. -/
def aggOf (dst src : S650000.Idx → BitVec 32) (u : S650000.Idx → EReal) : S10240x10240.Idx → EReal :=
  truncf (F := Ideal) .bf16 (Host.scatterAdd (F := Ideal) (φ := .f32) scatter_S10240x10240_S650000x2_S650000_n_01_01_1
    (broadcastInDim S10240x10240 ![] bcast_S_S10240x10240 (constant (F := Ideal) S_ .f32 0x00000000#32))
    (concatenate S650000x2 1 [⟨S650000x1, broadcastInDim S650000x1 ![0] bcast_S650000_S650000x1_0 (wrap 10240#32 dst)⟩,
      ⟨S650000x1, broadcastInDim S650000x1 ![0] bcast_S650000_S650000x1_0 (wrap 10240#32 src)⟩]
      concatenates_S650000x1_S650000x1_S650000x2_d1)
    u) bitsLt_bf16_f32

/-- The adjacency buffer. -/
theorem h02_v47 : (after hostOps0_2 W main_v47 : S10240x10240.Idx → EReal)
    = aggOf (W main_v6) (W main_v5) (after hostOps0_2 W main_v31) := by
  simp only [Gen.hostOps0_2]
  after_results_simp <;> rfl

/-- The padded features: the features written as one block at row zero of a zero matrix. -/
theorem h02_v50 : (after hostOps0_2 W main_v50 : S10240x128.Idx → EReal)
    = Host.scatter scatter_S10240x128_S1_S10000x128_01_n_0_0 (fun _ b => b)
        (broadcastInDim S10240x128 ![] bcast_S_S10240x128 (constant (F := Ideal) S_ .f32 0x00000000#32))
        (broadcastInDim S1 ![] bcast_S_S1 (constantI S_ 32 0#32)) (W main_arg0) := by
  simp only [Gen.hostOps0_2]
  after_results_simp <;> rfl

/-- The first dense map, of the padded features. -/
theorem h02_v52 : (after hostOps0_2 W main_v52 : S10240x128.Idx → EReal)
    = truncf (F := Ideal) .bf16 (Host.dotGeneral (F := Ideal) (φ₁ := .f32) (φ₂ := .f32) dot_S10240x128_S128x128_S10240x128_1_0_0_1_n_n none
        (after hostOps0_2 W main_v50) (W main_arg3)) bitsLt_bf16_f32 := by
  simp only [Gen.hostOps0_2]
  after_results_simp <;> rfl

/-- The first bias as a row. -/
theorem h02_v53 : (after hostOps0_2 W main_v53 : S1x128.Idx → EReal) = shapeCast S1x128 (W main_arg4) shapeCasts_S128_S1x128 := by
  simp only [Gen.hostOps0_2]
  after_results_simp <;> rfl

/-- The second dense map, of the first region's result. -/
theorem h1_v56 : (after hostOps1 W main_v56 : S10240x64.Idx → EReal)
    = truncf (F := Ideal) .bf16 (Host.dotGeneral (F := Ideal) (φ₁ := .f32) (φ₂ := .f32) dot_S10240x128_S128x64_S10240x64_1_0_0_1_n_n none
        (W main_v54) (W main_arg5)) bitsLt_bf16_f32 := by
  simp only [Gen.hostOps1]
  after_results_simp <;> rfl

/-- The second bias as a row. -/
theorem h1_v57 : (after hostOps1 W main_v57 : S1x64.Idx → EReal) = shapeCast S1x64 (W main_arg6) shapeCasts_S64_S1x64 := by
  simp only [Gen.hostOps1]
  after_results_simp <;> rfl

/-- The result: the second region's result cut to the real nodes. -/
theorem h2_v59 : (after hostOps2 W main_v59 : S10000x64.Idx → EReal)
    = extractStridedSlice S10000x64 ![0, 0] (W main_v58) slices_S10240x64_S10000x64_0_0 := by
  simp only [Gen.hostOps2]
  after_results_simp <;> rfl

end Operands

/-! ### Reading the adjacency at an entry -/

/-- A wrap-around leaves a nonnegative entry as it is. -/
theorem wrap_apply (n : BitVec 32) (v : S650000.Idx → BitVec 32) (i : S650000.Idx) (h : 0 ≤ (v i).toInt) : wrap n v i = v i := by
  show Scalar.select (IntOp.cmpi .slt (v i) 0#32) (IntOp.addi (v i) n) (v i) = v i
  have hc : IntOp.cmpi .slt (v i) 0#32 = 0#1 := eq_zero_of_ne_one fun h1 => by
    have h2 := IntOp.cmpi_slt.mp h1
    have h0 : (0#32 : BitVec 32).toInt = 0 := by decide
    omega
  rw [hc, select_zero]

/-- A vector kept as a column, read at a row. -/
theorem col_apply (v : S650000.Idx → BitVec 32) (e : Fin 650000) :
    broadcastInDim S650000x1 ![0] bcast_S650000_S650000x1_0 v (ixP e) = v (ix1 e) :=
  broadcastInDim_apply ![0] bcast_S650000_S650000x1_0 v (ixP e) (ix1 e) (fun a => match a with
    | ⟨0, _⟩ => by show e.val = if (650000 : Nat) = 1 then 0 else e.val; rw [if_neg (by decide)])

/-- Two columns side by side, read in the first. -/
theorem pair_left (A B : S650000x1.Idx → BitVec 32) (e : Fin 650000) :
    concatenate S650000x2 1 [⟨S650000x1, A⟩, ⟨S650000x1, B⟩] concatenates_S650000x1_S650000x1_S650000x2_d1 (ix2 e (0 : Fin 2)) = A (ixP e) :=
  concatenate_pair_apply_left (1 : Fin 2) A B concatenates_S650000x1_S650000x1_S650000x2_d1 (ix2 e (0 : Fin 2)) rfl (ixP e)
    (fun b => match b with | ⟨0, _⟩ => rfl | ⟨1, _⟩ => rfl)

/-- Two columns side by side, read in the second. -/
theorem pair_right (A B : S650000x1.Idx → BitVec 32) (e : Fin 650000) :
    concatenate S650000x2 1 [⟨S650000x1, A⟩, ⟨S650000x1, B⟩] concatenates_S650000x1_S650000x1_S650000x2_d1 (ix2 e (1 : Fin 2)) = B (ixP e) :=
  concatenate_pair_apply_right (1 : Fin 2) A B concatenates_S650000x1_S650000x1_S650000x2_d1 (ix2 e (1 : Fin 2)) rfl rfl (ixP e)
    (fun b => match b with | ⟨0, _⟩ => fun _ => rfl | ⟨1, _⟩ => fun h => absurd rfl h) rfl

/-- The adjacency the host code builds, at an entry: the norms of the edges from `s` to `d`, summed from zero. -/
theorem aggOf_apply (dst src : S650000.Idx → BitVec 32) (u : S650000.Idx → EReal)
    (hd : ∀ e : Fin 650000, 0 ≤ (dst (ix1 e)).toInt) (hs : ∀ e : Fin 650000, 0 ≤ (src (ix1 e)).toInt) (d s : Fin 10240) :
    aggOf dst src u (ix2 d s)
      = adj (fun e => (src (ix1 e)).toInt) (fun e => (dst (ix1 e)).toInt) (fun e => u (ix1 e)) d s := by
  have h := Cert.LibIndexed.scatterAdd_points_apply scatter_S10240x10240_S650000x2_S650000_n_01_01_1 rfl rfl rfl rfl
    (broadcastInDim S10240x10240 ![] bcast_S_S10240x10240 (constant (F := Ideal) S_ .f32 0x00000000#32))
    (concatenate S650000x2 1 [⟨S650000x1, broadcastInDim S650000x1 ![0] bcast_S650000_S650000x1_0 (wrap 10240#32 dst)⟩,
      ⟨S650000x1, broadcastInDim S650000x1 ![0] bcast_S650000_S650000x1_0 (wrap 10240#32 src)⟩]
      concatenates_S650000x1_S650000x1_S650000x2_d1) u d s
  have h0 : (broadcastInDim S10240x10240 ![] bcast_S_S10240x10240 (constant (F := Ideal) S_ .f32 0x00000000#32) : S10240x10240.Idx → EReal) (ix2 d s) = 0 :=
    Ideal.ofBits_zero_f32
  have hsum : ∀ e : Fin 650000,
      (if ((concatenate S650000x2 1 [⟨S650000x1, broadcastInDim S650000x1 ![0] bcast_S650000_S650000x1_0 (wrap 10240#32 dst)⟩,
          ⟨S650000x1, broadcastInDim S650000x1 ![0] bcast_S650000_S650000x1_0 (wrap 10240#32 src)⟩]
          concatenates_S650000x1_S650000x1_S650000x2_d1) (ix2 e (0 : Fin 2))).toInt = (d.val : Int)
        ∧ ((concatenate S650000x2 1 [⟨S650000x1, broadcastInDim S650000x1 ![0] bcast_S650000_S650000x1_0 (wrap 10240#32 dst)⟩,
          ⟨S650000x1, broadcastInDim S650000x1 ![0] bcast_S650000_S650000x1_0 (wrap 10240#32 src)⟩]
          concatenates_S650000x1_S650000x1_S650000x2_d1) (ix2 e (1 : Fin 2))).toInt = (s.val : Int) then u (ix1 e) else 0)
      = (if (dst (ix1 e)).toInt = (d.val : Int) ∧ (src (ix1 e)).toInt = (s.val : Int) then u (ix1 e) else 0) := fun e => by
    rw [pair_left, pair_right, col_apply, col_apply, wrap_apply _ _ _ (hd e), wrap_apply _ _ _ (hs e)]
  rw [h0, Finset.sum_congr rfl fun e _ => hsum e] at h
  rw [aggOf, truncf_apply, Host.scatterAdd, Ideal.hostScatterAdd_def, h]
  rfl

/-! ### The buffers the regions read, as the valuations between the items hold them -/

section Values

variable (m : (ℓ : Loc nD τ sig) → Buf (Elt Ideal) ℓ) (c : Dev nD)

/-- An argument buffer is as launched up to the first region. -/
theorem V2_arg (r : Ref sig .tc) (h1 : r ∉ Gen.hostOps0_1_W) (h0 : r ∉ Gen.hostOps0_W) : Gen.V2 m c r = Gen.V0 m c r :=
  (Gen.V2_of m c r h1).trans (Gen.V1_of m c r h0)

/-- The chain's stages, as the buffers hold them when the third stretch starts. -/
theorem V2_v5 : (Gen.V2 m c main_v5 : S650000.Idx → BitVec 32) = val_main_v5 (F := Ideal) (argEi m c) :=
  (Gen.V2_of m c main_v5 (by decide)).trans (h0_v5 (Gen.V0 m c))

theorem V2_v6 : (Gen.V2 m c main_v6 : S650000.Idx → BitVec 32) = val_main_v6 (F := Ideal) (argEi m c) :=
  (Gen.V2_of m c main_v6 (by decide)).trans (h0_v6 (Gen.V0 m c))

theorem V2_v8 : (Gen.V2 m c main_v8 : S650000.Idx → EReal) = val_main_v8 (F := Ideal) (argEw m c) :=
  (Gen.V2_of m c main_v8 (by decide)).trans (h0_v8 (Gen.V0 m c))

theorem V2_v15 : (Gen.V2 m c main_v15 : S10000.Idx → EReal) = val_main_v15 (F := Ideal) (argEi m c) (argEw m c) := by
  have h := h01_v15 (after hostOps0 (Gen.V0 m c))
  rw [h0_v13, h0_v14, h0_cst2] at h
  exact h

/-- The norms, when the first region is entered. -/
theorem V3_v31 : (after hostOps0_2 (Gen.V2 m c) main_v31 : S650000.Idx → EReal) = val_main_v31 (F := Ideal) (argEi m c) (argEw m c) :=
  h02_v31 (Gen.V2 m c) (argEi m c) (argEw m c) (V2_v5 m c) (V2_v6 m c) (V2_v8 m c) (V2_v15 m c)

/-- The adjacency, when the first region is entered, over the reference's stages. -/
theorem V3_v47 : (Gen.V3 m c main_v47 : S10240x10240.Idx → EReal)
    = aggOf (val_main_v6 (F := Ideal) (argEi m c)) (val_main_v5 (F := Ideal) (argEi m c)) (val_main_v31 (F := Ideal) (argEi m c) (argEw m c)) := by
  have h := h02_v47 (Gen.V2 m c)
  rw [V3_v31, V2_v5, V2_v6] at h
  exact h

theorem V3_v50 : (Gen.V3 m c main_v50 : S10240x128.Idx → EReal)
    = Host.scatter scatter_S10240x128_S1_S10000x128_01_n_0_0 (fun _ b => b)
        (broadcastInDim S10240x128 ![] bcast_S_S10240x128 (constant (F := Ideal) S_ .f32 0x00000000#32))
        (broadcastInDim S1 ![] bcast_S_S1 (constantI S_ 32 0#32)) (argX m c) := by
  have h := h02_v50 (Gen.V2 m c)
  rw [V2_arg m c main_arg0 (by decide) (by decide)] at h
  exact h

theorem V3_v52 : (Gen.V3 m c main_v52 : S10240x128.Idx → EReal)
    = truncf (F := Ideal) .bf16 (Host.dotGeneral (F := Ideal) (φ₁ := .f32) (φ₂ := .f32) dot_S10240x128_S128x128_S10240x128_1_0_0_1_n_n none
        (xpadAt m c) (argW1 m c)) bitsLt_bf16_f32 := by
  have h := h02_v52 (Gen.V2 m c)
  rw [V2_arg m c main_arg3 (by decide) (by decide)] at h
  exact h

theorem V3_v53 : (Gen.V3 m c main_v53 : S1x128.Idx → EReal) = shapeCast S1x128 (argB1 m c) shapeCasts_S128_S1x128 := by
  have h := h02_v53 (Gen.V2 m c)
  rw [V2_arg m c main_arg4 (by decide) (by decide)] at h
  exact h

variable (outs : Gen.Outs (F := Ideal))

/-- An argument buffer is as launched up to the second region. -/
theorem V4_arg (r : Ref sig .tc) (h4 : r ∉ ([main_v54] : List (Ref sig .tc))) (h3 : r ∉ Gen.hostOps0_2_W) (h1 : r ∉ Gen.hostOps0_1_W)
    (h0 : r ∉ Gen.hostOps0_W) : Gen.V4 m outs c r = Gen.V0 m c r :=
  (Gen.V4_of m outs c r h4).trans ((Gen.V3_of m c r h3).trans (V2_arg m c r h1 h0))

/-- After the first region its result buffer holds what the region left. -/
theorem V4_v54 : (Gen.V4 m outs c main_v54 : S10240x128.Idx → EReal) = outs 4 main_v54 c :=
  Function.update_self _ _ _

theorem V5_v56 : (Gen.V5 m outs c main_v56 : S10240x64.Idx → EReal)
    = truncf (F := Ideal) .bf16 (Host.dotGeneral (F := Ideal) (φ₁ := .f32) (φ₂ := .f32) dot_S10240x128_S128x64_S10240x64_1_0_0_1_n_n none
        (outs 4 main_v54 c) (argW2 m c)) bitsLt_bf16_f32 := by
  have h := h1_v56 (Gen.V4 m outs c)
  rw [V4_v54, V4_arg m c outs main_arg5 (by decide) (by decide) (by decide) (by decide)] at h
  exact h

theorem V5_v57 : (Gen.V5 m outs c main_v57 : S1x64.Idx → EReal) = shapeCast S1x64 (argB2 m c) shapeCasts_S64_S1x64 := by
  have h := h1_v57 (Gen.V4 m outs c)
  rw [V4_arg m c outs main_arg6 (by decide) (by decide) (by decide) (by decide)] at h
  exact h

/-- After the second region its result buffer holds what the region left. -/
theorem V6_v58 : (Gen.V6 m outs c main_v58 : S10240x64.Idx → EReal) = outs 6 main_v58 c :=
  Function.update_self _ _ _

theorem V7_v59 : (Gen.V7 m outs c main_v59 : S10000x64.Idx → EReal)
    = extractStridedSlice S10000x64 ![0, 0] (outs 6 main_v58 c) slices_S10240x64_S10000x64_0_0 := by
  have h := h2_v59 (Gen.V6 m outs c)
  rw [V6_v58] at h
  exact h

end Values

end HostAux

open HostAux

theorem agg_apply (hei : ∀ i, 0 ≤ (argEi m c i).toInt ∧ (argEi m c i).toInt < 10000) (d s : Fin 10240) :
    aggAt m c (ix2 d s) = adj (Cert.Chain.srcZ (argEi m c)) (Cert.Chain.dstZ (argEi m c)) (Cert.Chain.nrm (argEi m c) (argEw m c)) d s := by
  show (Gen.V3 m c main_v47 : S10240x10240.Idx → EReal) (ix2 d s) = _
  rw [V3_v47]
  exact aggOf_apply _ _ _ (fun e => (Cert.Chain.dstZ_range (argEi m c) hei e).1) (fun e => (Cert.Chain.srcZ_range (argEi m c) hei e).1) d s
theorem xpad_apply (s : Fin 10240) (h : s.val < 10000) (j : Fin 128) : xpadAt m c (ix2 s j) = argX m c (ix2 ⟨s.val, h⟩ j) := by
  show (Gen.V3 m c main_v50 : S10240x128.Idx → EReal) (ix2 s j) = _
  rw [V3_v50, Cert.LibIndexed.scatter_block_zero_apply (by decide : 10000 ≤ 10240) _ rfl rfl rfl rfl _ _ (by decide) _ s j, dif_pos h]
theorem xw1_apply (s : Fin 10240) (k : Fin 128) :
    xw1At m c (ix2 s k) = dense (fun s j => xpadAt m c (ix2 s j)) (fun j k => argW1 m c (ix2 j k)) s k := by
  show (Gen.V3 m c main_v52 : S10240x128.Idx → EReal) (ix2 s k) = _
  rw [V3_v52, truncf_apply]
  exact PlainDot.dotGeneral_apply _ ⟨rfl, rfl, rfl, rfl, rfl, rfl⟩ none .single (φ₁ := .f32) (φ₂ := .f32) (xpadAt m c) (argW1 m c) s k
theorem b1row_apply (k : Fin 128) : b1rowAt m c (ix2 (0 : Fin 1) k) = argB1 m c (ix1 k) := by
  show (Gen.V3 m c main_v53 : S1x128.Idx → EReal) (ix2 (0 : Fin 1) k) = _
  rw [V3_v53]
  exact shapeCast_apply _ shapeCasts_S128_S1x128 (ix2 (0 : Fin 1) k) (ix1 k)
    (by rewrite [Shape.rowMajor_val_two, Shape.rowMajor_val_one]; show k.val = 0 * 128 + k.val; omega)

variable (outs : Gen.Outs (F := Ideal))

/-- The buffers region 1 is entered with. -/
abbrev agg1At : (⟨S10240x10240, .bf16⟩ : BufTy).Contents (Elt Ideal) := Gen.V5 m outs c main_v47
abbrev h1At : (⟨S10240x128, .f32⟩ : BufTy).Contents (Elt Ideal) := outs 4 main_v54 c
abbrev xw2At : (⟨S10240x64, .bf16⟩ : BufTy).Contents (Elt Ideal) := Gen.V5 m outs c main_v56
abbrev b2rowAt : (⟨S1x64, .f32⟩ : BufTy).Contents (Elt Ideal) := Gen.V5 m outs c main_v57

/-- Region 1 reads the adjacency region 0 read. -/
theorem agg1_eq : agg1At m c outs = aggAt m c :=
  (Gen.V5_of m outs c main_v47 (by decide)).trans (Gen.V4_of m outs c main_v47 (by decide))
theorem xw2_apply (s : Fin 10240) (k : Fin 64) :
    xw2At m c outs (ix2 s k) = dense (fun s j => h1At c outs (ix2 s j)) (fun j k => argW2 m c (ix2 j k)) s k := by
  show (Gen.V5 m outs c main_v56 : S10240x64.Idx → EReal) (ix2 s k) = _
  rw [V5_v56, truncf_apply]
  exact PlainDot.dotGeneral_apply _ ⟨rfl, rfl, rfl, rfl, rfl, rfl⟩ none .single (φ₁ := .f32) (φ₂ := .f32) (h1At c outs) (argW2 m c) s k
theorem b2row_apply (k : Fin 64) : b2rowAt m c outs (ix2 (0 : Fin 1) k) = argB2 m c (ix1 k) := by
  show (Gen.V5 m outs c main_v57 : S1x64.Idx → EReal) (ix2 (0 : Fin 1) k) = _
  rw [V5_v57]
  exact shapeCast_apply _ shapeCasts_S64_S1x64 (ix2 (0 : Fin 1) k) (ix1 k)
    (by rewrite [Shape.rowMajor_val_two, Shape.rowMajor_val_one]; show k.val = 0 * 64 + k.val; omega)

/-- The program's result: the second region's result on the real nodes. -/
abbrev resultAt : (⟨S10000x64, .f32⟩ : BufTy).Contents (Elt Ideal) := Gen.V7 m outs c main_v59
abbrev out2At : (⟨S10240x64, .f32⟩ : BufTy).Contents (Elt Ideal) := outs 6 main_v58 c
theorem result_apply (d : Fin 10000) (k : Fin 64) :
    resultAt m c outs (ix2 d k) = out2At c outs (ix2 ⟨d.val, by omega⟩ k) := by
  show (Gen.V7 m outs c main_v59 : S10000x64.Idx → EReal) (ix2 d k) = _
  rw [V7_v59]
  exact extractStridedSlice_apply ![0, 0] _ slices_S10240x64_S10000x64_0_0 (ix2 d k) (ix2 ⟨d.val, by omega⟩ k) (fun a => match a with
    | ⟨0, _⟩ => by show d.val = 0 + d.val; omega
    | ⟨1, _⟩ => by show k.val = 0 + k.val; omega)

end Cert.KernelIdeal.Hand

end
-- ==== Proof.KI.Value.lean ====
/-
  What the two matrix-product regions leave in their result arrays, entry by entry at the extended reals.

  Each region walks a 5 x 5 grid of points (i, k): point (i, k) adds the product of block (i, k) of the adjacency and
  block k of the features to an accumulator that point (i, 0) first clears, and point (i, 4) writes the accumulator
  plus the bias row (through the rectifier, in the first region) to block i of the result. The accumulator after
  point (i, k) is therefore the sum over the first k + 1 column blocks, and row block i of the result is the whole row
  sum: entry (d, c) is `Σ_s A[d, s] · Y[s, c] + b[c]` over all 10240 columns s (a sum over 5 blocks of 2048), cut off
  below at zero in the first region. The five row blocks tile the result array.
-/
import proofs.«424546_j8289286881626_1_alg».proof.Proof.Gen.KernelIdeal.Launch
import proofs.«424546_j8289286881626_1_alg».proof.Proof.Gen.KernelIdeal.Skeleton
import proofs.«424546_j8289286881626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424546_j8289286881626_1_alg».proof.Proof.KI.Region0
import proofs.«424546_j8289286881626_1_alg».proof.Proof.KI.Region1
import proofs.«424546_j8289286881626_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b)) (c : Dev nD)

namespace ValueAux

/-! ### Sums over blocks of columns -/

/-- A sum over `m` consecutive blocks of `n` terms is the sum over all `m * n` terms. -/
theorem sum_blocks {β : Type*} [AddCommMonoid β] (f : ℕ → β) (n : ℕ) :
    ∀ m : ℕ, (∑ j ∈ Finset.range m, ∑ s ∈ Finset.range n, f (n * j + s)) = ∑ x ∈ Finset.range (m * n), f x
  | 0 => by simp
  | m + 1 => by
    rw [Finset.sum_range_succ, sum_blocks f n m, Nat.succ_mul, Finset.sum_range_add]
    congr 1
    exact Finset.sum_congr rfl (fun s _ => by rw [Nat.mul_comm])

/-! ### The payloads at an entry -/

/-- The cleared accumulator is zero everywhere. -/
theorem pay1_0_apply (r : Fin 2048) (q : Fin 128) : k0_pay1 (F := Ideal) (ix2 r q) = 0 := by
  unfold k0_pay1
  rw [shapeCast_self]
  exact Ideal.ofBits_zero_f32

/-- A point's update of the accumulator: the old entry plus row `r` of the adjacency block times column `q` of the
    feature block. -/
theorem pay2_0_apply (acc : Vec Ideal S2048x128 .f32) (a : Vec Ideal S2048x2048 .bf16) (x : Vec Ideal S2048x128 .bf16)
    (r : Fin 2048) (q : Fin 128) :
    k0_pay2 acc a x (ix2 r q) = acc (ix2 r q) + ∑ s : Fin 2048, a (ix2 r s) * x (ix2 s q) := by
  unfold k0_pay2
  rw [shapeCast_self, shapeCast_self, shapeCast_self]
  refine (addf_apply _ _ _).trans ?_
  refine congrArg (acc (ix2 r q) + ·) ?_
  exact PlainDot.matmul_zero_apply dot_S2048x2048_S2048x128_S2048x128_1_0_0_1_n_n ⟨rfl, rfl, rfl, rfl, rfl, rfl⟩ none a x r q

/-- The write-out: the accumulator entry plus the bias of its column, cut off below at zero. -/
theorem pay3_0_apply (acc : Vec Ideal S2048x128 .f32) (b : Vec Ideal S1x128 .f32) (r : Fin 2048) (q : Fin 128) :
    k0_pay3 acc b (ix2 r q) = max (acc (ix2 r q) + b (ix2 (0 : Fin 1) q)) 0 := by
  unfold k0_pay3
  rw [shapeCast_self]
  refine (maximumf_apply _ _ _).trans ?_
  refine congrArg₂ max ?_ Ideal.ofBits_zero_f32
  refine (addf_apply _ _ _).trans ?_
  refine congrArg (acc (ix2 r q) + ·) ?_
  refine broadcastTo_apply b broadcasts_S1x128_S2048x128 (ix2 r q) (ix2 (0 : Fin 1) q) (fun a => ?_)
  match a with
  | ⟨0, _⟩ => rfl
  | ⟨1, _⟩ => rfl

/-! ### The second region's payloads at an entry -/

/-- The cleared accumulator is zero everywhere. -/
theorem pay1_1_apply (r : Fin 2048) (q : Fin 64) : k1_pay1 (F := Ideal) (ix2 r q) = 0 := by
  unfold k1_pay1
  rw [shapeCast_self]
  exact Ideal.ofBits_zero_f32

/-- A point's update of the accumulator: the old entry plus row `r` of the adjacency block times column `q` of the
    feature block. -/
theorem pay2_1_apply (acc : Vec Ideal S2048x64 .f32) (a : Vec Ideal S2048x2048 .bf16) (x : Vec Ideal S2048x64 .bf16)
    (r : Fin 2048) (q : Fin 64) :
    k1_pay2 acc a x (ix2 r q) = acc (ix2 r q) + ∑ s : Fin 2048, a (ix2 r s) * x (ix2 s q) := by
  unfold k1_pay2
  rw [shapeCast_self, shapeCast_self, shapeCast_self]
  refine (addf_apply _ _ _).trans ?_
  refine congrArg (acc (ix2 r q) + ·) ?_
  exact PlainDot.matmul_zero_apply dot_S2048x2048_S2048x64_S2048x64_1_0_0_1_n_n ⟨rfl, rfl, rfl, rfl, rfl, rfl⟩ none a x r q

/-- The second region's write-out: the accumulator entry plus the bias of its column. -/
theorem pay3_1_apply (acc : Vec Ideal S2048x64 .f32) (b : Vec Ideal S1x64 .f32) (r : Fin 2048) (q : Fin 64) :
    k1_pay3 acc b (ix2 r q) = acc (ix2 r q) + b (ix2 (0 : Fin 1) q) := by
  unfold k1_pay3
  rw [shapeCast_self]
  refine (addf_apply _ _ _).trans ?_
  refine congrArg (acc (ix2 r q) + ·) ?_
  refine broadcastTo_apply b broadcasts_S1x64_S2048x64 (ix2 r q) (ix2 (0 : Fin 1) q) (fun a => ?_)
  match a with
  | ⟨0, _⟩ => rfl
  | ⟨1, _⟩ => rfl

end ValueAux

open ValueAux

/-- Region 0's arrays, as it is entered, at their literal types; and its result array after the last point. -/
abbrev A0 : (⟨S10240x10240, .bf16⟩ : BufTy).Contents (Elt Ideal) := V c main_v47
abbrev Y0 : (⟨S10240x128, .bf16⟩ : BufTy).Contents (Elt Ideal) := V c main_v52
abbrev B0 : (⟨S1x128, .f32⟩ : BufTy).Contents (Elt Ideal) := V c main_v53
abbrev R0 : (⟨S10240x128, .f32⟩ : BufTy).Contents (Elt Ideal) := (dat0 (F := Ideal) V c).arrAt 3 cfg0.N

namespace ValueAux

/-! ### Region 0: the blocks a point reads, in the arrays -/

/-- The blocks point `t` reads, at their literal types: of the adjacency, of the features, of the bias row. -/
abbrev ablk0 (t : Fin cfg0.N) : Vec Ideal S2048x2048 .bf16 := iblk0 V c 0 t
abbrev yblk0 (t : Fin cfg0.N) : Vec Ideal S2048x128 .bf16 := iblk0 V c 1 t
abbrev bblk0 (t : Fin cfg0.N) : Vec Ideal S1x128 .f32 := iblk0 V c 2 t

/-- The index maps over the grid: point `t = 5 i + k` reads block `(i, k)` of the adjacency, row block `k` of the features,
    the whole bias row, and owns row block `i` of the result. -/
theorem idx0 : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = t.val / 5 ∧ win0_3.index t (1 : Fin 2) = 0 :=
  (by decide +kernel : ∀ t : Fin grid0.N, _)

theorem N0 : cfg0.N = 25 := rfl

/-- An entry of the adjacency block is the adjacency entry at the block's offsets. -/
theorem ablk0_apply (t : Fin cfg0.N) (r s : Fin 2048) (d s' : Fin 10240)
    (hd : d.val = 2048 * (t.val / 5) + r.val) (hs : s'.val = 2048 * (t.val % 5) + s.val) :
    ablk0 V c t (ix2 r s) = A0 V c (ix2 d s') := by
  obtain ⟨e0, e1, -⟩ := idx0 t
  show iblk0 V c 0 t (ix2 r s) = _
  unfold iblk0
  rw [View.read_apply]
  show V c main_v47 _ = V c main_v47 _
  congr 1
  funext a
  apply Fin.ext
  match a with
  | ⟨0, _⟩ => show win0_0.index t (0 : Fin 2) * 2048 + 1 * r.val = d.val; rw [e0, hd]; omega
  | ⟨1, _⟩ => show win0_0.index t (1 : Fin 2) * 2048 + 1 * s.val = s'.val; rw [e1, hs]; omega

/-- An entry of the feature block is the feature entry at the block's row offset. -/
theorem yblk0_apply (t : Fin cfg0.N) (s : Fin 2048) (q : Fin 128) (s' : Fin 10240)
    (hs : s'.val = 2048 * (t.val % 5) + s.val) :
    yblk0 V c t (ix2 s q) = Y0 V c (ix2 s' q) := by
  obtain ⟨-, -, e0, e1, -⟩ := idx0 t
  show iblk0 V c 1 t (ix2 s q) = _
  unfold iblk0
  rw [View.read_apply]
  show V c main_v52 _ = V c main_v52 _
  congr 1
  funext a
  apply Fin.ext
  match a with
  | ⟨0, _⟩ => show win0_1.index t (0 : Fin 2) * 2048 + 1 * s.val = s'.val; rw [e0, hs]; omega
  | ⟨1, _⟩ => show win0_1.index t (1 : Fin 2) * 128 + 1 * q.val = q.val; rw [e1]; omega

/-- The bias block is the bias row. -/
theorem bblk0_apply (t : Fin cfg0.N) (q : Fin 128) :
    bblk0 V c t (ix2 (0 : Fin 1) q) = B0 V c (ix2 (0 : Fin 1) q) := by
  obtain ⟨-, -, -, -, e0, e1, -⟩ := idx0 t
  show iblk0 V c 2 t (ix2 (0 : Fin 1) q) = _
  unfold iblk0
  rw [View.read_apply]
  show V c main_v53 _ = V c main_v53 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-! ### Region 0: the accumulator, point by point -/

/-- Row `d` of the adjacency against column `q` of the features: the term at every natural column index (zero past
    the array's end, where it is never read). -/
def term0 (d : Fin 10240) (q : Fin 128) (n : ℕ) : EReal :=
  if h : n < 10240 then A0 V c (ix2 d ⟨n, h⟩) * Y0 V c (ix2 ⟨n, h⟩ q) else 0

/-- What point `n` adds to the accumulator at an entry (zero past the grid, where it is never read). -/
def add0 (n : ℕ) (i : S2048x128.Idx) : EReal :=
  if h : n < cfg0.N then ∑ s : Fin 2048, ablk0 V c ⟨n, h⟩ (ix2 (i 0) s) * yblk0 V c ⟨n, h⟩ (ix2 s (i 1)) else 0

/-- The accumulator after point `t` is the fold over the points of its grid row up to `t`: cleared and updated at the
    row's first point, updated at each later one. -/
theorem scr0_eq_accAt (t : Fin cfg0.N) (h' : 5 * (t.val / 5) + t.val % 5 < cfg0.N) :
    (outsAt0 (F := Ideal) V c t.val t.isLt).2
      = Pipeline.accAt (N := cfg0.N)
          (fun n h => k0_pay2 (k0_pay1 (F := Ideal)) (iblk0 V c 0 ⟨n, h⟩) (iblk0 V c 1 ⟨n, h⟩))
          (fun n h acc => k0_pay2 acc (iblk0 V c 0 ⟨n, h⟩) (iblk0 V c 1 ⟨n, h⟩))
          (5 * (t.val / 5)) (t.val % 5) h' :=
  Pipeline.eq_accAt_of_mod (N := cfg0.N) (fun n h => (outsAt0 (F := Ideal) V c n h).2) 5
    (fun n h => k0_pay2 (k0_pay1 (F := Ideal)) (iblk0 V c 0 ⟨n, h⟩) (iblk0 V c 1 ⟨n, h⟩))
    (fun n h acc => k0_pay2 acc (iblk0 V c 0 ⟨n, h⟩) (iblk0 V c 1 ⟨n, h⟩))
    (fun n h hm => scr0_first V c ⟨n, h⟩ hm)
    (fun n h hm => scr0_next V c ⟨n + 1, h⟩ hm)
    (by decide) t.val t.isLt h'

/-- So at an entry it is zero plus what the points of the row up to `t` added. -/
theorem scr0_apply (t : Fin cfg0.N) (r : Fin 2048) (q : Fin 128) :
    (outsAt0 (F := Ideal) V c t.val t.isLt).2 (ix2 r q)
      = 0 + ∑ j ∈ Finset.range (t.val % 5 + 1), add0 V c (5 * (t.val / 5) + j) (ix2 r q) := by
  have hN : cfg0.N = 25 := N0
  have h' : 5 * (t.val / 5) + t.val % 5 < cfg0.N := by have := t.isLt; omega
  rw [scr0_eq_accAt V c t h']
  refine Pipeline.accAt_add_apply (N := cfg0.N)
    (fun n h => k0_pay2 (k0_pay1 (F := Ideal)) (iblk0 V c 0 ⟨n, h⟩) (iblk0 V c 1 ⟨n, h⟩))
    (fun n h acc => k0_pay2 acc (iblk0 V c 0 ⟨n, h⟩) (iblk0 V c 1 ⟨n, h⟩))
    (fun _ => (0 : EReal)) (add0 V c) (5 * (t.val / 5)) 4 ?_ ?_ (t.val % 5) (by omega) h' (ix2 r q)
  · intro h i
    obtain ⟨p, q', rfl⟩ : ∃ (p : Fin 2048) (q' : Fin 128), i = ix2 p q' := ⟨i 0, i 1, eq_ix2 i⟩
    refine (pay2_0_apply _ (ablk0 V c ⟨_, h⟩) (yblk0 V c ⟨_, h⟩) p q').trans ?_
    rw [pay1_0_apply]
    unfold add0
    rw [dif_pos h]
  · intro n h acc i _ _
    obtain ⟨p, q', rfl⟩ : ∃ (p : Fin 2048) (q' : Fin 128), i = ix2 p q' := ⟨i 0, i 1, eq_ix2 i⟩
    refine (pay2_0_apply acc (ablk0 V c ⟨n, h⟩) (yblk0 V c ⟨n, h⟩) p q').trans ?_
    unfold add0
    rw [dif_pos h]

/-- What point `5 i + j` adds at `(r, q)` is the part of row `2048 i + r`'s sum over column block `j`. -/
theorem add0_eq (i j : ℕ) (hi : i < 5) (hj : j < 5) (r : Fin 2048) (q : Fin 128) (d : Fin 10240)
    (hd : d.val = 2048 * i + r.val) :
    add0 V c (5 * i + j) (ix2 r q) = ∑ s ∈ Finset.range 2048, term0 V c d q (2048 * j + s) := by
  have hn : 5 * i + j < cfg0.N := by rw [N0]; omega
  unfold add0
  rw [dif_pos hn, Finset.sum_range]
  refine Finset.sum_congr rfl (fun s _ => ?_)
  have hs : 2048 * j + s.val < 10240 := by have := s.isLt; omega
  unfold term0
  rw [dif_pos hs]
  have hdiv : (5 * i + j) / 5 = i := by omega
  have hmod : (5 * i + j) % 5 = j := by omega
  rw [ablk0_apply V c ⟨5 * i + j, hn⟩ r s d ⟨2048 * j + s.val, hs⟩ (by show d.val = 2048 * ((5 * i + j) / 5) + r.val; rw [hdiv]; exact hd)
      (by show 2048 * j + s.val = 2048 * ((5 * i + j) % 5) + s.val; rw [hmod]),
    yblk0_apply V c ⟨5 * i + j, hn⟩ s q ⟨2048 * j + s.val, hs⟩ (by show 2048 * j + s.val = 2048 * ((5 * i + j) % 5) + s.val; rw [hmod])]

/-- An entry of the result: the whole row sum, plus the bias of the column, cut off below at zero. -/
def g0 (d : Fin 10240) (q : Fin 128) : EReal :=
  max ((∑ s : Fin 10240, A0 V c (ix2 d s) * Y0 V c (ix2 s q)) + B0 V c (ix2 (0 : Fin 1) q)) 0

/-- The block a row's last point writes out holds, at `(r, q)`, the result entry of row `2048 i + r`. -/
theorem out0_apply (t : Fin cfg0.N) (ht : t.val % 5 = 4) (r : Fin 2048) (q : Fin 128) (d : Fin 10240)
    (hd : d.val = 2048 * (t.val / 5) + r.val) :
    (outsAt0 (F := Ideal) V c t.val t.isLt).1 (ix2 r q) = g0 V c d q := by
  have hN : cfg0.N = 25 := N0
  have hi : t.val / 5 < 5 := by have := t.isLt; omega
  rw [out0_last V c t ht]
  refine (pay3_0_apply _ (bblk0 V c t) r q).trans ?_
  rw [scr0_apply V c t r q, bblk0_apply V c t q, ht, zero_add,
    Finset.sum_congr rfl (fun j hj => add0_eq V c (t.val / 5) j hi (Finset.mem_range.mp hj) r q d hd),
    sum_blocks (term0 V c d q) 2048 5, Finset.sum_range]
  unfold g0
  refine congrArg (fun x => max (x + B0 V c (ix2 (0 : Fin 1) q)) 0) ?_
  refine Finset.sum_congr rfl (fun s _ => ?_)
  unfold term0
  rw [dif_pos s.isLt]

/-! ### Region 0: from the blocks to the result array -/

/-- The result array the region leaves. -/
def G0 : (⟨S10240x128, .f32⟩ : BufTy).Contents (Elt Ideal) := fun i => g0 V c (i 0) (i 1)

/-- What a row's last point writes back is its block of that array. -/
theorem flushed0_eq (t : Fin cfg0.N) (hf : (cfg0.win 3).flush t = true) :
    (dat0 (F := Ideal) V c).flushed 3 t = ((cfg0.win 3).blk t).view.read (Elt Ideal) (G0 V c) := by
  have ht : t.val % 5 = 4 := (flush0_3 t).mp hf
  obtain ⟨-, -, -, -, -, -, e0, e1⟩ := idx0 t
  show (cfg0.win 3).cut (grid0.coords t) ((dat0 (F := Ideal) V c).after 3 t) = _
  rw [after0_3]
  funext y
  obtain ⟨r, q, rfl⟩ : ∃ (r : Fin 2048) (q : Fin 128), y = ix2 r q := ⟨y 0, y 1, eq_ix2 y⟩
  rw [View.read_apply]
  have key : ∀ (d : Fin 10240) (q2 : Fin 128), d.val = 2048 * (t.val / 5) + r.val → q2.val = q.val →
      (outsAt0 (F := Ideal) V c t.val t.isLt).1 (ix2 r q) = g0 V c d q2 := fun d q2 h1 h2 => by
    rw [show q2 = q from Fin.ext h2]
    exact out0_apply V c t ht r q d h1
  refine key _ _ ?_ ?_
  · show win0_3.index t (0 : Fin 2) * 2048 + 1 * r.val = _
    rw [e0]; omega
  · show win0_3.index t (1 : Fin 2) * 128 + 1 * q.val = _
    rw [e1]; omega

/-- An index of the result array is in point `t`'s block when each coordinate is in the block's range on its axis. -/
theorem mem_blk0 (t : Fin cfg0.N) (i : S10240x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v54).slice (win0_3.rect t)).set ↔ _
  rw [View.set_slice_whole, Rect.mem_set_unit]
  exact Iff.rfl

/-- The five row blocks tile the result array: row `d` is written by the last point of grid row `d / 2048`. -/
theorem cover0 (i : S10240x128.Idx) : ∃ t : Fin cfg0.N, (cfg0.win 3).flush t = true ∧ i ∈ ((cfg0.win 3).blk t).view.set := by
  have h0 : (i 0).val < 10240 := (i 0).isLt
  have h1 : (i 1).val < 128 := (i 1).isLt
  have hN : cfg0.N = 25 := N0
  let t : Fin cfg0.N := ⟨5 * ((i 0).val / 2048) + 4, by omega⟩
  have htv : t.val = 5 * ((i 0).val / 2048) + 4 := rfl
  obtain ⟨-, -, -, -, -, -, e0, e1⟩ := idx0 t
  refine ⟨t, (flush0_3 t).mpr (by omega), ?_⟩
  rw [mem_blk0]
  intro a
  match a with
  | ⟨0, _⟩ => show win0_3.index t (0 : Fin 2) * 2048 ≤ (i 0).val ∧ (i 0).val < win0_3.index t (0 : Fin 2) * 2048 + 2048; rw [e0]; omega
  | ⟨1, _⟩ => show win0_3.index t (1 : Fin 2) * 128 ≤ (i 1).val ∧ (i 1).val < win0_3.index t (1 : Fin 2) * 128 + 128; rw [e1]; omega

/-- So the result array ends holding it. -/
theorem final0 : (dat0 (F := Ideal) V c).arrAt 3 cfg0.N = G0 V c :=
  (dat0 (F := Ideal) V c).arrAt_eq_of_cover 3 (G0 V c) (flushed0_eq V c) (cover0)

end ValueAux

theorem arr0_apply (d : Fin 10240) (k : Fin 128) :
    R0 V c (ix2 d k) = max ((∑ s : Fin 10240, A0 V c (ix2 d s) * Y0 V c (ix2 s k)) + B0 V c (ix2 (0 : Fin 1) k)) 0 := by
  show (dat0 (F := Ideal) V c).arrAt 3 cfg0.N (ix2 d k) = _
  rw [final0 V c]
  rfl

/-- Region 1's. -/
abbrev A1 : (⟨S10240x10240, .bf16⟩ : BufTy).Contents (Elt Ideal) := V c main_v47
abbrev Y1 : (⟨S10240x64, .bf16⟩ : BufTy).Contents (Elt Ideal) := V c main_v56
abbrev B1 : (⟨S1x64, .f32⟩ : BufTy).Contents (Elt Ideal) := V c main_v57
abbrev R1 : (⟨S10240x64, .f32⟩ : BufTy).Contents (Elt Ideal) := (dat1 (F := Ideal) V c).arrAt 3 cfg1.N

namespace ValueAux

/-! ### Region 1: the blocks a point reads, in the arrays -/

/-- The blocks point `t` reads, at their literal types: of the adjacency, of the features, of the bias row. -/
abbrev ablk1 (t : Fin cfg1.N) : Vec Ideal S2048x2048 .bf16 := iblk1 V c 0 t
abbrev yblk1 (t : Fin cfg1.N) : Vec Ideal S2048x64 .bf16 := iblk1 V c 1 t
abbrev bblk1 (t : Fin cfg1.N) : Vec Ideal S1x64 .f32 := iblk1 V c 2 t

/-- The index maps over the grid: point `t = 5 i + k` reads block `(i, k)` of the adjacency, row block `k` of the features,
    the whole bias row, and owns row block `i` of the result. -/
theorem idx1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

theorem N1 : cfg1.N = 25 := rfl

/-- An entry of the adjacency block is the adjacency entry at the block's offsets. -/
theorem ablk1_apply (t : Fin cfg1.N) (r s : Fin 2048) (d s' : Fin 10240)
    (hd : d.val = 2048 * (t.val / 5) + r.val) (hs : s'.val = 2048 * (t.val % 5) + s.val) :
    ablk1 V c t (ix2 r s) = A1 V c (ix2 d s') := by
  obtain ⟨e0, e1, -⟩ := idx1 t
  show iblk1 V c 0 t (ix2 r s) = _
  unfold iblk1
  rw [View.read_apply]
  show V c main_v47 _ = V c main_v47 _
  congr 1
  funext a
  apply Fin.ext
  match a with
  | ⟨0, _⟩ => show win1_0.index t (0 : Fin 2) * 2048 + 1 * r.val = d.val; rw [e0, hd]; omega
  | ⟨1, _⟩ => show win1_0.index t (1 : Fin 2) * 2048 + 1 * s.val = s'.val; rw [e1, hs]; omega

/-- An entry of the feature block is the feature entry at the block's row offset. -/
theorem yblk1_apply (t : Fin cfg1.N) (s : Fin 2048) (q : Fin 64) (s' : Fin 10240)
    (hs : s'.val = 2048 * (t.val % 5) + s.val) :
    yblk1 V c t (ix2 s q) = Y1 V c (ix2 s' q) := by
  obtain ⟨-, -, e0, e1, -⟩ := idx1 t
  show iblk1 V c 1 t (ix2 s q) = _
  unfold iblk1
  rw [View.read_apply]
  show V c main_v56 _ = V c main_v56 _
  congr 1
  funext a
  apply Fin.ext
  match a with
  | ⟨0, _⟩ => show win1_1.index t (0 : Fin 2) * 2048 + 1 * s.val = s'.val; rw [e0, hs]; omega
  | ⟨1, _⟩ => show win1_1.index t (1 : Fin 2) * 64 + 1 * q.val = q.val; rw [e1]; omega

/-- The bias block is the bias row. -/
theorem bblk1_apply (t : Fin cfg1.N) (q : Fin 64) :
    bblk1 V c t (ix2 (0 : Fin 1) q) = B1 V c (ix2 (0 : Fin 1) q) := by
  obtain ⟨-, -, -, -, e0, e1, -⟩ := idx1 t
  show iblk1 V c 2 t (ix2 (0 : Fin 1) q) = _
  unfold iblk1
  rw [View.read_apply]
  show V c main_v57 _ = V c main_v57 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-! ### Region 1: the accumulator, point by point -/

/-- Row `d` of the adjacency against column `q` of the features: the term at every natural column index (zero past
    the array's end, where it is never read). -/
def term1 (d : Fin 10240) (q : Fin 64) (n : ℕ) : EReal :=
  if h : n < 10240 then A1 V c (ix2 d ⟨n, h⟩) * Y1 V c (ix2 ⟨n, h⟩ q) else 0

/-- What point `n` adds to the accumulator at an entry (zero past the grid, where it is never read). -/
def add1 (n : ℕ) (i : S2048x64.Idx) : EReal :=
  if h : n < cfg1.N then ∑ s : Fin 2048, ablk1 V c ⟨n, h⟩ (ix2 (i 0) s) * yblk1 V c ⟨n, h⟩ (ix2 s (i 1)) else 0

/-- The accumulator after point `t` is the fold over the points of its grid row up to `t`: cleared and updated at the
    row's first point, updated at each later one. -/
theorem scr1_eq_accAt (t : Fin cfg1.N) (h' : 5 * (t.val / 5) + t.val % 5 < cfg1.N) :
    (outsAt1 (F := Ideal) V c t.val t.isLt).2
      = Pipeline.accAt (N := cfg1.N)
          (fun n h => k1_pay2 (k1_pay1 (F := Ideal)) (iblk1 V c 0 ⟨n, h⟩) (iblk1 V c 1 ⟨n, h⟩))
          (fun n h acc => k1_pay2 acc (iblk1 V c 0 ⟨n, h⟩) (iblk1 V c 1 ⟨n, h⟩))
          (5 * (t.val / 5)) (t.val % 5) h' :=
  Pipeline.eq_accAt_of_mod (N := cfg1.N) (fun n h => (outsAt1 (F := Ideal) V c n h).2) 5
    (fun n h => k1_pay2 (k1_pay1 (F := Ideal)) (iblk1 V c 0 ⟨n, h⟩) (iblk1 V c 1 ⟨n, h⟩))
    (fun n h acc => k1_pay2 acc (iblk1 V c 0 ⟨n, h⟩) (iblk1 V c 1 ⟨n, h⟩))
    (fun n h hm => scr1_first V c ⟨n, h⟩ hm)
    (fun n h hm => scr1_next V c ⟨n + 1, h⟩ hm)
    (by decide) t.val t.isLt h'

/-- So at an entry it is zero plus what the points of the row up to `t` added. -/
theorem scr1_apply (t : Fin cfg1.N) (r : Fin 2048) (q : Fin 64) :
    (outsAt1 (F := Ideal) V c t.val t.isLt).2 (ix2 r q)
      = 0 + ∑ j ∈ Finset.range (t.val % 5 + 1), add1 V c (5 * (t.val / 5) + j) (ix2 r q) := by
  have hN : cfg1.N = 25 := N1
  have h' : 5 * (t.val / 5) + t.val % 5 < cfg1.N := by have := t.isLt; omega
  rw [scr1_eq_accAt V c t h']
  refine Pipeline.accAt_add_apply (N := cfg1.N)
    (fun n h => k1_pay2 (k1_pay1 (F := Ideal)) (iblk1 V c 0 ⟨n, h⟩) (iblk1 V c 1 ⟨n, h⟩))
    (fun n h acc => k1_pay2 acc (iblk1 V c 0 ⟨n, h⟩) (iblk1 V c 1 ⟨n, h⟩))
    (fun _ => (0 : EReal)) (add1 V c) (5 * (t.val / 5)) 4 ?_ ?_ (t.val % 5) (by omega) h' (ix2 r q)
  · intro h i
    obtain ⟨p, q', rfl⟩ : ∃ (p : Fin 2048) (q' : Fin 64), i = ix2 p q' := ⟨i 0, i 1, eq_ix2 i⟩
    refine (pay2_1_apply _ (ablk1 V c ⟨_, h⟩) (yblk1 V c ⟨_, h⟩) p q').trans ?_
    rw [pay1_1_apply]
    unfold add1
    rw [dif_pos h]
  · intro n h acc i _ _
    obtain ⟨p, q', rfl⟩ : ∃ (p : Fin 2048) (q' : Fin 64), i = ix2 p q' := ⟨i 0, i 1, eq_ix2 i⟩
    refine (pay2_1_apply acc (ablk1 V c ⟨n, h⟩) (yblk1 V c ⟨n, h⟩) p q').trans ?_
    unfold add1
    rw [dif_pos h]

/-- What point `5 i + j` adds at `(r, q)` is the part of row `2048 i + r`'s sum over column block `j`. -/
theorem add1_eq (i j : ℕ) (hi : i < 5) (hj : j < 5) (r : Fin 2048) (q : Fin 64) (d : Fin 10240)
    (hd : d.val = 2048 * i + r.val) :
    add1 V c (5 * i + j) (ix2 r q) = ∑ s ∈ Finset.range 2048, term1 V c d q (2048 * j + s) := by
  have hn : 5 * i + j < cfg1.N := by rw [N1]; omega
  unfold add1
  rw [dif_pos hn, Finset.sum_range]
  refine Finset.sum_congr rfl (fun s _ => ?_)
  have hs : 2048 * j + s.val < 10240 := by have := s.isLt; omega
  unfold term1
  rw [dif_pos hs]
  have hdiv : (5 * i + j) / 5 = i := by omega
  have hmod : (5 * i + j) % 5 = j := by omega
  rw [ablk1_apply V c ⟨5 * i + j, hn⟩ r s d ⟨2048 * j + s.val, hs⟩ (by show d.val = 2048 * ((5 * i + j) / 5) + r.val; rw [hdiv]; exact hd)
      (by show 2048 * j + s.val = 2048 * ((5 * i + j) % 5) + s.val; rw [hmod]),
    yblk1_apply V c ⟨5 * i + j, hn⟩ s q ⟨2048 * j + s.val, hs⟩ (by show 2048 * j + s.val = 2048 * ((5 * i + j) % 5) + s.val; rw [hmod])]

/-- An entry of the result: the whole row sum, plus the bias of the column. -/
def g1 (d : Fin 10240) (q : Fin 64) : EReal :=
  (∑ s : Fin 10240, A1 V c (ix2 d s) * Y1 V c (ix2 s q)) + B1 V c (ix2 (0 : Fin 1) q)

/-- The block a row's last point writes out holds, at `(r, q)`, the result entry of row `2048 i + r`. -/
theorem out1_apply (t : Fin cfg1.N) (ht : t.val % 5 = 4) (r : Fin 2048) (q : Fin 64) (d : Fin 10240)
    (hd : d.val = 2048 * (t.val / 5) + r.val) :
    (outsAt1 (F := Ideal) V c t.val t.isLt).1 (ix2 r q) = g1 V c d q := by
  have hN : cfg1.N = 25 := N1
  have hi : t.val / 5 < 5 := by have := t.isLt; omega
  rw [out1_last V c t ht]
  refine (pay3_1_apply _ (bblk1 V c t) r q).trans ?_
  rw [scr1_apply V c t r q, bblk1_apply V c t q, ht, zero_add,
    Finset.sum_congr rfl (fun j hj => add1_eq V c (t.val / 5) j hi (Finset.mem_range.mp hj) r q d hd),
    sum_blocks (term1 V c d q) 2048 5, Finset.sum_range]
  unfold g1
  refine congrArg (fun x => x + B1 V c (ix2 (0 : Fin 1) q)) ?_
  refine Finset.sum_congr rfl (fun s _ => ?_)
  unfold term1
  rw [dif_pos s.isLt]

/-! ### Region 1: from the blocks to the result array -/

/-- The result array the region leaves. -/
def G1 : (⟨S10240x64, .f32⟩ : BufTy).Contents (Elt Ideal) := fun i => g1 V c (i 0) (i 1)

/-- What a row's last point writes back is its block of that array. -/
theorem flushed1_eq (t : Fin cfg1.N) (hf : (cfg1.win 3).flush t = true) :
    (dat1 (F := Ideal) V c).flushed 3 t = ((cfg1.win 3).blk t).view.read (Elt Ideal) (G1 V c) := by
  have ht : t.val % 5 = 4 := (flush1_3 t).mp hf
  obtain ⟨-, -, -, -, -, -, e0, e1⟩ := idx1 t
  show (cfg1.win 3).cut (grid1.coords t) ((dat1 (F := Ideal) V c).after 3 t) = _
  rw [after1_3]
  funext y
  obtain ⟨r, q, rfl⟩ : ∃ (r : Fin 2048) (q : Fin 64), y = ix2 r q := ⟨y 0, y 1, eq_ix2 y⟩
  rw [View.read_apply]
  have key : ∀ (d : Fin 10240) (q2 : Fin 64), d.val = 2048 * (t.val / 5) + r.val → q2.val = q.val →
      (outsAt1 (F := Ideal) V c t.val t.isLt).1 (ix2 r q) = g1 V c d q2 := fun d q2 h1 h2 => by
    rw [show q2 = q from Fin.ext h2]
    exact out1_apply V c t ht r q d h1
  refine key _ _ ?_ ?_
  · show win1_3.index t (0 : Fin 2) * 2048 + 1 * r.val = _
    rw [e0]; omega
  · show win1_3.index t (1 : Fin 2) * 64 + 1 * q.val = _
    rw [e1]; omega

/-- An index of the result array is in point `t`'s block when each coordinate is in the block's range on its axis. -/
theorem mem_blk1 (t : Fin cfg1.N) (i : S10240x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v58).slice (win1_3.rect t)).set ↔ _
  rw [View.set_slice_whole, Rect.mem_set_unit]
  exact Iff.rfl

/-- The five row blocks tile the result array: row `d` is written by the last point of grid row `d / 2048`. -/
theorem cover1 (i : S10240x64.Idx) : ∃ t : Fin cfg1.N, (cfg1.win 3).flush t = true ∧ i ∈ ((cfg1.win 3).blk t).view.set := by
  have h0 : (i 0).val < 10240 := (i 0).isLt
  have h1 : (i 1).val < 64 := (i 1).isLt
  have hN : cfg1.N = 25 := N1
  let t : Fin cfg1.N := ⟨5 * ((i 0).val / 2048) + 4, by omega⟩
  have htv : t.val = 5 * ((i 0).val / 2048) + 4 := rfl
  obtain ⟨-, -, -, -, -, -, e0, e1⟩ := idx1 t
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; rw [e0]; omega
  | ⟨1, _⟩ => show win1_3.index t (1 : Fin 2) * 64 ≤ (i 1).val ∧ (i 1).val < win1_3.index t (1 : Fin 2) * 64 + 64; rw [e1]; omega

/-- So the result array ends holding it. -/
theorem final1 : (dat1 (F := Ideal) V c).arrAt 3 cfg1.N = G1 V c :=
  (dat1 (F := Ideal) V c).arrAt_eq_of_cover 3 (G1 V c) (flushed1_eq V c) (cover1)

end ValueAux

theorem arr1_apply (d : Fin 10240) (k : Fin 64) :
    R1 V c (ix2 d k) = (∑ s : Fin 10240, A1 V c (ix2 d s) * Y1 V c (ix2 s k)) + B1 V c (ix2 (0 : Fin 1) k) := by
  show (dat1 (F := Ideal) V c).arrAt 3 cfg1.N (ix2 d k) = _
  rw [final1 V c]
  rfl

end Cert.KernelIdeal.Hand

end
-- ==== Proof.KernelNet.lean ====
/-
  The kernel program's result at node d and channel k is the dense network of the edge list with self loops: its second
  region leaves `Σ_s adj[d, s] · (h · W2)[s, k] + b2[k]`, where h is what its first region leaves,
  `max (Σ_s adj[·, s] · (x_pad · W1)[s, ·] + b1) 0`, and adj is the dense adjacency its host code scatters the norms into.
-/
import proofs.«424546_j8289286881626_1_alg».proof.Proof.KI.Run
import proofs.«424546_j8289286881626_1_alg».proof.Proof.KI.Value
import proofs.«424546_j8289286881626_1_alg».proof.Proof.KI.HostRead

noncomputable section

namespace Cert.Proof.Hand

open Idealize.ShloMosaic Idealize.ShloMosaic.TcCoe Idealize.SL.Sem Idealize.ShloMosaic.ValueIdx
open Cert.GcnMath Cert.Chain Cert.KernelIdeal Cert.KernelIdeal.Hand

/-- What the first region leaves, entry by entry: the dense adjacency's row of node s times the padded features
    mapped by the first weight matrix, plus the first bias, through the rectifier. -/
theorem h1_apply (m : (ℓ : Loc Cert.KernelIdeal.nD Cert.KernelIdeal.τ Cert.KernelIdeal.sig) → Buf (Elt Ideal) ℓ) (c : Dev Cert.KernelIdeal.nD)
    (hei : ∀ i, 0 ≤ (argEi m c i).toInt ∧ (argEi m c i).toInt < 10000) (s : Fin 10240) (j : Fin 128) :
    h1At c (outs m) (ix2 s j)
      = max (aggKer (srcZ (argEi m c)) (dstZ (argEi m c)) (nrm (argEi m c) (argEw m c))
          (dense (fun s j => xpadAt m c (ix2 s j)) (fun j k => argW1 m c (ix2 j k))) s j + argB1 m c (ix1 j)) 0 := by
  show (outs m 4 main_v54 c : (⟨S10240x128, .f32⟩ : BufTy).Contents (Elt Ideal)) (ix2 s j) = _
  rw [outs_v54]
  refine (arr0_apply (Ve0 m) c s j).trans ?_
  have hsum : (∑ s' : Fin 10240, A0 (Ve0 m) c (ix2 s s') * Y0 (Ve0 m) c (ix2 s' j))
      = aggKer (srcZ (argEi m c)) (dstZ (argEi m c)) (nrm (argEi m c) (argEw m c))
          (dense (fun s j => xpadAt m c (ix2 s j)) (fun j k => argW1 m c (ix2 j k))) s j := by
    unfold aggKer
    refine Finset.sum_congr rfl (fun s' _ => ?_)
    exact congrArg₂ (· * ·) (agg_apply m c hei s s') (xw1_apply m c s' j)
  rw [hsum]
  exact congrArg (fun b => max (_ + b) 0) (b1row_apply m c j)

/-- The kernel program's result, entry by entry, is the dense network of the edge list with self loops. -/
theorem kernel_apply (m : (ℓ : Loc Cert.KernelIdeal.nD Cert.KernelIdeal.τ Cert.KernelIdeal.sig) → Buf (Elt Ideal) ℓ) (c : Dev Cert.KernelIdeal.nD)
    (hei : ∀ i, 0 ≤ (argEi m c i).toInt ∧ (argEi m c i).toInt < 10000) (d : Fin 10000) (k : Fin 64) :
    resultAt m c (outs m) (ix2 d k)
      = kerNet (srcZ (argEi m c)) (dstZ (argEi m c)) (nrm (argEi m c) (argEw m c)) (fun s j => xpadAt m c (ix2 s j))
          (fun j k => argW1 m c (ix2 j k)) (fun k => argB1 m c (ix1 k)) (fun j k => argW2 m c (ix2 j k)) (fun k => argB2 m c (ix1 k))
          ⟨d.val, by omega⟩ k := by
  rw [result_apply]
  show (outs m 6 main_v58 c : (⟨S10240x64, .f32⟩ : BufTy).Contents (Elt Ideal)) (ix2 (⟨d.val, by omega⟩ : Fin 10240) k) = _
  rw [outs_v58]
  refine (arr1_apply (Ve1 m) c ⟨d.val, by omega⟩ k).trans ?_
  unfold kerNet
  have hsum : (∑ s : Fin 10240, A1 (Ve1 m) c (ix2 (⟨d.val, by omega⟩ : Fin 10240) s) * Y1 (Ve1 m) c (ix2 s k))
      = aggKer (srcZ (argEi m c)) (dstZ (argEi m c)) (nrm (argEi m c) (argEw m c))
          (dense (fun s k => max (aggKer (srcZ (argEi m c)) (dstZ (argEi m c)) (nrm (argEi m c) (argEw m c))
              (dense (fun s j => xpadAt m c (ix2 s j)) (fun j k => argW1 m c (ix2 j k))) s k + argB1 m c (ix1 k)) 0)
            (fun j k => argW2 m c (ix2 j k))) ⟨d.val, by omega⟩ k := by
    unfold aggKer
    refine Finset.sum_congr rfl (fun s _ => ?_)
    refine congrArg₂ (· * ·) ?_ ?_
    · show agg1At m c (outs m) (ix2 (⟨d.val, by omega⟩ : Fin 10240) s) = _
      rw [agg1_eq]
      exact agg_apply m c hei ⟨d.val, by omega⟩ s
    · refine (xw2_apply m c (outs m) s k).trans ?_
      unfold dense
      refine Finset.sum_congr rfl (fun j _ => ?_)
      exact congrArg (· * argW2 m c (ix2 j k)) (h1_apply m c hei s j)
  rw [hsum]
  exact congrArg (fun b => _ + b) (b2row_apply m c (outs m) k)

end Cert.Proof.Hand

end
-- ==== Proof.RefRead.lean ====
/-
  The reference's result, entry by entry, is the gather-and-scatter network of the edge list with self loops:
  each layer gathers the rows of `features · W` at the edges' sources, scales them by the norms and adds them up by
  destination, then adds the bias; a rectifier sits between the two layers.
-/
import proofs.«424546_j8289286881626_1_alg».proof.Proof.Chain
import proofs.«424546_j8289286881626_1_alg».proof.Proof.LibScatterAdd
import proofs.«424546_j8289286881626_1_alg».proof.Proof.LibGatherBlock
import proofs.«424546_j8289286881626_1_alg».proof.Proof.LibPlainDot

noncomputable section

namespace Cert.RefRead

open Idealize.ShloMosaic Idealize.ShloMosaic.ValueIdx Cert.ReferenceIdeal Cert.ReferenceIdeal.Gen Cert.ReferenceIdeal.Read Cert.GcnMath Cert.Chain
open Idealize.ShloMosaic.StableHlo.Predicate Cert.LibIndexed

/-! ### The second layer's edge list is the first layer's

  The second layer builds the sources, the destinations and the norms of the edge list with self loops again, from the
  same arguments by the same operations; each is the first layer's value, term for term. -/

theorem v55_eq (ei : (⟨S2x640000, .i32⟩ : BufTy).Contents (Elt Ideal)) : val_main_v55 (F := Ideal) ei = val_main_v5 (F := Ideal) ei := rfl
theorem v56_eq (ei : (⟨S2x640000, .i32⟩ : BufTy).Contents (Elt Ideal)) : val_main_v56 (F := Ideal) ei = val_main_v6 (F := Ideal) ei := rfl
theorem v81_eq (ei : (⟨S2x640000, .i32⟩ : BufTy).Contents (Elt Ideal)) (ew : (⟨S640000, .f32⟩ : BufTy).Contents (Elt Ideal)) :
    val_main_v81 (F := Ideal) ei ew = val_main_v31 (F := Ideal) ei ew := rfl

/-- One layer at an entry. A scatter-add of rows into a zero matrix, by destination, of the rows of `y` gathered at the
    sources and scaled by the edges' weights: entry (d, c) is `0 + ∑_{e : dst e = d} a e · y[src e clamped, c]`, the
    gather-and-scatter arrangement `aggRef`. (An edge whose destination is no row of the matrix meets no entry, and a
    gather clamps its source into the matrix, exactly as `aggRef` is written.) -/
theorem layer_read {C : Nat}
    (dS : ScatterDims ⟨2, ![10000, C]⟩ ⟨2, ![650000, 1]⟩ ⟨2, ![650000, C]⟩)
    (huw : dS.updateWindowDims = [1]) (hiw : dS.insertedWindowDims = [0]) (hsd : dS.scatterDimsToOperandDims = [0])
    (hivd : dS.indexVectorDim = 1)
    (dG : GatherDims ⟨2, ![10000, C]⟩ ⟨2, ![650000, 1]⟩ ⟨2, ![650000, C]⟩)
    (hoff : dG.offsetDims = [1]) (hcoll : dG.collapsedSliceDims = [0]) (hob : dG.operandBatchingDims = [])
    (hsim : dG.startIndexMap = [0]) (hgivd : dG.indexVectorDim = 1) (hss : dG.sliceSizes = ![1, C])
    (z : (⟨2, ![10000, C]⟩ : Shape).Idx → EReal) (hz : ∀ i, z i = 0)
    (dcol scol : IVec ⟨2, ![650000, 1]⟩ 32)
    (y : (⟨2, ![10000, C]⟩ : Shape).Idx → EReal)
    (src dst : Fin 650000 → Int) (a : Fin 650000 → EReal)
    (hd : ∀ e, (dcol (ixP e)).toInt = dst e)
    (hs : ∀ e, (scol (ixP e)).toInt = src e)
    (upd : (⟨2, ![650000, C]⟩ : Shape).Idx → EReal)
    (hupd : ∀ e c, upd (ix2 e c) = a e * Host.gather dG y scol (ix2 e c))
    (d : Fin 10000) (c : Fin C) :
    Ideal.hostScatterAdd dS z dcol upd (ix2 d c)
      = aggRef src dst a (by norm_num : 0 < 10000) (fun s k => y (ix2 s k)) d c := by
  rw [scatterAdd_rows_apply dS huw hiw hsd hivd, hz]
  unfold aggRef
  refine congrArg (fun t => (0 : EReal) + t) (Finset.sum_congr rfl fun e _ => ?_)
  rw [hd e, hupd, gather_rows_apply dG hoff hcoll hob hsim hgivd hss y scol e c (by norm_num)]
  simp only [hs e]

/-- An index that is not negative is its own wrapped form: `select (w < 0) t w = w` for a signed word `0 ≤ w`. -/
theorem wrap_of_nonneg (w t : BitVec 32) (hw : 0 ≤ w.toInt) :
    Scalar.select (IntOp.cmpi .slt w 0#32) t w = w := by
  have h : IntOp.cmpi .slt w 0#32 ≠ 1#1 := by
    unfold IntOp.cmpi
    rw [Ne, ofBool_eq_one_iff]
    simp only [BitVec.slt, BitVec.toInt_zero, decide_eq_true_eq]
    omega
  exact if_neg h

/-- Row `e` of a one-column table, read from the vector it broadcasts. -/
theorem idx_col (e : Fin 650000) : idx_main_v44 (ixP e) = ix1 e := by
  funext a; match a with | ⟨0, _⟩ => rfl

/-- The hidden features at an entry: the first layer on `x · W1`, plus the bias, rectified. -/
theorem layer1_apply (x : (⟨S10000x128, .f32⟩ : BufTy).Contents (Elt Ideal)) (ei : (⟨S2x640000, .i32⟩ : BufTy).Contents (Elt Ideal))
    (ew : (⟨S640000, .f32⟩ : BufTy).Contents (Elt Ideal)) (W1 : (⟨S128x128, .f32⟩ : BufTy).Contents (Elt Ideal))
    (b1 : (⟨S128, .f32⟩ : BufTy).Contents (Elt Ideal))
    (hei : ∀ i, 0 ≤ (ei i).toInt ∧ (ei i).toInt < 10000) (s : Fin 10000) (k : Fin 128) :
    val_main_v49 (F := Ideal) x ei ew W1 b1 (ix2 s k)
      = max (aggRef (srcZ ei) (dstZ ei) (nrm ei ew) (by norm_num : 0 < 10000)
              (dense (fun s k => x (ix2 s k)) (fun k j => W1 (ix2 k j))) s k + b1 (ix1 k)) 0 := by
  rw [val_main_v49_apply, val_main_call1_v0_apply, val_main_call1_cst_apply, val_main_v48_apply, val_main_v47_apply,
    val_main_v46_apply]
  simp only [Ideal.maximumf_def, Ideal.addf_def, Ideal.ofBits_def, Ideal.ofBits_zero_f32]
  have hb : idx_main_v46 (idx_main_v47 (ix2 s k)) = ix1 k := by
    funext a; match a with | ⟨0, _⟩ => rfl
  rw [hb]
  have hL : val_main_v45 (F := Ideal) x ei ew W1 (ix2 s k)
      = aggRef (srcZ ei) (dstZ ei) (nrm ei ew) (by norm_num : 0 < 10000)
          (dense (fun s k => x (ix2 s k)) (fun k j => W1 (ix2 k j))) s k := by
    unfold val_main_v45
    simp only [Host.scatterAdd, Ideal.hostScatterAdd_def]
    rw [layer_read (C := 128) scatter_S10000x128_S650000x1_S650000x128_1_0_0_1 rfl rfl rfl rfl
      gather_S10000x128_S650000x1_S650000x128_1_0_n_n_0_1_1128 rfl rfl rfl rfl rfl rfl
      (val_main_v43 (F := Ideal)) ?hz (val_main_v44 (F := Ideal) ei) (val_main_v39 (F := Ideal) ei)
      (val_main_v32 (F := Ideal) x W1) (srcZ ei) (dstZ ei) (nrm ei ew) ?hd ?hs
      (val_main_v42 (F := Ideal) x ei ew W1) ?hupd s k]
    case hz =>
      intro i
      rw [val_main_v43_apply, val_main_cst_8_apply]
      simp only [Ideal.ofBits_def, Ideal.ofBits_zero_f32]
    case hd =>
      intro e
      rw [val_main_v44_apply, idx_col]
      rfl
    case hs =>
      intro e
      have h39 : idx_main_v39 (ixP e) = ix1 e := by
        funext a; match a with | ⟨0, _⟩ => rfl
      rw [val_main_v39_apply, h39, val_main_v38_apply, val_main_v35_apply, val_main_v34_apply, val_main_c_6_apply,
        wrap_of_nonneg _ _ (srcZ_range ei hei e).1]
      rfl
    case hupd =>
      intro e c
      have h1 : idx_main_v33 (idx_main_v41 (ix2 e c)) = ix1 e := by
        funext a; match a with | ⟨0, _⟩ => rfl
      rw [val_main_v42_apply, val_main_v41_apply, val_main_v33_apply, h1]
      rfl
    have hden : (fun s k => val_main_v32 (F := Ideal) x W1 (ix2 s k))
        = dense (fun s k => x (ix2 s k)) (fun k j => W1 (ix2 k j)) := by
      funext s' k'
      unfold val_main_v32
      simp only [Host.dotGeneral]
      exact PlainDot.dotGeneral_apply _ ⟨rfl, rfl, rfl, rfl, rfl, rfl⟩ none _ x W1 s' k'
    rw [hden]
  rw [hL]

/-- The reference's result at an entry is the network's value there: the second layer on the hidden features times
    `W2`, plus the bias. -/
theorem ref_apply (x : (⟨S10000x128, .f32⟩ : BufTy).Contents (Elt Ideal)) (ei : (⟨S2x640000, .i32⟩ : BufTy).Contents (Elt Ideal))
    (ew : (⟨S640000, .f32⟩ : BufTy).Contents (Elt Ideal)) (W1 : (⟨S128x128, .f32⟩ : BufTy).Contents (Elt Ideal))
    (b1 : (⟨S128, .f32⟩ : BufTy).Contents (Elt Ideal)) (W2 : (⟨S128x64, .f32⟩ : BufTy).Contents (Elt Ideal))
    (b2 : (⟨S64, .f32⟩ : BufTy).Contents (Elt Ideal))
    (hei : ∀ i, 0 ≤ (ei i).toInt ∧ (ei i).toInt < 10000) (d : Fin 10000) (c : Fin 64) :
    val_main_v98 (F := Ideal) x ei ew W1 b1 W2 b2 (ix2 d c)
      = refNet (srcZ ei) (dstZ ei) (nrm ei ew) (by norm_num : 0 < 10000) (fun s k => x (ix2 s k)) (fun k j => W1 (ix2 k j))
          (fun k => b1 (ix1 k)) (fun k j => W2 (ix2 k j)) (fun k => b2 (ix1 k)) d c := by
  rw [val_main_v98_apply, val_main_v97_apply, val_main_v96_apply]
  simp only [Ideal.addf_def]
  have hb : idx_main_v96 (idx_main_v97 (ix2 d c)) = ix1 c := by
    funext a; match a with | ⟨0, _⟩ => rfl
  rw [hb]
  unfold refNet
  have hL : val_main_v95 (F := Ideal) x ei ew W1 b1 W2 (ix2 d c)
      = aggRef (srcZ ei) (dstZ ei) (nrm ei ew) (by norm_num : 0 < 10000)
          (dense (fun s k => max (aggRef (srcZ ei) (dstZ ei) (nrm ei ew) (by norm_num : 0 < 10000)
              (dense (fun s k => x (ix2 s k)) (fun k j => W1 (ix2 k j))) s k + b1 (ix1 k)) 0) (fun k j => W2 (ix2 k j))) d c := by
    unfold val_main_v95
    simp only [Host.scatterAdd, Ideal.hostScatterAdd_def]
    rw [layer_read (C := 64) scatter_S10000x64_S650000x1_S650000x64_1_0_0_1 rfl rfl rfl rfl
      gather_S10000x64_S650000x1_S650000x64_1_0_n_n_0_1_164 rfl rfl rfl rfl rfl rfl
      (val_main_v93 (F := Ideal)) ?hz (val_main_v94 (F := Ideal) ei) (val_main_v89 (F := Ideal) ei)
      (val_main_v82 (F := Ideal) x ei ew W1 b1 W2) (srcZ ei) (dstZ ei) (nrm ei ew) ?hd ?hs
      (val_main_v92 (F := Ideal) x ei ew W1 b1 W2) ?hupd d c]
    case hz =>
      intro i
      rw [val_main_v93_apply, val_main_cst_19_apply]
      simp only [Ideal.ofBits_def, Ideal.ofBits_zero_f32]
    case hd =>
      intro e
      have h94 : idx_main_v94 (ixP e) = ix1 e := by
        funext a; match a with | ⟨0, _⟩ => rfl
      rw [val_main_v94_apply, h94, v56_eq]
      rfl
    case hs =>
      intro e
      have h89 : idx_main_v89 (ixP e) = ix1 e := by
        funext a; match a with | ⟨0, _⟩ => rfl
      rw [val_main_v89_apply, h89, val_main_v88_apply, val_main_v85_apply, val_main_v84_apply, val_main_c_17_apply, v55_eq,
        wrap_of_nonneg _ _ (srcZ_range ei hei e).1]
      rfl
    case hupd =>
      intro e c
      have h1 : idx_main_v83 (idx_main_v91 (ix2 e c)) = ix1 e := by
        funext a; match a with | ⟨0, _⟩ => rfl
      rw [val_main_v92_apply, val_main_v91_apply, val_main_v83_apply, h1, v81_eq]
      rfl
    have hden : (fun s j => val_main_v82 (F := Ideal) x ei ew W1 b1 W2 (ix2 s j))
        = dense (fun s k => max (aggRef (srcZ ei) (dstZ ei) (nrm ei ew) (by norm_num : 0 < 10000)
              (dense (fun s k => x (ix2 s k)) (fun k j => W1 (ix2 k j))) s k + b1 (ix1 k)) 0) (fun k j => W2 (ix2 k j)) := by
      funext s' j'
      unfold val_main_v82
      simp only [Host.dotGeneral]
      rw [PlainDot.dotGeneral_apply _ ⟨rfl, rfl, rfl, rfl, rfl, rfl⟩ none _ (val_main_v49 (F := Ideal) x ei ew W1 b1) W2 s' j']
      unfold dense
      refine Finset.sum_congr rfl fun k _ => ?_
      rw [layer1_apply x ei ew W1 b1 hei s' k]
      rfl
    rw [hden]
  rw [hL]

end Cert.RefRead

end
-- ==== Proof.PreFacts.lean ====
/-
  What the precondition says: every float argument holds real numbers, and every entry of the edge list is a node index.
  The precondition is a conjunction of "all entries of |v| are below +∞" for the six float arguments and of
  "0 ≤ e < 10000 for every entry e of the edge list"; each conjunct is an all-reduction of an elementwise test, read
  back at an entry.
-/
import proofs.«424546_j8289286881626_1_alg».proof.Pre_finite_inputs
import proofs.«424546_j8289286881626_1_alg».proof.Proof.Gen.Pre_finite_inputs
import proofs.«424546_j8289286881626_1_alg».proof.Proof.GcnMath
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs Cert.GcnMath

/-- The word `0x7F800000` is the single-precision `+∞`: exponent field all ones, fraction zero, sign clear. -/
theorem inf_bits : Ideal.ofBits .f32 0x7F800000#32 = (⊤ : EReal) := by
  simp [Ideal.ofBits, Ideal.ieee]

/-- An extended real whose absolute value `max v (-v)` lies strictly below `+∞` is a real number: at `⊤` the
    absolute value is `⊤`, and at `⊥` it is `-⊥ = ⊤`, so neither passes the test. -/
theorem real_of_abs_lt (v : EReal) (h : Ideal.cmp .olt (max v (-v)) (Ideal.ofBits .f32 0x7F800000#32) = 1#1) : IsReal v := by
  rw [inf_bits] at h
  simp only [Ideal.cmp, StableHlo.Predicate.ofBool_eq_one_iff, decide_eq_true_eq] at h
  induction v using EReal.rec with
  | bot => simp at h
  | coe r => exact ⟨r, rfl⟩
  | top => simp at h

/-- The two signed comparisons `a ≥ 0` and `a < 10000` on a 32-bit word, read as facts about its signed value. -/
theorem idx_of_cmp (a : BitVec 32) (h1 : IntOp.cmpi .sge a 0#32 = 1#1) (h2 : IntOp.cmpi .slt a 10000#32 = 1#1) :
    0 ≤ a.toInt ∧ a.toInt < 10000 := by
  simp only [IntOp.cmpi, StableHlo.Predicate.ofBool_eq_one_iff, BitVec.sle, BitVec.slt, decide_eq_true_eq] at h1 h2
  have e0 : (0#32).toInt = 0 := by decide
  have e1 : (10000#32).toInt = 10000 := by decide
  rw [e0] at h1; rw [e1] at h2
  exact ⟨h1, h2⟩

/-- The scalar shape has exactly one index. -/
instance subsingleton_scalar_idx : Subsingleton S_.Idx := ⟨fun a b => funext fun d => d.elim0⟩

/-- One float conjunct: if the conjunction over all entries of `|v| < +∞` holds, every entry of `v` is a real number.
    The all-reduction gives the test at each entry; the broadcast of the scalar constant reads `+∞` everywhere. -/
theorem real_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi (cmpf .olt (Host.absf v) (broadcastInDim s ![] hb (constant S_ .f32 0x7F800000#32)))
      (constantI S_ 1 1#1) hr hu ValueIdx.ix0 = 1#1) (i : s.Idx) : IsReal (v i) := by
  have hi := Host.reduce_andi_all _ _ hr hu _ e i
  exact real_of_abs_lt (v i) hi

/-- The integer conjunct: if the conjunction over all entries of `0 ≤ a ∧ a < 10000` holds, every entry lies in that range. -/
theorem idx_of_all {s : Shape} {axes : List (Fin s.rank)} (a : IVec s 32)
    (hb : S_.BroadcastsInDim s (![] : Fin 0 → Fin s.rank)) (hr : s.ReducesTo axes S_) (hu : 0 < S_.numel)
    (e : Host.reduce IntOp.andi (andi (cmpi .sge a (broadcastInDim s ![] hb (constantI S_ 32 0#32)))
        (cmpi .slt a (broadcastInDim s ![] hb (constantI S_ 32 10000#32))))
      (constantI S_ 1 1#1) hr hu ValueIdx.ix0 = 1#1) (i : s.Idx) : 0 ≤ (a i).toInt ∧ (a i).toInt < 10000 := by
  have hi := Host.reduce_andi_all _ _ hr hu _ e i
  obtain ⟨h1, h2⟩ := IntOp.andi_eq_one.1 hi
  exact idx_of_cmp (a i) h1 h2

/-- The precondition at the extended reals, decoded. -/
theorem of_pre (x : FVec Ideal S10000x128 .f32) (ei : IVec S2x640000 32) (ew : FVec Ideal S640000 .f32)
    (W1 : FVec Ideal S128x128 .f32) (b1 : FVec Ideal S128 .f32) (W2 : FVec Ideal S128x64 .f32) (b2 : FVec Ideal S64 .f32)
    (h : Cert.Pre_finite_inputs.fn (F := Ideal) x ei ew W1 b1 W2 b2 = (fun _ => 1#1)) :
    (∀ i, IsReal (x i)) ∧ (∀ i, IsReal (ew i)) ∧ (∀ i, IsReal (W1 i)) ∧ (∀ i, IsReal (b1 i)) ∧ (∀ i, IsReal (W2 i))
      ∧ (∀ i, IsReal (b2 i)) ∧ (∀ i, 0 ≤ (ei i).toInt ∧ (ei i).toInt < 10000) := by
  -- The predicate's one value, at the scalar index, is a left-nested conjunction of seven all-reductions:
  -- six of `|v| < +∞` (in the order x, ew, W1, b1, W2, b2) and last the one of the edge list's range test.
  have h0 := congrFun h ValueIdx.ix0
  dsimp only [fn, fn_part1, fn_part2, andi] at h0
  obtain ⟨h6, hei⟩ := IntOp.andi_eq_one.1 h0
  obtain ⟨h5, hb2⟩ := IntOp.andi_eq_one.1 h6
  obtain ⟨h4, hW2⟩ := IntOp.andi_eq_one.1 h5
  obtain ⟨h3, hb1⟩ := IntOp.andi_eq_one.1 h4
  obtain ⟨h2, hW1⟩ := IntOp.andi_eq_one.1 h3
  obtain ⟨hx, hew⟩ := IntOp.andi_eq_one.1 h2
  exact ⟨real_of_all x _ _ _ hx, real_of_all ew _ _ _ hew, real_of_all W1 _ _ _ hW1, real_of_all b1 _ _ _ hb1,
    real_of_all W2 _ _ _ hW2, real_of_all b2 _ _ _ hb2, idx_of_all ei _ _ _ hei⟩

end Cert.PreFacts

end
-- ==== Proof.Algebraic.lean ====
/-
  The two programs compute the same numbers.

  The kernel program's result at node d and channel k is the dense network of the edge list with self loops: its second
  region leaves `Σ_s adj[d, s] · (h · W2)[s, k] + b2[k]`, where h is what its first region leaves,
  `max (Σ_s adj[·, s] · (x_pad · W1)[s, ·] + b1) 0`, and adj is the dense adjacency its host code scatters the norms
  into. The reference's result is the gather-and-scatter network of the same edge list. Under the precondition every
  float argument is real and every edge endpoint is a node, so the norms are real and the two arrangements of a layer
  agree (distributing an adjacency entry's sum over a product is legitimate for real numbers); the padding rows of the
  kernel's arrays meet no edge.
-/
import proofs.«424546_j8289286881626_1_alg».proof.Defs
import proofs.«424546_j8289286881626_1_alg».proof.Proof.KI.RunValue
import proofs.«424546_j8289286881626_1_alg».proof.Proof.KI.HostRead
import proofs.«424546_j8289286881626_1_alg».proof.Proof.KernelNet
import proofs.«424546_j8289286881626_1_alg».proof.Proof.RefRead
import proofs.«424546_j8289286881626_1_alg».proof.Proof.PreFacts
import proofs.«424546_j8289286881626_1_alg».proof.Proof.Gen.Pre_finite_inputs
import proofs.«424546_j8289286881626_1_alg».proof.Proof.Gen.ReferenceIdeal.Run
import proofs.«424546_j8289286881626_1_alg».proof.Proof.Gen.ReferenceIdeal.Read

noncomputable section

namespace Cert.Proof.Hand

open Idealize.ShloMosaic Idealize.ShloMosaic.TcCoe Idealize.SL.Sem Idealize.ShloMosaic.ValueIdx
open Cert.GcnMath Cert.Chain Cert.KernelIdeal Cert.KernelIdeal.Hand

/-- The reference's result array is the kernel program's, entry by entry: at node d and channel k the reference holds
    the gather-and-scatter network of the edge list with self loops, the kernel program the dense network of the same
    edge list over its padded arrays, and the two networks agree on every node once the features, the weights, the
    first bias and the norms are real numbers and every edge endpoint is a node, which is what the precondition says. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (argX m c) (argEi m c) (argEw m c) (argW1 m c) (argB1 m c) (argW2 m c) (argB2 m c)
      = fun _ => 1#1) :
    Cert.ReferenceIdeal.Read.val_main_v98 (F := Ideal) (argX m c) (argEi m c) (argEw m c) (argW1 m c) (argB1 m c) (argW2 m c) (argB2 m c)
      = resultAt m c (outs m) := by
  obtain ⟨hx, hew, hW1, hb1, hW2, hb2, hei⟩ := Cert.PreFacts.of_pre _ _ _ _ _ _ _ hpre
  funext i
  obtain ⟨d, k, rfl⟩ : ∃ (d : Fin 10000) (k : Fin 64), i = ix2 d k := ⟨i 0, i 1, eq_ix2 i⟩
  rw [Cert.RefRead.ref_apply _ _ _ _ _ _ _ hei d k, kernel_apply m c hei d k]
  exact (kerNet_eq_refNet (by norm_num) (by norm_num) _ _ _ (srcZ_range _ hei) (dstZ_range _ hei) (nrm_real _ _ hew)
    (fun s k => argX m c (ix2 s k)) (fun s k => hx _) (fun s j => xpadAt m c (ix2 s j)) (fun s h j => xpad_apply m c s h j)
    _ (fun k c => hW1 _) _ (fun k => hb1 _) _ (fun k c => hW2 _) _ d k).symm

/-- Both idealized programs, run from memories that agree on the arguments, end with equal results. -/
theorem algebraic : Cert.algebraic_KernelIdeal_ReferenceIdeal := by
  intro m ρ m' ρ' hpre hagree
  refine ⟨fun c => Cert.KernelIdeal.Gen.V7 m (Cert.KernelIdeal.Hand.outs m) c Cert.KernelIdeal.main_v59,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  -- the reference's result is its composed term of its arguments, which are the kernel program's arguments
  rw [Cert.ReferenceIdeal.Read.val_main_v98_eq m' c, (hagree c).1, (hagree c).2.1, (hagree c).2.2.1, (hagree c).2.2.2.1,
    (hagree c).2.2.2.2.1, (hagree c).2.2.2.2.2.1, (hagree c).2.2.2.2.2.2]
  exact result_eq m c (hpre c)

end Cert.Proof.Hand

end
-- ==== Proof.lean ====
/-
  A two-layer graph convolution, computed two ways, gives the same numbers on the extended reals.

  The kernel program scatters the per-edge norms of the graph (with one self loop per node) into a dense adjacency
  matrix padded to 10240 x 10240 and computes each layer as a blocked matrix product `adj · (features · W) + b` on the
  matrix unit, five column blocks accumulated per row block; the reference gathers the rows of `features · W` at the
  edges' sources, scales them by the norms and adds them up by destination. Under the precondition — every float
  argument finite and every entry of the edge list a node index, the domain on which the reference's own indexing is
  in range — the two are equal entry by entry: each adjacency entry is a finite sum of real norms, so it distributes
  over the product with a real feature, and regrouping the double sum by edge gives the reference's sum; the padding
  rows and columns meet no edge and contribute zeros.

  The three frames: each program runs to its end from any memory satisfying the precondition, faults nowhere and leaves
  its arguments as they were — for the two kernel programs through the two matrix-product regions' point-by-point
  invariants (the accumulator carried from point to point, the result block written at the last point of each row),
  for the reference by its straight-line run. The idealization rewrote no operation, so it preserves the program
  trivially.
-/
import proofs.«424546_j8289286881626_1_alg».proof.Defs
import proofs.«424546_j8289286881626_1_alg».proof.Proof.Gen.Kernel
import proofs.«424546_j8289286881626_1_alg».proof.Proof.Gen.Kernel.Skeleton
import proofs.«424546_j8289286881626_1_alg».proof.Proof.Gen.Kernel.Launch
import proofs.«424546_j8289286881626_1_alg».proof.Proof.Gen.Kernel.Regions
import proofs.«424546_j8289286881626_1_alg».proof.Proof.Gen.Kernel.Points
import proofs.«424546_j8289286881626_1_alg».proof.Proof.Gen.KernelIdeal
import proofs.«424546_j8289286881626_1_alg».proof.Proof.Gen.KernelIdeal.Skeleton
import proofs.«424546_j8289286881626_1_alg».proof.Proof.Gen.KernelIdeal.Launch
import proofs.«424546_j8289286881626_1_alg».proof.Proof.Gen.KernelIdeal.Regions
import proofs.«424546_j8289286881626_1_alg».proof.Proof.Gen.KernelIdeal.Points
import proofs.«424546_j8289286881626_1_alg».proof.Proof.Gen.ReferenceIdeal
import proofs.«424546_j8289286881626_1_alg».proof.Proof.Gen.ReferenceIdeal.Run
import proofs.«424546_j8289286881626_1_alg».proof.Proof.Gen.Pre_finite_inputs
import proofs.«424546_j8289286881626_1_alg».proof.Proof.K.Run
import proofs.«424546_j8289286881626_1_alg».proof.Proof.KI.Run
import proofs.«424546_j8289286881626_1_alg».proof.Proof.Algebraic
import Idealize.ShloMosaic.Adequacy
import Idealize.ShloMosaic.Init

noncomputable section

namespace Cert.Proof

open Idealize.ShloMosaic Idealize.SL.Sem

/-- The word-level kernel program runs to its end with its arguments unchanged. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- And the reference: its straight-line run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Hand.algebraic⟩

end Cert.Proof

end
